-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v28)) (v1 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_v54) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v80) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S50000x64 : Shape := ⟨2, ![50000, 64]⟩
abbrev S4x64 : Shape := ⟨2, ![4, 64]⟩
abbrev S2x1000000 : Shape := ⟨2, ![2, 1000000]⟩
abbrev S1000000 : Shape := ⟨1, ![1000000]⟩
abbrev S16x64 : Shape := ⟨2, ![16, 64]⟩
abbrev S4x16 : Shape := ⟨2, ![4, 16]⟩
abbrev S_ : Shape := ⟨0, ![]⟩
abbrev S1x1000000 : Shape := ⟨2, ![1, 1000000]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S4x64 : S_.BroadcastsInDim S4x64 (![] : Fin 0 → Fin S4x64.rank)
  reducesTo_S4x64_S_d0_1 : S4x64.ReducesTo [0, 1] S_
  bcast_S_S1000000 : S_.BroadcastsInDim S1000000 (![] : Fin 0 → Fin S1000000.rank)
  reducesTo_S1000000_S_d0 : S1000000.ReducesTo [0] S_
  bcast_S_S16x64 : S_.BroadcastsInDim S16x64 (![] : Fin 0 → Fin S16x64.rank)
  reducesTo_S16x64_S_d0_1 : S16x64.ReducesTo [0, 1] S_
  bcast_S_S4x16 : S_.BroadcastsInDim S4x16 (![] : Fin 0 → Fin S4x16.rank)
  reducesTo_S4x16_S_d0_1 : S4x16.ReducesTo [0, 1] S_
  bcast_S_S2x1000000 : S_.BroadcastsInDim S2x1000000 (![] : Fin 0 → Fin S2x1000000.rank)
  reducesTo_S2x1000000_S_d0_1 : S2x1000000.ReducesTo [0, 1] S_
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000

variable [Facts]

def fn_part3 {F : FTy → Type} [FloatOps F] (main_arg5 : IVec S2x1000000 32) (main_v47 : IVec S_ 1) (main_v49 : IVec S1000000 32) (main_v50 : IVec S1000000 32) : IVec S_ 1 :=
  let main_v51 : IVec S1000000 1 := cmpi .sge main_v49 main_v50
  let main_v52 : IVec S1x1000000 32 := (extractStridedSlice S1x1000000 ![0, 0] · slices_S2x1000000_S1x1000000_0_0) main_arg5
  let main_v53 : IVec S1000000 32 := shapeCast S1000000 main_v52 shapeCasts_S1x1000000_S1000000
  let main_c_19 : IVec S_ 32 := constantI S_ 32 50000#32
  let main_v54 : IVec S1000000 32 := broadcastInDim S1000000 ![] bcast_S_S1000000 main_c_19
  let main_v55 : IVec S1000000 1 := cmpi .slt main_v53 main_v54
  let main_v56 : IVec S1000000 1 := andi main_v51 main_v55
  let main_c_20 : IVec S_ 1 := constantI S_ 1 1#1
  let main_v57 : IVec S_ 1 := (fun x v => Host.reduce IntOp.andi x v reducesTo_S1000000_S_d0 h_S_) main_v56 main_c_20
  let main_v58 : IVec S_ 1 := andi main_v47 main_v57
  let main_v59 : IVec S1x1000000 32 := (extractStridedSlice S1x1000000 ![1, 0] · slices_S2x1000000_S1x1000000_1_0) main_arg5
  let main_v60 : IVec S1000000 32 := shapeCast S1000000 main_v59 shapeCasts_S1x1000000_S1000000
  let main_c_21 : IVec S_ 32 := constantI S_ 32 0#32
  let main_v61 : IVec S1000000 32 := broadcastInDim S1000000 ![] bcast_S_S1000000 main_c_21
  let main_v62 : IVec S1000000 1 := cmpi .sge main_v60 main_v61
  let main_v63 : IVec S1x1000000 32 := (extractStridedSlice S1x1000000 ![1, 0] · slices_S2x1000000_S1x1000000_1_0) main_arg5
  let main_v64 : IVec S1000000 32 := shapeCast S1000000 main_v63 shapeCasts_S1x1000000_S1000000
  let main_c_22 : IVec S_ 32 := constantI S_ 32 100000#32
  let main_v65 : IVec S1000000 32 := broadcastInDim S1000000 ![] bcast_S_S1000000 main_c_22
  let main_v66 : IVec S1000000 1 := cmpi .slt main_v64 main_v65
  let main_v67 : IVec S1000000 1 := andi main_v62 main_v66
  let main_c_23 : IVec S_ 1 := constantI S_ 1 1#1
  let main_v68 : IVec S_ 1 := (fun x v => Host.reduce IntOp.andi x v reducesTo_S1000000_S_d0 h_S_) main_v67 main_c_23
  let main_v69 : IVec S_ 1 := andi main_v58 main_v68
  main_v69

def fn_part2 {F : FTy → Type} [FloatOps F] (main_arg3 : IVec S2x1000000 32) (main_arg4 : IVec S1000000 32) (main_arg5 : IVec S2x1000000 32) (main_v33 : IVec S_ 1) : IVec S_ 1 :=
  let main_c_12 : IVec S_ 32 := constantI S_ 32 0#32
  let main_v34 : IVec S2x1000000 32 := broadcastInDim S2x1000000 ![] bcast_S_S2x1000000 main_c_12
  let main_v35 : IVec S2x1000000 1 := cmpi .sge main_arg3 main_v34
  let main_c_13 : IVec S_ 32 := constantI S_ 32 100000#32
  let main_v36 : IVec S2x1000000 32 := broadcastInDim S2x1000000 ![] bcast_S_S2x1000000 main_c_13
  let main_v37 : IVec S2x1000000 1 := cmpi .slt main_arg3 main_v36
  let main_v38 : IVec S2x1000000 1 := andi main_v35 main_v37
  let main_c_14 : IVec S_ 1 := constantI S_ 1 1#1
  let main_v39 : IVec S_ 1 := (fun x v => Host.reduce IntOp.andi x v reducesTo_S2x1000000_S_d0_1 h_S_) main_v38 main_c_14
  let main_v40 : IVec S_ 1 := andi main_v33 main_v39
  let main_c_15 : IVec S_ 32 := constantI S_ 32 1#32
  let main_v41 : IVec S1000000 32 := broadcastInDim S1000000 ![] bcast_S_S1000000 main_c_15
  let main_v42 : IVec S1000000 1 := cmpi .sge main_arg4 main_v41
  let main_c_16 : IVec S_ 32 := constantI S_ 32 16#32
  let main_v43 : IVec S1000000 32 := broadcastInDim S1000000 ![] bcast_S_S1000000 main_c_16
  let main_v44 : IVec S1000000 1 := cmpi .sle main_arg4 main_v43
  let main_v45 : IVec S1000000 1 := andi main_v42 main_v44
  let main_c_17 : IVec S_ 1 := constantI S_ 1 1#1
  let main_v46 : IVec S_ 1 := (fun x v => Host.reduce IntOp.andi x v reducesTo_S1000000_S_d0 h_S_) main_v45 main_c_17
  let main_v47 : IVec S_ 1 := andi main_v40 main_v46
  let main_v48 : IVec S1x1000000 32 := (extractStridedSlice S1x1000000 ![0, 0] · slices_S2x1000000_S1x1000000_0_0) main_arg5
  let main_v49 : IVec S1000000 32 := shapeCast S1000000 main_v48 shapeCasts_S1x1000000_S1000000
  let main_c_18 : IVec S_ 32 := constantI S_ 32 0#32
  let main_v50 : IVec S1000000 32 := broadcastInDim S1000000 ![] bcast_S_S1000000 main_c_18
  fn_part3 (F := F) main_arg5 main_v47 main_v49 main_v50

def fn_part1 {F : FTy → Type} [FloatOps F] (main_arg3 : IVec S2x1000000 32) (main_arg4 : IVec S1000000 32) (main_arg5 : IVec S2x1000000 32) (main_arg7 : FVec F S16x64 .f32) (main_arg8 : FVec F S4x16 .f32) (main_arg9 : FVec F S1000000 .f32) (main_v13 : IVec S_ 1) (main_v16 : IVec S1000000 1) : IVec S_ 1 :=
  let main_c_5 : IVec S_ 1 := constantI S_ 1 1#1
  let main_v17 : IVec S_ 1 := (fun x v => Host.reduce IntOp.andi x v reducesTo_S1000000_S_d0 h_S_) main_v16 main_c_5
  let main_v18 : IVec S_ 1 := andi main_v13 main_v17
  let main_v19 : FVec F S16x64 .f32 := Host.absf main_arg7
  let main_cst_6 : FVec F S_ .f32 := constant S_ .f32 0x7F800000#32
  let main_v20 : FVec F S16x64 .f32 := broadcastInDim S16x64 ![] bcast_S_S16x64 main_cst_6
  let main_v21 : IVec S16x64 1 := cmpf .olt main_v19 main_v20
  let main_c_7 : IVec S_ 1 := constantI S_ 1 1#1
  let main_v22 : IVec S_ 1 := (fun x v => Host.reduce IntOp.andi x v reducesTo_S16x64_S_d0_1 h_S_) main_v21 main_c_7
  let main_v23 : IVec S_ 1 := andi main_v18 main_v22
  let main_v24 : FVec F S4x16 .f32 := Host.absf main_arg8
  let main_cst_8 : FVec F S_ .f32 := constant S_ .f32 0x7F800000#32
  let main_v25 : FVec F S4x16 .f32 := broadcastInDim S4x16 ![] bcast_S_S4x16 main_cst_8
  let main_v26 : IVec S4x16 1 := cmpf .olt main_v24 main_v25
  let main_c_9 : IVec S_ 1 := constantI S_ 1 1#1
  let main_v27 : IVec S_ 1 := (fun x v => Host.reduce IntOp.andi x v reducesTo_S4x16_S_d0_1 h_S_) main_v26 main_c_9
  let main_v28 : IVec S_ 1 := andi main_v23 main_v27
  let main_v29 : FVec F S1000000 .f32 := Host.absf main_arg9
  let main_cst_10 : FVec F S_ .f32 := constant S_ .f32 0x7F800000#32
  let main_v30 : FVec F S1000000 .f32 := broadcastInDim S1000000 ![] bcast_S_S1000000 main_cst_10
  let main_v31 : IVec S1000000 1 := cmpf .olt main_v29 main_v30
  let main_c_11 : IVec S_ 1 := constantI S_ 1 1#1
  let main_v32 : IVec S_ 1 := (fun x v => Host.reduce IntOp.andi x v reducesTo_S1000000_S_d0 h_S_) main_v31 main_c_11
  let main_v33 : IVec S_ 1 := andi main_v28 main_v32
  fn_part2 (F := F) main_arg3 main_arg4 main_arg5 main_v33

def fn {F : FTy → Type} [FloatOps F] (main_arg0 : FVec F S100000x64 .f32) (main_arg1 : FVec F S50000x64 .f32) (main_arg2 : FVec F S4x64 .f32) (main_arg3 : IVec S2x1000000 32) (main_arg4 : IVec S1000000 32) (main_arg5 : IVec S2x1000000 32) (main_arg6 : FVec F S1000000 .f32) (main_arg7 : FVec F S16x64 .f32) (main_arg8 : FVec F S4x16 .f32) (main_arg9 : FVec F S1000000 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S4x64 .f32 := Host.absf main_arg2
  let main_cst_2 : FVec F S_ .f32 := constant S_ .f32 0x7F800000#32
  let main_v10 : FVec F S4x64 .f32 := broadcastInDim S4x64 ![] bcast_S_S4x64 main_cst_2
  let main_v11 : IVec S4x64 1 := cmpf .olt main_v9 main_v10
  let main_c_3 : IVec S_ 1 := constantI S_ 1 1#1
  let main_v12 : IVec S_ 1 := (fun x v => Host.reduce IntOp.andi x v reducesTo_S4x64_S_d0_1 h_S_) main_v11 main_c_3
  let main_v13 : IVec S_ 1 := andi main_v8 main_v12
  let main_v14 : FVec F S1000000 .f32 := Host.absf main_arg6
  let main_cst_4 : FVec F S_ .f32 := constant S_ .f32 0x7F800000#32
  let main_v15 : FVec F S1000000 .f32 := broadcastInDim S1000000 ![] bcast_S_S1000000 main_cst_4
  let main_v16 : IVec S1000000 1 := cmpf .olt main_v14 main_v15
  fn_part1 (F := F) main_arg3 main_arg4 main_arg5 main_arg7 main_arg8 main_arg9 main_v13 main_v16
-- ==== Kernel.lean ====
abbrev S100000x64 : Shape := ⟨2, ![100000, 64]⟩
abbrev S50000x64 : Shape := ⟨2, ![50000, 64]⟩
abbrev S4x64 : Shape := ⟨2, ![4, 64]⟩
abbrev S2x1000000 : Shape := ⟨2, ![2, 1000000]⟩
abbrev S1000000 : Shape := ⟨1, ![1000000]⟩
abbrev S16x64 : Shape := ⟨2, ![16, 64]⟩
abbrev S4x16 : Shape := ⟨2, ![4, 16]⟩
abbrev S1x1000000 : Shape := ⟨2, ![1, 1000000]⟩
abbrev S_ : Shape := ⟨0, ![]⟩
abbrev S1000000x1 : Shape := ⟨2, ![1000000, 1]⟩
abbrev S1000000x64 : Shape := ⟨2, ![1000000, 64]⟩
abbrev S1000000x65 : Shape := ⟨2, ![1000000, 65]⟩
abbrev S5000x64 : Shape := ⟨2, ![5000, 64]⟩
abbrev S5000x1 : Shape := ⟨2, ![5000, 1]⟩
abbrev S5000x65 : Shape := ⟨2, ![5000, 65]⟩
abbrev S5000x16 : Shape := ⟨2, ![5000, 16]⟩
abbrev S100000x65 : Shape := ⟨2, ![100000, 65]⟩
abbrev S10000x65 : Shape := ⟨2, ![10000, 65]⟩
abbrev S10000x64 : Shape := ⟨2, ![10000, 64]⟩
abbrev S10000x1 : Shape := ⟨2, ![10000, 1]⟩
abbrev S4 : Shape := ⟨1, ![4]⟩
abbrev S4x1 : Shape := ⟨2, ![4, 1]⟩
abbrev S64x4 : Shape := ⟨2, ![64, 4]⟩
abbrev S5000x4 : Shape := ⟨2, ![5000, 4]⟩
abbrev S5000 : Shape := ⟨1, ![5000]⟩

abbrev nBuf : Space → Nat
  | .hbm => 110
  | .vmem => 27
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S4x64, .f32⟩
  | .hbm, ⟨3, _⟩ => ⟨S2x1000000, .i32⟩
  | .hbm, ⟨4, _⟩ => ⟨S1000000, .i32⟩
  | .hbm, ⟨5, _⟩ => ⟨S2x1000000, .i32⟩
  | .hbm, ⟨6, _⟩ => ⟨S1000000, .f32⟩
  | .hbm, ⟨7, _⟩ => ⟨S16x64, .f32⟩
  | .hbm, ⟨8, _⟩ => ⟨S4x16, .f32⟩
  | .hbm, ⟨9, _⟩ => ⟨S1000000, .f32⟩
  | .hbm, ⟨10, _⟩ => ⟨S1x1000000, .i32⟩
  | .hbm, ⟨11, _⟩ => ⟨S1000000, .i32⟩
  | .hbm, ⟨12, _⟩ => ⟨S1x1000000, .i32⟩
  | .hbm, ⟨13, _⟩ => ⟨S1000000, .i32⟩
  | .hbm, ⟨14, _⟩ => ⟨S1x1000000, .i32⟩
  | .hbm, ⟨15, _⟩ => ⟨S1000000, .i32⟩
  | .hbm, ⟨16, _⟩ => ⟨S1x1000000, .i32⟩
  | .hbm, ⟨17, _⟩ => ⟨S1000000, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S1000000, .i32⟩
  | .hbm, ⟨22, _⟩ => ⟨S1000000, .i32⟩
  | .hbm, ⟨23, _⟩ => ⟨S_, .i32⟩
  | .hbm, ⟨24, _⟩ => ⟨S1000000, .i32⟩
  | .hbm, ⟨25, _⟩ => ⟨S1000000, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S1000000, .i32⟩
  | .hbm, ⟨30, _⟩ => ⟨S1000000, .i32⟩
  | .hbm, ⟨31, _⟩ => ⟨S_, .i32⟩
  | .hbm, ⟨32, _⟩ => ⟨S1000000, .i32⟩
  | .hbm, ⟨33, _⟩ => ⟨S1000000, .i32⟩
  | .hbm, ⟨34, _⟩ => ⟨S_, .i32⟩
  | .hbm, ⟨35, _⟩ => ⟨S1000000, .i32⟩
  | .hbm, ⟨36, _⟩ => ⟨S1000000, .i32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S1000000, .i32⟩
  | .hbm, ⟨41, _⟩ => ⟨S1000000, .i32⟩
  | .hbm, ⟨42, _⟩ => ⟨S_, .i32⟩
  | .hbm, ⟨43, _⟩ => ⟨S1000000, .i32⟩
  | .hbm, ⟨44, _⟩ => ⟨S1000000, .i32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S1000000, .i32⟩
  | .hbm, ⟨49, _⟩ => ⟨S1000000, .i32⟩
  | .hbm, ⟨50, _⟩ => ⟨S_, .i32⟩
  | .hbm, ⟨51, _⟩ => ⟨S1000000, .i32⟩
  | .hbm, ⟨52, _⟩ => ⟨S1000000, .i32⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S1000000, .i32⟩
  | .hbm, ⟨57, _⟩ => ⟨S1000000, .i32⟩
  | .hbm, ⟨58, _⟩ => ⟨S_, .i32⟩
  | .hbm, ⟨59, _⟩ => ⟨S1000000, .i32⟩
  | .hbm, ⟨60, _⟩ => ⟨S1000000, .i32⟩
  | .hbm, ⟨61, _⟩ => ⟨S_, .i32⟩
  | .hbm, ⟨62, _⟩ => ⟨S1000000, .i32⟩
  | .hbm, ⟨63, _⟩ => ⟨S1000000, .i1⟩
  | .hbm, ⟨64, _⟩ => ⟨S_, .i32⟩
  | .hbm, ⟨65, _⟩ => ⟨S1000000, .i32⟩
  | .hbm, ⟨66, _⟩ => ⟨S1000000, .i32⟩
  | .hbm, ⟨67, _⟩ => ⟨S1000000, .i32⟩
  | .hbm, ⟨68, _⟩ => ⟨S1000000x1, .i32⟩
  | .hbm, ⟨69, _⟩ => ⟨S1000000x64, .f32⟩
  | .hbm, ⟨70, _⟩ => ⟨S1000000x1, .f32⟩
  | .hbm, ⟨71, _⟩ => ⟨S1000000x1, .i32⟩
  | .hbm, ⟨72, _⟩ => ⟨S1000000x65, .f32⟩
  | .hbm, ⟨73, _⟩ => ⟨S_, .f32⟩
  | .hbm, ⟨74, _⟩ => ⟨S100000x65, .f32⟩
  | .hbm, ⟨75, _⟩ => ⟨S1000000x1, .i32⟩
  | .hbm, ⟨76, _⟩ => ⟨S100000x65, .f32⟩
  | .hbm, ⟨77, _⟩ => ⟨S100000x64, .f32⟩
  | .hbm, ⟨78, _⟩ => ⟨S_, .i32⟩
  | .hbm, ⟨79, _⟩ => ⟨S1000000, .i32⟩
  | .hbm, ⟨80, _⟩ => ⟨S1000000, .i1⟩
  | .hbm, ⟨81, _⟩ => ⟨S_, .i32⟩
  | .hbm, ⟨82, _⟩ => ⟨S1000000, .i32⟩
  | .hbm, ⟨83, _⟩ => ⟨S1000000, .i32⟩
  | .hbm, ⟨84, _⟩ => ⟨S1000000, .i32⟩
  | .hbm, ⟨85, _⟩ => ⟨S1000000x1, .i32⟩
  | .hbm, ⟨86, _⟩ => ⟨S1000000x64, .f32⟩
  | .hbm, ⟨87, _⟩ => ⟨S1000000x1, .f32⟩
  | .hbm, ⟨88, _⟩ => ⟨S1000000x64, .f32⟩
  | .hbm, ⟨89, _⟩ => ⟨S_, .f32⟩
  | .hbm, ⟨90, _⟩ => ⟨S50000x64, .f32⟩
  | .hbm, ⟨91, _⟩ => ⟨S1000000x1, .i32⟩
  | .hbm, ⟨92, _⟩ => ⟨S50000x64, .f32⟩
  | .hbm, ⟨93, _⟩ => ⟨S_, .f32⟩
  | .hbm, ⟨94, _⟩ => ⟨S4, .f32⟩
  | .hbm, ⟨95, _⟩ => ⟨S_, .f32⟩
  | .hbm, ⟨96, _⟩ => ⟨S4, .f32⟩
  | .hbm, ⟨97, _⟩ => ⟨S4, .f32⟩
  | .hbm, ⟨98, _⟩ => ⟨S4x1, .f32⟩
  | .hbm, ⟨99, _⟩ => ⟨S4x16, .f32⟩
  | .hbm, ⟨100, _⟩ => ⟨S4x16, .f32⟩
  | .hbm, ⟨101, _⟩ => ⟨S4x16, .f32⟩
  | .hbm, ⟨102, _⟩ => ⟨S_, .f32⟩
  | .hbm, ⟨103, _⟩ => ⟨S4, .f32⟩
  | .hbm, ⟨104, _⟩ => ⟨S4x1, .f32⟩
  | .hbm, ⟨105, _⟩ => ⟨S4x16, .f32⟩
  | .hbm, ⟨106, _⟩ => ⟨S4x16, .f32⟩
  | .hbm, ⟨107, _⟩ => ⟨S4x64, .f32⟩
  | .hbm, ⟨108, _⟩ => ⟨S64x4, .f32⟩
  | .hbm, ⟨109, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S5000x1, .i32⟩
  | .local _ .vmem, ⟨3, _⟩ => ⟨S5000x1, .i32⟩
  | .local _ .vmem, ⟨4, _⟩ => ⟨S5000x1, .f32⟩
  | .local _ .vmem, ⟨5, _⟩ => ⟨S5000x1, .f32⟩
  | .local _ .vmem, ⟨6, _⟩ => ⟨S16x64, .f32⟩
  | .local _ .vmem, ⟨7, _⟩ => ⟨S5000x65, .f32⟩
  | .local _ .vmem, ⟨8, _⟩ => ⟨S5000x65, .f32⟩
  | .local _ .vmem, ⟨9, _⟩ => ⟨S10000x65, .f32⟩
  | .local _ .vmem, ⟨10, _⟩ => ⟨S10000x65, .f32⟩
  | .local _ .vmem, ⟨11, _⟩ => ⟨S10000x64, .f32⟩
  | .local _ .vmem, ⟨12, _⟩ => ⟨S10000x64, .f32⟩
  | .local _ .vmem, ⟨13, _⟩ => ⟨S5000x64, .f32⟩
  | .local _ .vmem, ⟨14, _⟩ => ⟨S5000x64, .f32⟩
  | .local _ .vmem, ⟨15, _⟩ => ⟨S5000x1, .f32⟩
  | .local _ .vmem, ⟨16, _⟩ => ⟨S5000x1, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S64x4, .f32⟩
  | .local _ .vmem, ⟨24, _⟩ => ⟨S4x64, .f32⟩
  | .local _ .vmem, ⟨25, _⟩ => ⟨S5000x64, .f32⟩
  | .local _ .vmem, ⟨26, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.hbm, 18, rfl⟩
abbrev main_c_0 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v8 : Ref sig .tc := ⟨.hbm, 25, rfl⟩
abbrev main_c_1 : Ref sig .tc := ⟨.hbm, 26, rfl⟩
abbrev main_c_2 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_v9 : Ref sig .tc := ⟨.hbm, 33, rfl⟩
abbrev main_c_3 : Ref sig .tc := ⟨.hbm, 34, rfl⟩
abbrev main_v10 : Ref sig .tc := ⟨.hbm, 35, rfl⟩
abbrev main_v11 : Ref sig .tc := ⟨.hbm, 36, rfl⟩
abbrev main_c_4 : Ref sig .tc := ⟨.hbm, 37, rfl⟩
abbrev main_c_5 : Ref sig .tc := ⟨.hbm, 38, rfl⟩
abbrev main_call2_v0 : Ref sig .tc := ⟨.hbm, 39, rfl⟩
abbrev main_call2_v1 : Ref sig .tc := ⟨.hbm, 40, rfl⟩
abbrev main_call2_v2 : Ref sig .tc := ⟨.hbm, 41, rfl⟩
abbrev main_call2_v3 : Ref sig .tc := ⟨.hbm, 42, rfl⟩
abbrev main_call2_v4 : Ref sig .tc := ⟨.hbm, 43, rfl⟩
abbrev main_v12 : Ref sig .tc := ⟨.hbm, 44, rfl⟩
abbrev main_c_6 : Ref sig .tc := ⟨.hbm, 45, rfl⟩
abbrev main_c_7 : Ref sig .tc := ⟨.hbm, 46, rfl⟩
abbrev main_call3_v0 : Ref sig .tc := ⟨.hbm, 47, rfl⟩
abbrev main_call3_v1 : Ref sig .tc := ⟨.hbm, 48, rfl⟩
abbrev main_call3_v2 : Ref sig .tc := ⟨.hbm, 49, rfl⟩
abbrev main_call3_v3 : Ref sig .tc := ⟨.hbm, 50, rfl⟩
abbrev main_call3_v4 : Ref sig .tc := ⟨.hbm, 51, rfl⟩
abbrev main_v13 : Ref sig .tc := ⟨.hbm, 52, rfl⟩
abbrev main_c_8 : Ref sig .tc := ⟨.hbm, 53, rfl⟩
abbrev main_c_9 : Ref sig .tc := ⟨.hbm, 54, rfl⟩
abbrev main_call4_v0 : Ref sig .tc := ⟨.hbm, 55, rfl⟩
abbrev main_call4_v1 : Ref sig .tc := ⟨.hbm, 56, rfl⟩
abbrev main_call4_v2 : Ref sig .tc := ⟨.hbm, 57, rfl⟩
abbrev main_call4_v3 : Ref sig .tc := ⟨.hbm, 58, rfl⟩
abbrev main_call4_v4 : Ref sig .tc := ⟨.hbm, 59, rfl⟩
abbrev main_v14 : Ref sig .tc := ⟨.hbm, 60, rfl⟩
abbrev main_c_10 : Ref sig .tc := ⟨.hbm, 61, rfl⟩
abbrev main_v15 : Ref sig .tc := ⟨.hbm, 62, rfl⟩
abbrev main_v16 : Ref sig .tc := ⟨.hbm, 63, rfl⟩
abbrev main_c_11 : Ref sig .tc := ⟨.hbm, 64, rfl⟩
abbrev main_v17 : Ref sig .tc := ⟨.hbm, 65, rfl⟩
abbrev main_v18 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_v22 : Ref sig .tc := ⟨.hbm, 70, rfl⟩
abbrev main_v23 : Ref sig .tc := ⟨.hbm, 71, rfl⟩
abbrev main_v24 : Ref sig .tc := ⟨.hbm, 72, rfl⟩
abbrev main_cst : Ref sig .tc := ⟨.hbm, 73, rfl⟩
abbrev main_v25 : Ref sig .tc := ⟨.hbm, 74, rfl⟩
abbrev main_v26 : Ref sig .tc := ⟨.hbm, 75, rfl⟩
abbrev main_v27 : Ref sig .tc := ⟨.hbm, 76, rfl⟩
abbrev main_v28 : Ref sig .tc := ⟨.hbm, 77, rfl⟩
abbrev main_c_12 : Ref sig .tc := ⟨.hbm, 78, rfl⟩
abbrev main_v29 : Ref sig .tc := ⟨.hbm, 79, rfl⟩
abbrev main_v30 : Ref sig .tc := ⟨.hbm, 80, rfl⟩
abbrev main_c_13 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_cst_14 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_cst_15 : Ref sig .tc := ⟨.hbm, 93, rfl⟩
abbrev main_v41 : Ref sig .tc := ⟨.hbm, 94, rfl⟩
abbrev main_cst_16 : Ref sig .tc := ⟨.hbm, 95, rfl⟩
abbrev main_v42 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_cst_17 : Ref sig .tc := ⟨.hbm, 102, rfl⟩
abbrev main_v48 : Ref sig .tc := ⟨.hbm, 103, rfl⟩
abbrev main_v49 : Ref sig .tc := ⟨.hbm, 104, rfl⟩
abbrev main_v50 : Ref sig .tc := ⟨.hbm, 105, rfl⟩
abbrev main_v51 : Ref sig .tc := ⟨.hbm, 106, rfl⟩
abbrev main_v52 : Ref sig .tc := ⟨.hbm, 107, rfl⟩
abbrev main_v53 : Ref sig .tc := ⟨.hbm, 108, rfl⟩
abbrev main_v54 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg4_0 : Ref sig .tc := ⟨.vmem, 25, rfl⟩
abbrev cc3_stg4_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem3_0 : DmaSem sig := 24
abbrev cc3_sem4_0 : DmaSem sig := 25
abbrev cc3_sem4_1 : DmaSem sig := 26

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x65 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x65 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x4 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S4x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x16_d1_w32 : S5000x16.Iotas .tc 32 [1]
  broadcasts_S5000x1_S5000x16 : S5000x1.Broadcasts S5000x16
  natLt_1_32 : 1 < 32
  inb_S16x64_S16x64_0_0 : ∀ a, (![0, 0] : Fin 2 → Nat) a + S16x64.size a ≤ S16x64.size a
  h_S16x64 : 0 < S16x64.numel
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  broadcasts_S5000x1_S5000x64 : S5000x1.Broadcasts S5000x64
  inb_S5000x65_S5000x64_0_0 : ∀ a, (![0, 0] : Fin 2 → Nat) a + S5000x64.size a ≤ S5000x65.size a
  inb_S5000x65_S5000x1_0_64 : ∀ a, (![0, 64] : Fin 2 → Nat) a + S5000x1.size a ≤ S5000x65.size a
  bcast_S_S100000x65 : S_.BroadcastsInDim S100000x65 (![] : Fin 0 → Fin S100000x65.rank)
  inb_S10000x65_S10000x64_0_0 : ∀ a, (![0, 0] : Fin 2 → Nat) a + S10000x64.size a ≤ S10000x65.size a
  h_S10000x64 : 0 < S10000x64.numel
  shapeCasts_S10000x64_S10000x64 : S10000x64.ShapeCasts S10000x64
  inb_S10000x65_S10000x1_0_64 : ∀ a, (![0, 64] : Fin 2 → Nat) a + S10000x1.size a ≤ S10000x65.size a
  h_S10000x1 : 0 < S10000x1.numel
  shapeCasts_S10000x1_S10000x1 : S10000x1.ShapeCasts S10000x1
  broadcasts_S10000x1_S10000x64 : S10000x1.Broadcasts S10000x64
  inb_S10000x64_S10000x64_0_0 : ∀ a, (![0, 0] : Fin 2 → Nat) a + S10000x64.size a ≤ S10000x64.size a
  bcast_S_S50000x64 : S_.BroadcastsInDim S50000x64 (![] : Fin 0 → Fin S50000x64.rank)
  reducesTo_S4x16_S4_d1 : S4x16.ReducesTo [1] S4
  h_S_ : 0 < S_.numel
  bcast_S_S4 : S_.BroadcastsInDim S4 (![] : Fin 0 → Fin S4.rank)
  bcast_S4_S4x1_0 : S4.BroadcastsInDim S4x1 (![0] : Fin 1 → Fin S4x1.rank)
  bcast_S4x1_S4x16_0_1 : S4x1.BroadcastsInDim S4x16 (![0, 1] : Fin 2 → Fin S4x16.rank)
  transposes_S4x64_S64x4_1_0 : S4x64.Transposes [1, 0] S64x4
  inb_S64x4_S64x4_0_0 : ∀ a, (![0, 0] : Fin 2 → Nat) a + S64x4.size a ≤ S64x4.size a
  h_S64x4 : 0 < S64x4.numel
  shapeCasts_S64x4_S64x4 : S64x4.ShapeCasts S64x4
  reduces_S5000x4_S5000 : S5000x4.Reduces [1] S5000
  shapeCasts_S5000_S5000x1 : S5000.ShapeCasts S5000x1
  broadcasts_S5000x1_S5000x4 : S5000x1.Broadcasts S5000x4
  inb_S4x64_S4x64_0_0 : ∀ a, (![0, 0] : Fin 2 → Nat) a + S4x64.size a ≤ S4x64.size a
  h_S4x64 : 0 < S4x64.numel
  shapeCasts_S4x64_S4x64 : S4x64.ShapeCasts S4x64
  gather_S100000x64_S1000000x1_S1000000x64_1_0_n_n_0_1_164_wf : GatherDims.WF S100000x64 S1000000x1 S1000000x64 [1] [0] [] [0] [] 1 ![1, 64]
  dot_S5000x16_S16x64_S5000x64_1_0_0_1_n_n_wf : DotDims.WF S5000x16 S16x64 S5000x64 [1] [0] [0] [1] [] []
  scatter_S100000x65_S1000000x1_S1000000x65_1_0_0_1_wf : ScatterDims.WF S100000x65 S1000000x1 S1000000x65 [1] [0] [0] 1
  scatter_S50000x64_S1000000x1_S1000000x64_1_0_0_1_wf : ScatterDims.WF S50000x64 S1000000x1 S1000000x64 [1] [0] [0] 1
  dot_S4x16_S16x64_S4x64_1_0_0_1_n_n_wf : DotDims.WF S4x16 S16x64 S4x64 [1] [0] [0] [1] [] []
  dot_S5000x64_S64x4_S5000x4_1_0_0_1_n_n_wf : DotDims.WF S5000x64 S64x4 S5000x4 [1] [0] [0] [1] [] []
  dot_S5000x4_S4x64_S5000x64_1_0_0_1_n_n_wf : DotDims.WF S5000x4 S4x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S1000000x64.size a
  hwx0_0 : ∀ i : grid0.Coords, EltTy.bits .f32 = 32 ∨ (Rect.block (s := S1000000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S1000000x1.size a
  hwx0_1 : ∀ i : grid0.Coords, EltTy.bits .i32 = 32 ∨ (Rect.block (s := S1000000x1) S5000x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S1000000x1.size a
  hwx0_2 : ∀ i : grid0.Coords, EltTy.bits .f32 = 32 ∨ (Rect.block (s := S1000000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x64.size a ≤ S16x64.size a
  hwx0_3 : ∀ i : grid0.Coords, EltTy.bits .f32 = 32 ∨ (Rect.block (s := S16x64) S16x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x65.size a ≤ S1000000x65.size a
  hwx0_4 : ∀ i : grid0.Coords, EltTy.bits .f32 = 32 ∨ (Rect.block (s := S1000000x65) S5000x65.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x65.size a ≤ S100000x65.size a
  hwx1_0 : ∀ i : grid1.Coords, EltTy.bits .f32 = 32 ∨ (Rect.block (s := S100000x65) S10000x65.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S1000000x64.size a
  hwx2_0 : ∀ i : grid2.Coords, EltTy.bits .f32 = 32 ∨ (Rect.block (s := S1000000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S1000000x1.size a
  hwx2_1 : ∀ i : grid2.Coords, EltTy.bits .f32 = 32 ∨ (Rect.block (s := S1000000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S1000000x64.size a
  hwx2_2 : ∀ i : grid2.Coords, EltTy.bits .f32 = 32 ∨ (Rect.block (s := S1000000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S50000x64.size a
  hwx3_1 : ∀ i : grid3.Coords, EltTy.bits .f32 = 32 ∨ (Rect.block (s := S50000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x4.size a ≤ S64x4.size a
  hwx3_2 : ∀ i : grid3.Coords, EltTy.bits .f32 = 32 ∨ (Rect.block (s := S64x4) S64x4.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S4x64.size a ≤ S4x64.size a
  hwx3_3 : ∀ i : grid3.Coords, EltTy.bits .f32 = 32 ∨ (Rect.block (s := S4x64) S4x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S50000x64.size a
  hwx3_4 : ∀ i : grid3.Coords, EltTy.bits .f32 = 32 ∨ (Rect.block (s := S50000x64) S5000x64.size (cc3_transform_4 i) (hinb3_4 i)).WholeWords (EltTy.packing .f32)

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def dot_S5000x16_S16x64_S5000x64_1_0_0_1_n_n : DotDims S5000x16 S16x64 S5000x64 where
  lhsContracting := [1]
  rhsContracting := [0]
  lhsNonContracting := [0]
  rhsNonContracting := [1]
  lhsBatch := []
  rhsBatch := []
  wf := dot_S5000x16_S16x64_S5000x64_1_0_0_1_n_n_wf
def scatter_S100000x65_S1000000x1_S1000000x65_1_0_0_1 : ScatterDims S100000x65 S1000000x1 S1000000x65 where
  updateWindowDims := [1]
  insertedWindowDims := [0]
  scatterDimsToOperandDims := [0]
  indexVectorDim := 1
  wf := scatter_S100000x65_S1000000x1_S1000000x65_1_0_0_1_wf
def scatter_S50000x64_S1000000x1_S1000000x64_1_0_0_1 : ScatterDims S50000x64 S1000000x1 S1000000x64 where
  updateWindowDims := [1]
  insertedWindowDims := [0]
  scatterDimsToOperandDims := [0]
  indexVectorDim := 1
  wf := scatter_S50000x64_S1000000x1_S1000000x64_1_0_0_1_wf
def dot_S4x16_S16x64_S4x64_1_0_0_1_n_n : DotDims S4x16 S16x64 S4x64 where
  lhsContracting := [1]
  rhsContracting := [0]
  lhsNonContracting := [0]
  rhsNonContracting := [1]
  lhsBatch := []
  rhsBatch := []
  wf := dot_S4x16_S16x64_S4x64_1_0_0_1_n_n_wf
def dot_S5000x64_S64x4_S5000x4_1_0_0_1_n_n : DotDims S5000x64 S64x4 S5000x4 where
  lhsContracting := [1]
  rhsContracting := [0]
  lhsNonContracting := [0]
  rhsNonContracting := [1]
  lhsBatch := []
  rhsBatch := []
  wf := dot_S5000x64_S64x4_S5000x4_1_0_0_1_n_n_wf
def dot_S5000x4_S4x64_S5000x64_1_0_0_1_n_n : DotDims S5000x4 S4x64 S5000x64 where
  lhsContracting := [1]
  rhsContracting := [0]
  lhsNonContracting := [0]
  rhsNonContracting := [1]
  lhsBatch := []
  rhsBatch := []
  wf := dot_S5000x4_S4x64_S5000x64_1_0_0_1_n_n_wf

abbrev win0_0 : Pipeline.Window sig grid0 :=
  Pipeline.Window.ofSpec (Memref.whole main_v21) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S16x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S5000x65.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v27) S10000x65.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S10000x64.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v35) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v36) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v37) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_arg1) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v40) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v53) S64x4.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v52) S4x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v54) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x64 : Shape := ⟨2, ![100000, 64]⟩
abbrev S50000x64 : Shape := ⟨2, ![50000, 64]⟩
abbrev S4x64 : Shape := ⟨2, ![4, 64]⟩
abbrev S2x1000000 : Shape := ⟨2, ![2, 1000000]⟩
abbrev S1000000 : Shape := ⟨1, ![1000000]⟩
abbrev S16x64 : Shape := ⟨2, ![16, 64]⟩
abbrev S4x16 : Shape := ⟨2, ![4, 16]⟩
abbrev S1x1000000 : Shape := ⟨2, ![1, 1000000]⟩
abbrev S_ : Shape := ⟨0, ![]⟩
abbrev S1000000x1 : Shape := ⟨2, ![1000000, 1]⟩
abbrev S1000000x64 : Shape := ⟨2, ![1000000, 64]⟩
abbrev S100000 : Shape := ⟨1, ![100000]⟩
abbrev S100000x1 : Shape := ⟨2, ![100000, 1]⟩
abbrev S64x4 : Shape := ⟨2, ![64, 4]⟩
abbrev S50000x4 : Shape := ⟨2, ![50000, 4]⟩
abbrev S50000 : Shape := ⟨1, ![50000]⟩
abbrev S50000x1 : Shape := ⟨2, ![50000, 1]⟩
abbrev S4 : Shape := ⟨1, ![4]⟩
abbrev S4x1 : Shape := ⟨2, ![4, 1]⟩

abbrev nBuf : Space → Nat
  | .hbm => 109
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S4x64, .f32⟩
  | .hbm, ⟨3, _⟩ => ⟨S2x1000000, .i32⟩
  | .hbm, ⟨4, _⟩ => ⟨S1000000, .i32⟩
  | .hbm, ⟨5, _⟩ => ⟨S2x1000000, .i32⟩
  | .hbm, ⟨6, _⟩ => ⟨S1000000, .f32⟩
  | .hbm, ⟨7, _⟩ => ⟨S16x64, .f32⟩
  | .hbm, ⟨8, _⟩ => ⟨S4x16, .f32⟩
  | .hbm, ⟨9, _⟩ => ⟨S1000000, .f32⟩
  | .hbm, ⟨10, _⟩ => ⟨S1x1000000, .i32⟩
  | .hbm, ⟨11, _⟩ => ⟨S1000000, .i32⟩
  | .hbm, ⟨12, _⟩ => ⟨S1x1000000, .i32⟩
  | .hbm, ⟨13, _⟩ => ⟨S1000000, .i32⟩
  | .hbm, ⟨14, _⟩ => ⟨S_, .i32⟩
  | .hbm, ⟨15, _⟩ => ⟨S1000000, .i32⟩
  | .hbm, ⟨16, _⟩ => ⟨S1000000, .i32⟩
  | .hbm, ⟨17, _⟩ => ⟨S_, .i32⟩
  | .hbm, ⟨18, _⟩ => ⟨S1000000, .i32⟩
  | .hbm, ⟨19, _⟩ => ⟨S1000000, .i1⟩
  | .hbm, ⟨20, _⟩ => ⟨S_, .i32⟩
  | .hbm, ⟨21, _⟩ => ⟨S1000000, .i32⟩
  | .hbm, ⟨22, _⟩ => ⟨S1000000, .i32⟩
  | .hbm, ⟨23, _⟩ => ⟨S1000000, .i32⟩
  | .hbm, ⟨24, _⟩ => ⟨S1000000x1, .i32⟩
  | .hbm, ⟨25, _⟩ => ⟨S1000000x64, .f32⟩
  | .hbm, ⟨26, _⟩ => ⟨S_, .i32⟩
  | .hbm, ⟨27, _⟩ => ⟨S1000000, .i32⟩
  | .hbm, ⟨28, _⟩ => ⟨S1000000, .i1⟩
  | .hbm, ⟨29, _⟩ => ⟨S_, .i32⟩
  | .hbm, ⟨30, _⟩ => ⟨S1000000, .i32⟩
  | .hbm, ⟨31, _⟩ => ⟨S1000000, .i32⟩
  | .hbm, ⟨32, _⟩ => ⟨S1000000, .i32⟩
  | .hbm, ⟨33, _⟩ => ⟨S1000000x1, .i32⟩
  | .hbm, ⟨34, _⟩ => ⟨S1000000x64, .f32⟩
  | .hbm, ⟨35, _⟩ => ⟨S1000000x64, .f32⟩
  | .hbm, ⟨36, _⟩ => ⟨S1000000x1, .f32⟩
  | .hbm, ⟨37, _⟩ => ⟨S1000000x64, .f32⟩
  | .hbm, ⟨38, _⟩ => ⟨S1000000x64, .f32⟩
  | .hbm, ⟨39, _⟩ => ⟨S_, .f32⟩
  | .hbm, ⟨40, _⟩ => ⟨S100000x64, .f32⟩
  | .hbm, ⟨41, _⟩ => ⟨S1000000x1, .i32⟩
  | .hbm, ⟨42, _⟩ => ⟨S100000x64, .f32⟩
  | .hbm, ⟨43, _⟩ => ⟨S_, .f32⟩
  | .hbm, ⟨44, _⟩ => ⟨S1000000, .f32⟩
  | .hbm, ⟨45, _⟩ => ⟨S_, .f32⟩
  | .hbm, ⟨46, _⟩ => ⟨S100000, .f32⟩
  | .hbm, ⟨47, _⟩ => ⟨S1000000x1, .i32⟩
  | .hbm, ⟨48, _⟩ => ⟨S100000, .f32⟩
  | .hbm, ⟨49, _⟩ => ⟨S_, .f32⟩
  | .hbm, ⟨50, _⟩ => ⟨S100000, .f32⟩
  | .hbm, ⟨51, _⟩ => ⟨S100000, .f32⟩
  | .hbm, ⟨52, _⟩ => ⟨S100000x1, .f32⟩
  | .hbm, ⟨53, _⟩ => ⟨S100000x64, .f32⟩
  | .hbm, ⟨54, _⟩ => ⟨S100000x64, .f32⟩
  | .hbm, ⟨55, _⟩ => ⟨S64x4, .f32⟩
  | .hbm, ⟨56, _⟩ => ⟨S50000x4, .f32⟩
  | .hbm, ⟨57, _⟩ => ⟨S_, .f32⟩
  | .hbm, ⟨58, _⟩ => ⟨S50000, .f32⟩
  | .hbm, ⟨59, _⟩ => ⟨S_, .f32⟩
  | .hbm, ⟨60, _⟩ => ⟨S50000, .f32⟩
  | .hbm, ⟨61, _⟩ => ⟨S50000, .f32⟩
  | .hbm, ⟨62, _⟩ => ⟨S50000x1, .f32⟩
  | .hbm, ⟨63, _⟩ => ⟨S50000x4, .f32⟩
  | .hbm, ⟨64, _⟩ => ⟨S50000x4, .f32⟩
  | .hbm, ⟨65, _⟩ => ⟨S50000x4, .f32⟩
  | .hbm, ⟨66, _⟩ => ⟨S_, .f32⟩
  | .hbm, ⟨67, _⟩ => ⟨S50000, .f32⟩
  | .hbm, ⟨68, _⟩ => ⟨S50000x1, .f32⟩
  | .hbm, ⟨69, _⟩ => ⟨S50000x4, .f32⟩
  | .hbm, ⟨70, _⟩ => ⟨S50000x4, .f32⟩
  | .hbm, ⟨71, _⟩ => ⟨S1x1000000, .i32⟩
  | .hbm, ⟨72, _⟩ => ⟨S1000000, .i32⟩
  | .hbm, ⟨73, _⟩ => ⟨S1x1000000, .i32⟩
  | .hbm, ⟨74, _⟩ => ⟨S1000000, .i32⟩
  | .hbm, ⟨75, _⟩ => ⟨S1000000x1, .f32⟩
  | .hbm, ⟨76, _⟩ => ⟨S_, .i32⟩
  | .hbm, ⟨77, _⟩ => ⟨S1000000, .i32⟩
  | .hbm, ⟨78, _⟩ => ⟨S1000000, .i1⟩
  | .hbm, ⟨79, _⟩ => ⟨S_, .i32⟩
  | .hbm, ⟨80, _⟩ => ⟨S1000000, .i32⟩
  | .hbm, ⟨81, _⟩ => ⟨S1000000, .i32⟩
  | .hbm, ⟨82, _⟩ => ⟨S1000000, .i32⟩
  | .hbm, ⟨83, _⟩ => ⟨S1000000x1, .i32⟩
  | .hbm, ⟨84, _⟩ => ⟨S1000000x64, .f32⟩
  | .hbm, ⟨85, _⟩ => ⟨S1000000x64, .f32⟩
  | .hbm, ⟨86, _⟩ => ⟨S1000000x64, .f32⟩
  | .hbm, ⟨87, _⟩ => ⟨S_, .f32⟩
  | .hbm, ⟨88, _⟩ => ⟨S50000x64, .f32⟩
  | .hbm, ⟨89, _⟩ => ⟨S1000000x1, .i32⟩
  | .hbm, ⟨90, _⟩ => ⟨S50000x64, .f32⟩
  | .hbm, ⟨91, _⟩ => ⟨S_, .f32⟩
  | .hbm, ⟨92, _⟩ => ⟨S4, .f32⟩
  | .hbm, ⟨93, _⟩ => ⟨S_, .f32⟩
  | .hbm, ⟨94, _⟩ => ⟨S4, .f32⟩
  | .hbm, ⟨95, _⟩ => ⟨S4, .f32⟩
  | .hbm, ⟨96, _⟩ => ⟨S4x1, .f32⟩
  | .hbm, ⟨97, _⟩ => ⟨S4x16, .f32⟩
  | .hbm, ⟨98, _⟩ => ⟨S4x16, .f32⟩
  | .hbm, ⟨99, _⟩ => ⟨S4x16, .f32⟩
  | .hbm, ⟨100, _⟩ => ⟨S_, .f32⟩
  | .hbm, ⟨101, _⟩ => ⟨S4, .f32⟩
  | .hbm, ⟨102, _⟩ => ⟨S4x1, .f32⟩
  | .hbm, ⟨103, _⟩ => ⟨S4x16, .f32⟩
  | .hbm, ⟨104, _⟩ => ⟨S4x16, .f32⟩
  | .hbm, ⟨105, _⟩ => ⟨S4x64, .f32⟩
  | .hbm, ⟨106, _⟩ => ⟨S50000x64, .f32⟩
  | .hbm, ⟨107, _⟩ => ⟨S50000x64, .f32⟩
  | .hbm, ⟨108, _⟩ => ⟨S50000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_c_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_c_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_cst_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_7 : Ref sig .tc := ⟨.hbm, 57, rfl⟩
abbrev main_v38 : Ref sig .tc := ⟨.hbm, 58, rfl⟩
abbrev main_cst_8 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_9 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_c_10 : Ref sig .tc := ⟨.hbm, 76, rfl⟩
abbrev main_v54 : Ref sig .tc := ⟨.hbm, 77, rfl⟩
abbrev main_v55 : Ref sig .tc := ⟨.hbm, 78, rfl⟩
abbrev main_c_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_12 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_13 : Ref sig .tc := ⟨.hbm, 91, rfl⟩
abbrev main_v66 : Ref sig .tc := ⟨.hbm, 92, rfl⟩
abbrev main_cst_14 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_15 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S1000000x1_S1000000x64_0_1 : S1000000x1.BroadcastsInDim S1000000x64 (![0, 1] : Fin 2 → Fin S1000000x64.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S4x64_S64x4_1_0 : S4x64.Transposes [1, 0] S64x4
  reducesTo_S50000x4_S50000_d1 : S50000x4.ReducesTo [1] S50000
  h_S_ : 0 < S_.numel
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x4_0_1 : S50000x1.BroadcastsInDim S50000x4 (![0, 1] : Fin 2 → Fin S50000x4.rank)
  bcast_S_S50000x64 : S_.BroadcastsInDim S50000x64 (![] : Fin 0 → Fin S50000x64.rank)
  reducesTo_S4x16_S4_d1 : S4x16.ReducesTo [1] S4
  bcast_S_S4 : S_.BroadcastsInDim S4 (![] : Fin 0 → Fin S4.rank)
  bcast_S4_S4x1_0 : S4.BroadcastsInDim S4x1 (![0] : Fin 1 → Fin S4x1.rank)
  bcast_S4x1_S4x16_0_1 : S4x1.BroadcastsInDim S4x16 (![0, 1] : Fin 2 → Fin S4x16.rank)
  gather_S16x64_S1000000x1_S1000000x64_1_0_n_n_0_1_164_wf : GatherDims.WF S16x64 S1000000x1 S1000000x64 [1] [0] [] [0] [] 1 ![1, 64]
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  scatter_S100000_S1000000x1_S1000000_n_0_0_1_wf : ScatterDims.WF S100000 S1000000x1 S1000000 [] [0] [0] 1
  dot_S50000x64_S64x4_S50000x4_1_0_0_1_n_n_wf : DotDims.WF S50000x64 S64x4 S50000x4 [1] [0] [0] [1] [] []
  scatter_S50000x64_S1000000x1_S1000000x64_1_0_0_1_wf : ScatterDims.WF S50000x64 S1000000x1 S1000000x64 [1] [0] [0] 1
  dot_S4x16_S16x64_S4x64_1_0_0_1_n_n_wf : DotDims.WF S4x16 S16x64 S4x64 [1] [0] [0] [1] [] []
  dot_S50000x4_S4x64_S50000x64_1_0_0_1_n_n_wf : DotDims.WF S50000x4 S4x64 S50000x64 [1] [0] [0] [1] [] []

variable [Facts₀]

def gather_S16x64_S1000000x1_S1000000x64_1_0_n_n_0_1_164 : GatherDims S16x64 S1000000x1 S1000000x64 where
  offsetDims := [1]
  collapsedSliceDims := [0]
  operandBatchingDims := []
  startIndicesBatchingDims := []
  startIndexMap := [0]
  indexVectorDim := 1
  sliceSizes := ![1, 64]
  wf := gather_S16x64_S1000000x1_S1000000x64_1_0_n_n_0_1_164_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S50000x64_S64x4_S50000x4_1_0_0_1_n_n : DotDims S50000x64 S64x4 S50000x4 where
  lhsContracting := [1]
  rhsContracting := [0]
  lhsNonContracting := [0]
  rhsNonContracting := [1]
  lhsBatch := []
  rhsBatch := []
  wf := dot_S50000x64_S64x4_S50000x4_1_0_0_1_n_n_wf
def scatter_S50000x64_S1000000x1_S1000000x64_1_0_0_1 : ScatterDims S50000x64 S1000000x1 S1000000x64 where
  updateWindowDims := [1]
  insertedWindowDims := [0]
  scatterDimsToOperandDims := [0]
  indexVectorDim := 1
  wf := scatter_S50000x64_S1000000x1_S1000000x64_1_0_0_1_wf
def dot_S4x16_S16x64_S4x64_1_0_0_1_n_n : DotDims S4x16 S16x64 S4x64 where
  lhsContracting := [1]
  rhsContracting := [0]
  lhsNonContracting := [0]
  rhsNonContracting := [1]
  lhsBatch := []
  rhsBatch := []
  wf := dot_S4x16_S16x64_S4x64_1_0_0_1_n_n_wf
def dot_S50000x4_S4x64_S50000x64_1_0_0_1_n_n : DotDims S50000x4 S4x64 S50000x64 where
  lhsContracting := [1]
  rhsContracting := [0]
  lhsNonContracting := [0]
  rhsNonContracting := [1]
  lhsBatch := []
  rhsBatch := []
  wf := dot_S50000x4_S4x64_S50000x64_1_0_0_1_n_n_wf

class Facts : Prop extends Facts₀ where

variable [Facts]
-- ==== Proof.KHostDefs.lean ====
/-
  The host side of the kernel program, as whole-array terms of the argument arrays: the index columns it feeds to its
  gathers and scatters (a row of an index pair, clamped into its table's range, wrapped where a gather follows, viewed
  as a column), the float columns, the gathered entity rows, the transposed latent table and the disentangled relation weights.
-/
import proofs.«400045_j55018531062593_4_alg».proof.Proof.Gen.KernelIdeal

set_option maxRecDepth 16384

noncomputable section

namespace Cert.KernelIdeal.Chain

open Cert.KernelIdeal
open Idealize.ShloMosaic

variable {F : FTy → Type} [FloatOps F]

/-! ## The index columns -/

/-- Row 0 / row 1 of a [2, E] index pair, as a vector of E words. -/
def row0 (x : (⟨S2x1000000, .i32⟩ : BufTy).Contents (Elt F)) : (⟨S1000000, .i32⟩ : BufTy).Contents (Elt F) :=
  shapeCast S1000000 (extractStridedSlice S1x1000000 ![0, 0] x Facts₀.slices_S2x1000000_S1x1000000_0_0) Facts₀.shapeCasts_S1x1000000_S1000000
def row1 (x : (⟨S2x1000000, .i32⟩ : BufTy).Contents (Elt F)) : (⟨S1000000, .i32⟩ : BufTy).Contents (Elt F) :=
  shapeCast S1000000 (extractStridedSlice S1x1000000 ![1, 0] x Facts₀.slices_S2x1000000_S1x1000000_1_0) Facts₀.shapeCasts_S1x1000000_S1000000

/-- Every word clamped into [lo, hi] (signed): the smaller of hi and the larger of lo and the word. -/
def clipW (lo hi : BitVec 32) (x : (⟨S1000000, .i32⟩ : BufTy).Contents (Elt F)) : (⟨S1000000, .i32⟩ : BufTy).Contents (Elt F) :=
  minsi (broadcastInDim S1000000 ![] Facts₀.bcast_S_S1000000 (constantI S_ 32 hi))
    (maxsi (broadcastInDim S1000000 ![] Facts₀.bcast_S_S1000000 (constantI S_ 32 lo)) x)

/-- A negative word counted from the end of a table of n rows (the wrap-around an indexing applies before its gather). -/
def wrapW (n : BitVec 32) (x : (⟨S1000000, .i32⟩ : BufTy).Contents (Elt F)) : (⟨S1000000, .i32⟩ : BufTy).Contents (Elt F) :=
  select (cmpi .slt x (broadcastInDim S1000000 ![] Facts₀.bcast_S_S1000000 (constantI S_ 32 0#32)))
    (addi x (broadcastInDim S1000000 ![] Facts₀.bcast_S_S1000000 (constantI S_ 32 n))) x

/-- A vector of E words, or of E floats, viewed as an [E, 1] column. -/
def colI (x : (⟨S1000000, .i32⟩ : BufTy).Contents (Elt F)) : (⟨S1000000x1, .i32⟩ : BufTy).Contents (Elt F) :=
  broadcastInDim S1000000x1 ![0] Facts₀.bcast_S1000000_S1000000x1_0 x
def colF (x : (⟨S1000000, .f32⟩ : BufTy).Contents (Elt F)) : (⟨S1000000x1, .f32⟩ : BufTy).Contents (Elt F) :=
  broadcastInDim S1000000x1 ![0] Facts₀.bcast_S1000000_S1000000x1_0 x

/-- The relation word of an edge: its type minus one. -/
def etm1 (x : (⟨S1000000, .i32⟩ : BufTy).Contents (Elt F)) : (⟨S1000000, .i32⟩ : BufTy).Contents (Elt F) :=
  subi x (broadcastInDim S1000000 ![] Facts₀.bcast_S_S1000000 (constantI S_ 32 1#32))

def headC (x3 : (⟨S2x1000000, .i32⟩ : BufTy).Contents (Elt F)) := clipW (F := F) 0#32 99999#32 (row0 x3)
def tailC (x3 : (⟨S2x1000000, .i32⟩ : BufTy).Contents (Elt F)) := clipW (F := F) 0#32 99999#32 (row1 x3)
def etC (x4 : (⟨S1000000, .i32⟩ : BufTy).Contents (Elt F)) := clipW (F := F) 0#32 15#32 (etm1 x4)
def rowsC (x5 : (⟨S2x1000000, .i32⟩ : BufTy).Contents (Elt F)) := clipW (F := F) 0#32 49999#32 (row0 x5)
def colsC (x5 : (⟨S2x1000000, .i32⟩ : BufTy).Contents (Elt F)) := clipW (F := F) 0#32 99999#32 (row1 x5)

/-- The gathered entity rows of an index column. -/
def gatherEnt (x0 : (⟨S100000x64, .f32⟩ : BufTy).Contents (Elt F)) (i : (⟨S1000000x1, .i32⟩ : BufTy).Contents (Elt F)) :
    (⟨S1000000x64, .f32⟩ : BufTy).Contents (Elt F) :=
  Host.gather gather_S100000x64_S1000000x1_S1000000x64_1_0_n_n_0_1_164 x0 i

/-- The disentangled relation weights: the row-wise softmax of the attention logits, times the relation table. -/
def disen (x7 : (⟨S16x64, .f32⟩ : BufTy).Contents (Elt F)) (x8 : (⟨S4x16, .f32⟩ : BufTy).Contents (Elt F)) :
    (⟨S4x64, .f32⟩ : BufTy).Contents (Elt F) :=
  Host.dotGeneral dot_S4x16_S16x64_S4x64_1_0_0_1_n_n none
    (Host.divf
      (Host.exp (subf x8 (broadcastInDim S4x16 ![0, 1] Facts₀.bcast_S4x1_S4x16_0_1 (broadcastInDim S4x1 ![0] Facts₀.bcast_S4_S4x1_0
        (maximumf (broadcastInDim S4 ![] Facts₀.bcast_S_S4 (constant S_ .f32 0xFF800000#32))
          (Host.reduce FloatOps.maximumf x8 (constant S_ .f32 0xFF800000#32) Facts₀.reducesTo_S4x16_S4_d1 Facts₀.h_S_))))))
      (broadcastInDim S4x16 ![0, 1] Facts₀.bcast_S4x1_S4x16_0_1 (broadcastInDim S4x1 ![0] Facts₀.bcast_S4_S4x1_0
        (Host.reduceAdd
          (Host.exp (subf x8 (broadcastInDim S4x16 ![0, 1] Facts₀.bcast_S4x1_S4x16_0_1 (broadcastInDim S4x1 ![0] Facts₀.bcast_S4_S4x1_0
            (maximumf (broadcastInDim S4 ![] Facts₀.bcast_S_S4 (constant S_ .f32 0xFF800000#32))
              (Host.reduce FloatOps.maximumf x8 (constant S_ .f32 0xFF800000#32) Facts₀.reducesTo_S4x16_S4_d1 Facts₀.h_S_))))))
          (constant S_ .f32 0x00000000#32) Facts₀.reducesTo_S4x16_S4_d1 Facts₀.h_S_))))
    x7

/-- The latent table transposed. -/
def latT (x2 : (⟨S4x64, .f32⟩ : BufTy).Contents (Elt F)) : (⟨S64x4, .f32⟩ : BufTy).Contents (Elt F) :=
  transpose S64x4 [1, 0] x2 Facts₀.transposes_S4x64_S64x4_1_0

/-- The zero arrays the scatters accumulate into. -/
def zeros65 : (⟨S100000x65, .f32⟩ : BufTy).Contents (Elt F) :=
  broadcastInDim S100000x65 ![] Facts₀.bcast_S_S100000x65 (constant S_ .f32 0x00000000#32)
def zerosU : (⟨S50000x64, .f32⟩ : BufTy).Contents (Elt F) :=
  broadcastInDim S50000x64 ![] Facts₀.bcast_S_S50000x64 (constant S_ .f32 0x00000000#32)

end Cert.KernelIdeal.Chain

end
-- ==== Proof.Spec.lean ====
/-
  The four row-wise bodies of the program, as functions of whole arrays read at an index, on the extended reals.

  * the edge messages, with a column of ones appended: entry (e, q) for q < 64 is the gathered entity row times the
    relation row selected by a one-hot product, times the edge's mask; entry (e, 64) is one;
  * the mean over the incoming edges: the summed message divided by the larger of the count (column 64) and one;
  * the user messages: the gathered entity row times the interaction's value;
  * the user update: the aggregate times its attention mix, plus the aggregate, where the mix is the row-wise softmax
    of the user's scores against the four latent factors, times the disentangled relation weights.
-/
import Idealize.ShloMosaic.PureOps.Ideal
import Idealize.ShloMosaic.Lib.ValueIdx

open scoped BigOperators

noncomputable section

namespace Cert.Proof.Spec

open Idealize.ShloMosaic Idealize.ShloMosaic.ValueIdx

abbrev SE64 : Shape := ⟨2, ![1000000, 64]⟩
abbrev SE65 : Shape := ⟨2, ![1000000, 65]⟩
abbrev SE1 : Shape := ⟨2, ![1000000, 1]⟩
abbrev SN64 : Shape := ⟨2, ![100000, 64]⟩
abbrev SN65 : Shape := ⟨2, ![100000, 65]⟩
abbrev SU64 : Shape := ⟨2, ![50000, 64]⟩
abbrev SW : Shape := ⟨2, ![16, 64]⟩
abbrev SLT : Shape := ⟨2, ![64, 4]⟩
abbrev SD : Shape := ⟨2, ![4, 64]⟩

/-- The two coordinates of an index of a rank-2 array. -/
def c0 {a b : Nat} (i : (⟨2, ![a, b]⟩ : Shape).Idx) : Fin a := ⟨(i 0).val, (i 0).isLt⟩
def c1 {a b : Nat} (i : (⟨2, ![a, b]⟩ : Shape).Idx) : Fin b := ⟨(i 1).val, (i 1).isLt⟩

theorem c0_ix2 {a b : Nat} (p : Fin a) (q : Fin b) : c0 (ix2 p q : (⟨2, ![a, b]⟩ : Shape).Idx) = p := rfl
theorem c1_ix2 {a b : Nat} (p : Fin a) (q : Fin b) : c1 (ix2 p q : (⟨2, ![a, b]⟩ : Shape).Idx) = q := rfl

/-- The float one. -/
abbrev one : EReal := Ideal.ofBits .f32 0x3F800000#32
/-- The float minus infinity. -/
abbrev negInf : EReal := Ideal.ofBits .f32 0xFF800000#32

/-! ## Edge messages -/

/-- Entry k of the one-hot row of the relation word z. -/
def oneHot (z : BitVec 32) (k : Fin 16) : EReal := if BitVec.ofNat 32 k.val = z then 1 else 0

def neighExtAt (g : SE64.Idx → EReal) (et : SE1.Idx → BitVec 32) (mk : SE1.Idx → EReal) (W : SW.Idx → EReal)
    (e : Fin 1000000) (q : Fin 65) : EReal :=
  if h : q.val < 64 then
    g (ix2 e ⟨q.val, h⟩) * (∑ k : Fin 16, oneHot (et (ix2 e (0 : Fin 1))) k * W (ix2 k ⟨q.val, h⟩)) * mk (ix2 e (0 : Fin 1))
  else one

def neighExt (g : SE64.Idx → EReal) (et : SE1.Idx → BitVec 32) (mk : SE1.Idx → EReal) (W : SW.Idx → EReal) :
    SE65.Idx → EReal := fun i => neighExtAt g et mk W (c0 i) (c1 i)

/-! ## Mean over incoming edges -/

def entFinAt (S : SN65.Idx → EReal) (n : Fin 100000) (q : Fin 64) : EReal :=
  Ideal.div (S (ix2 n ⟨q.val, Nat.lt_succ_of_lt q.isLt⟩)) (max (S (ix2 n ⟨64, Nat.lt_succ_self 64⟩)) one)

def entFin (S : SN65.Idx → EReal) : SN64.Idx → EReal := fun i => entFinAt S (c0 i) (c1 i)

/-! ## User messages -/

def userMulAt (g : SE64.Idx → EReal) (v : SE1.Idx → EReal) (e : Fin 1000000) (q : Fin 64) : EReal :=
  g (ix2 e q) * v (ix2 e (0 : Fin 1))

def userMul (g : SE64.Idx → EReal) (v : SE1.Idx → EReal) : SE64.Idx → EReal := fun i => userMulAt g v (c0 i) (c1 i)

/-! ## User update -/

/-- The score of user u against latent factor k. -/
def logitAt (X : SU64.Idx → EReal) (LT : SLT.Idx → EReal) (u : Fin 50000) (k : Fin 4) : EReal :=
  ∑ j : Fin 64, X (ix2 u j) * LT (ix2 j k)

/-- A row's maximum, as both programs take it: the larger of minus infinity and the fold of max from minus infinity. -/
def rowMax (f : Fin 4 → EReal) : EReal := max negInf ((Finset.univ : Finset (Fin 4)).fold max negInf f)

def softmaxAt (f : Fin 4 → EReal) (k : Fin 4) : EReal :=
  Ideal.div (Ideal.exp (f k - rowMax f)) (∑ j : Fin 4, Ideal.exp (f j - rowMax f))

def userFinAt (X : SU64.Idx → EReal) (A : SU64.Idx → EReal) (LT : SLT.Idx → EReal) (D : SD.Idx → EReal)
    (u : Fin 50000) (q : Fin 64) : EReal :=
  A (ix2 u q) * (∑ k : Fin 4, softmaxAt (logitAt X LT u) k * D (ix2 k q)) + A (ix2 u q)

def userFin (X : SU64.Idx → EReal) (A : SU64.Idx → EReal) (LT : SLT.Idx → EReal) (D : SD.Idx → EReal) :
    SU64.Idx → EReal := fun i => userFinAt X A LT D (c0 i) (c1 i)

end Cert.Proof.Spec

end
-- ==== Proof.LibRows.lean ====
/-
  Layout operations, a one-axis reduction and a plain matrix product READ AT AN INDEX GIVEN BY COORDINATES, in the forms
  the body of a row-blocked kernel meets: a column `[a, 1]` broadcast over the lanes, a vector `[a]` viewed as a column
  `[a, 1]`, the index a reduction over the lane axis inserts, the lane sum and the lane maximum of a row, and the
  product of an `[M, K]` by a `[K, N]` matrix into the zero accumulator. Then the three row-wise bodies built from them:
  the scaled product, the scaled and shifted block, and the row-wise log-softmax of it. Everything is stated over generic
  extents with indices written `ix1` / `ix2`; no program is imported.
-/
import Idealize.ShloMosaic.PureOps.Ideal.Laws
import Idealize.ShloMosaic.Lib.ValueIdx
import Idealize.ShloMosaic.Lib.ValueLayout

open scoped BigOperators

namespace Cert.Proof.LibRows

open Idealize.ShloMosaic Idealize.ShloMosaic.ValueIdx

section Layout
variable {α : Type}

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to the column `[a, 1]` reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The source index a reduction of `[a, b]` over its lane axis inserts over row `r` at lane `k` is `(r, k)`. -/
theorem lift_lane {a b : ℕ} (h : (⟨2, ![a, b]⟩ : Shape).Reduces [1] ⟨1, ![a]⟩) (r : Fin a) (k : Fin b) :
    h.lift (ix1 r) k = ix2 r k :=
  funext fun c => Fin.ext (match c with | ⟨0, _⟩ => rfl | ⟨1, _⟩ => rfl)

end Layout

/-! ## A reduction over the lane axis, read at a row -/

section Reduce

/-- The lane sum of an `[a, b]` block at row `r` is the sum over the lanes of the row's entries. -/
theorem multiReduction_add_lane {a b : ℕ} (src : FVec Ideal ⟨2, ![a, b]⟩ .f32) (acc : BitVec FTy.f32.bits)
    (h : (⟨2, ![a, b]⟩ : Shape).Reduces [1] ⟨1, ![a]⟩) (hφ : FKind.Formats .f32) (hacc : acc = FKind.add.neutral .f32 hφ)
    (r : Fin a) :
    multiReduction (F := Ideal) .add [1] ⟨1, ![a]⟩ src acc h hφ hacc (ix1 r) = ∑ k : Fin b, src (ix2 r k) :=
  (Ideal.multiReduction_add_single src acc h hφ hacc (ix1 r)).trans
    (Finset.sum_congr rfl fun k _ => congrArg src (lift_lane h r k))

/-- The lane maximum of an `[a, b]` block at row `r` is the fold of `max`, from the accumulator's value, over the lanes
    of the row's entries. -/
theorem multiReduction_maximumf_lane {a b : ℕ} (src : FVec Ideal ⟨2, ![a, b]⟩ .f32) (acc : BitVec FTy.f32.bits)
    (h : (⟨2, ![a, b]⟩ : Shape).Reduces [1] ⟨1, ![a]⟩) (hφ : FKind.Formats .f32)
    (hacc : acc = FKind.maximumf.neutral .f32 hφ) (r : Fin a) :
    multiReduction (F := Ideal) .maximumf [1] ⟨1, ![a]⟩ src acc h hφ hacc (ix1 r)
      = (Finset.univ : Finset (Fin b)).fold max (Ideal.ofBits .f32 acc) (fun k => src (ix2 r k)) :=
  (Ideal.multiReduction_maximumf_single src acc h hφ hacc (ix1 r)).trans
    (congrArg (fun f : Fin b → EReal => (Finset.univ : Finset (Fin b)).fold max (Ideal.ofBits .f32 acc) f)
      (funext fun k => congrArg src (lift_lane h r k)))

end Reduce

/-! ## The plain matrix product, read at `(r, q)` -/

section Product
variable {M K N : ℕ}

/-- On the left operand's row axis the operand index is the output's row … -/
theorem plain_lhs_0 (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
/-- … on its contracted axis the contraction index's one coordinate … -/
theorem plain_lhs_1 (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k
/-- … and on the right operand's contracted axis the same coordinate … -/
theorem plain_rhs_0 (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k
/-- … on its column axis the output's column. -/
theorem plain_rhs_1 (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The product of an `[M, K]` by a `[K, N]` matrix into the zero accumulator, read at `(r, q)`: the sum over `k` of the
    left operand's row `r` times the right operand's column `q`, exactly (no rounding at the ideal values). -/
theorem matmul_plain_zero_apply (prec : Option ContractPrecision) (x : FVec Ideal ⟨2, ![M, K]⟩ .f32)
    (W : FVec Ideal ⟨2, ![K, N]⟩ .f32) (r : Fin M) (q : Fin N) :
    FloatOps.matmul (DotDims.plain M K N) prec x W (constant (F := Ideal) ⟨2, ![M, N]⟩ .f32 0x00000000#32) (ix2 r q)
      = ∑ k : Fin K, x (ix2 r k) * W (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r q) ((contrEquiv1 (DotDims.plain M K N) K rfl rfl).symm k) = ix2 r k :=
    funext fun a => Fin.ext (by
      match a with
      | ⟨0, _⟩ => exact plain_lhs_0 _ _
      | ⟨1, _⟩ => exact (plain_lhs_1 _ _).trans hk)
  have er : (DotDims.plain M K N).rhsIdx (ix2 r q) ((contrEquiv1 (DotDims.plain M K N) K rfl rfl).symm k) = ix2 k q :=
    funext fun a => Fin.ext (by
      match a with
      | ⟨0, _⟩ => exact (plain_rhs_0 _ _).trans hk
      | ⟨1, _⟩ => exact plain_rhs_1 _ _)
  rw [el, er]

end Product

/-! ## The exponential and the logarithm of a vector, read at an index (definitional at the ideal values) -/

section Pointwise
variable {s : Shape} {φ : FTy}

/-- An exponential at an index is the exponential of the element. -/
theorem exp_apply (x : FVec Ideal s φ) (i : s.Idx) : exp x i = Ideal.exp (x i) := rfl
/-- A logarithm at an index is the logarithm of the element. -/
theorem log_apply (x : FVec Ideal s φ) (i : s.Idx) : log x i = Ideal.log (x i) := rfl

end Pointwise

/-! ## Three row-wise bodies, read at `(r, q)` -/

section Bodies

/-- THE SCALED PRODUCT: an `[M, K]` block times a `[K, N]` matrix into the zero accumulator, each row then scaled by its
    entry of an `[M, 1]` column broadcast over the lanes. At `(r, q)` it is the row sum times the column's entry of row `r`:
    a function of row `r` of the block and of the column only. -/
theorem scaledProduct_apply {M K N : ℕ} (prec : Option ContractPrecision) (x : FVec Ideal ⟨2, ![M, K]⟩ .f32)
    (W : FVec Ideal ⟨2, ![K, N]⟩ .f32) (s : FVec Ideal ⟨2, ![M, 1]⟩ .f32)
    (hc : (⟨2, ![M, 1]⟩ : Shape).ShapeCasts ⟨2, ![M, 1]⟩) (hb : (⟨2, ![M, 1]⟩ : Shape).Broadcasts ⟨2, ![M, N]⟩)
    (r : Fin M) (q : Fin N) :
    mulf (matmul (DotDims.plain M K N) prec x W (constant (F := Ideal) ⟨2, ![M, N]⟩ .f32 0x00000000#32))
        (broadcastTo ⟨2, ![M, N]⟩ (shapeCast ⟨2, ![M, 1]⟩ s hc) hb) (ix2 r q)
      = (∑ k : Fin K, x (ix2 r k) * W (ix2 k q)) * s (ix2 r (0 : Fin 1)) := by
  rw [mulf_apply, broadcastTo_a1_ab_apply, shapeCast_self]
  exact congrArg (· * s (ix2 r (0 : Fin 1))) (matmul_plain_zero_apply prec x W r q)

/-- THE SCALED AND SHIFTED BLOCK: an `[a, b]` block, each row scaled by its entry of an `[a, 1]` column and shifted by a
    `[1, b]` row, both broadcast. At `(r, q)` it is `v (r, q) * s (r, 0) + β (0, q)`. -/
theorem scaleShift_apply {a b : ℕ} (v : FVec Ideal ⟨2, ![a, b]⟩ .f32) (s : FVec Ideal ⟨2, ![a, 1]⟩ .f32)
    (β : FVec Ideal ⟨2, ![1, b]⟩ .f32)
    (h0 : (⟨2, ![a, b]⟩ : Shape).ShapeCasts ⟨2, ![a, b]⟩) (h1 : (⟨2, ![a, 1]⟩ : Shape).ShapeCasts ⟨2, ![a, 1]⟩)
    (h2 : (⟨2, ![a, 1]⟩ : Shape).Broadcasts ⟨2, ![a, b]⟩) (h3 : (⟨2, ![1, b]⟩ : Shape).ShapeCasts ⟨2, ![1, b]⟩)
    (h4 : (⟨2, ![1, b]⟩ : Shape).Broadcasts ⟨2, ![a, b]⟩) (r : Fin a) (q : Fin b) :
    addf (mulf (shapeCast ⟨2, ![a, b]⟩ v h0) (broadcastTo ⟨2, ![a, b]⟩ (shapeCast ⟨2, ![a, 1]⟩ s h1) h2))
        (broadcastTo ⟨2, ![a, b]⟩ (shapeCast ⟨2, ![1, b]⟩ β h3) h4) (ix2 r q)
      = v (ix2 r q) * s (ix2 r (0 : Fin 1)) + β (ix2 (0 : Fin 1) q) := by
  rw [addf_apply, mulf_apply, broadcastTo_a1_ab_apply, broadcastTo_1b_ab_apply, shapeCast_self, shapeCast_self,
    shapeCast_self]

/-- THE ROW-WISE LOG-SOFTMAX of an `[a, b]` block `v`: with `m` the lane maximum of a row (kept as a column and
    broadcast back) and `z = v - m`, the body is `z - log (lane sum of exp z)`. Whatever row `r` of `v` is known to be
    (`hv`), at `(r, q)` it is `(f q - m) - log (∑ j, exp (f j - m))` with `m` the fold of `max` over `f` from the
    accumulator's value: a function of row `r` only. -/
theorem logSoftmax_apply {a b : ℕ} (v : FVec Ideal ⟨2, ![a, b]⟩ .f32)
    (hr : (⟨2, ![a, b]⟩ : Shape).Reduces [1] ⟨1, ![a]⟩) (hφ hφ' : FKind.Formats .f32)
    (hm : (0xFF800000#32 : BitVec FTy.f32.bits) = FKind.maximumf.neutral .f32 hφ)
    (hs : (0x00000000#32 : BitVec FTy.f32.bits) = FKind.add.neutral .f32 hφ')
    (hc : (⟨1, ![a]⟩ : Shape).ShapeCasts ⟨2, ![a, 1]⟩) (hb : (⟨2, ![a, 1]⟩ : Shape).Broadcasts ⟨2, ![a, b]⟩)
    (r : Fin a) (q : Fin b) (f : Fin b → EReal) (hv : ∀ k, v (ix2 r k) = f k) :
    subf (subf v (broadcastTo ⟨2, ![a, b]⟩
            (shapeCast ⟨2, ![a, 1]⟩ (multiReduction (F := Ideal) .maximumf [1] ⟨1, ![a]⟩ v 0xFF800000#32 hr hφ hm) hc) hb))
        (broadcastTo ⟨2, ![a, b]⟩
          (log (shapeCast ⟨2, ![a, 1]⟩
            (multiReduction (F := Ideal) .add [1] ⟨1, ![a]⟩
              (exp (subf v (broadcastTo ⟨2, ![a, b]⟩
                (shapeCast ⟨2, ![a, 1]⟩ (multiReduction (F := Ideal) .maximumf [1] ⟨1, ![a]⟩ v 0xFF800000#32 hr hφ hm) hc) hb)))
              0x00000000#32 hr hφ' hs) hc)) hb) (ix2 r q)
      = (f q - (Finset.univ : Finset (Fin b)).fold max (Ideal.ofBits .f32 0xFF800000#32) f)
          - Ideal.log (∑ j : Fin b,
              Ideal.exp (f j - (Finset.univ : Finset (Fin b)).fold max (Ideal.ofBits .f32 0xFF800000#32) f)) := by
  -- the centred block at any entry of row `r`
  have hz : ∀ k : Fin b, subf v (broadcastTo ⟨2, ![a, b]⟩
      (shapeCast ⟨2, ![a, 1]⟩ (multiReduction (F := Ideal) .maximumf [1] ⟨1, ![a]⟩ v 0xFF800000#32 hr hφ hm) hc) hb) (ix2 r k)
      = f k - (Finset.univ : Finset (Fin b)).fold max (Ideal.ofBits .f32 0xFF800000#32) f := fun k => by
    rw [subf_apply, broadcastTo_a1_ab_apply, shapeCast_a_a1_apply, multiReduction_maximumf_lane, hv k]
    exact congrArg (fun g : Fin b → EReal => f k - (Finset.univ : Finset (Fin b)).fold max (Ideal.ofBits .f32 0xFF800000#32) g)
      (funext hv)
  rw [subf_apply, hz q, broadcastTo_a1_ab_apply, log_apply, shapeCast_a_a1_apply, multiReduction_add_lane]
  exact congrArg (fun t : EReal => _ - Ideal.log t) (Finset.sum_congr rfl fun j _ => by rw [exp_apply, hz j])

end Bodies

end Cert.Proof.LibRows
-- ==== Proof.KUser.lean ====
/-
  The two user-side row-blocked regions of the program, read as whole arrays.

  Region 2 multiplies each row of the gathered entity rows by that row's interaction value; region 3 updates each
  user row: its scores against the four latent factors (a product with a 64 x 4 matrix), the row-wise softmax of the
  scores over the four lanes, the mix of the disentangled relation weights by those scores (a product with a 4 x 64
  matrix), and the aggregate times the mix plus the aggregate.

  Both regions walk their arrays in blocks of 5000 rows: block t covers rows 5000 t ... 5000 t + 4999, the small
  matrices are resident (their one block is the whole array), and every output row depends only on the same row of the
  row-blocked inputs. So the block a point writes back is that block of ONE row-wise function of the input arrays, and
  since the blocks tile the output (row r lies in block r / 5000) the output array ends holding that function.
-/
import proofs.«400045_j55018531062593_4_alg».proof.Proof.Gen.KernelIdeal.Frame
import proofs.«400045_j55018531062593_4_alg».proof.Proof.Spec
import proofs.«400045_j55018531062593_4_alg».proof.Proof.LibRows
import Idealize.ShloMosaic.Lib.Pipeline.Value
import Idealize.ShloMosaic.Lib.ValueIdx
import Idealize.ShloMosaic.Lib.ValueLayout
import Idealize.ShloMosaic.PureOps.Ideal.Laws

open scoped BigOperators

noncomputable section

namespace Cert.KernelIdeal.UserValue

open Cert.KernelIdeal Cert.KernelIdeal.Gen Idealize.ShloMosaic Idealize.ShloMosaic.TcCoe Idealize.SL.Sem
open Idealize.ShloMosaic.ValueIdx
open Idealize.ShloMosaic.Pipeline (Dat)
open Cert.Proof Cert.Proof.LibRows

variable (V : (c : Dev nD) → (b : Ref sig .tc) → Buf (Elt Ideal) ((c : Thread nD τ).loc b))

/-- The zero offsets of a whole-block access, as a constant function. -/
theorem zeroOff : (![0, 0] : Fin 2 → Nat) = fun _ => 0 := funext fun a => by fin_cases a <;> rfl

/-- Two functions of a rank-2 index agree when they agree at every pair of coordinates. -/
theorem funext_ix2 {α : Type} {a b : Nat} (f g : (⟨2, ![a, b]⟩ : Shape).Idx → α)
    (h : ∀ (p : Fin a) (q : Fin b), f (ix2 p q) = g (ix2 p q)) : f = g :=
  funext fun j => by rw [eq_ix2 j]; exact h _ _

/-! ## Region 2: each gathered row times its interaction value -/

/-- The body's result at row p, lane q: the row's entry times the row's entry of the value column. -/
theorem mulBody_apply (x0 : FVec Ideal S5000x64 .f32) (x1 : FVec Ideal S5000x1 .f32) (p : Fin 5000) (q : Fin 64) :
    k2_pay1 (F := Ideal) x0 x1 (ix2 p q) = x0 (ix2 p q) * x1 (ix2 p (0 : Fin 1)) := by
  unfold k2_pay1
  rw [mulf_apply, broadcastTo_a1_ab_apply, shapeCast_self, shapeCast_self]

/-- The block indices of region 2's three windows at a point: all walk the rows, none moves along the lanes. -/
theorem blockIdx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- Row p of block t is row 5000 t + p of the array. -/
theorem row2_lt (t : Fin cfg2.N) (p : Fin 5000) : t.val * 5000 + p.val < 1000000 := by
  have ht : t.val < 200 := Nat.lt_of_lt_of_eq t.isLt N_2
  have hp := p.isLt
  omega

/-- The gathered rows' block at point t, read at (p, q): the array at row 5000 t + p. -/
theorem rowsBlock2_apply (c : Dev nD) (t : Fin cfg2.N) (p : Fin 5000) (q : Fin 64) :
    (iblk2 V c 0 t : Vec Ideal S5000x64 .f32) (ix2 p q)
      = (V c main_v35 : Spec.SE64.Idx → EReal) (ix2 ⟨t.val * 5000 + p.val, row2_lt t p⟩ q) := by
  obtain ⟨e0, e1, -, -, -, -⟩ := blockIdx2 t
  unfold iblk2
  rw [View.read_apply]
  show V c main_v35 (((cfg2.win 0).blk t).view.emb (ix2 p q)) = V c main_v35 _
  refine congrArg (V c main_v35) (funext fun a => Fin.ext ?_)
  match a with
  | ⟨0, _⟩ => show win2_0.index t (0 : Fin 2) * 5000 + 1 * p.val = t.val * 5000 + p.val; rw [e0]; omega
  | ⟨1, _⟩ => show win2_0.index t (1 : Fin 2) * 64 + 1 * q.val = q.val; rw [e1]; omega

/-- The value column's block at point t, read at (p, 0): the column at row 5000 t + p. -/
theorem colBlock2_apply (c : Dev nD) (t : Fin cfg2.N) (p : Fin 5000) :
    (iblk2 V c 1 t : Vec Ideal S5000x1 .f32) (ix2 p (0 : Fin 1))
      = (V c main_v36 : Spec.SE1.Idx → EReal) (ix2 ⟨t.val * 5000 + p.val, row2_lt t p⟩ (0 : Fin 1)) := by
  obtain ⟨-, -, e0, e1, -, -⟩ := blockIdx2 t
  unfold iblk2
  rw [View.read_apply]
  show V c main_v36 (((cfg2.win 1).blk t).view.emb (ix2 p (0 : Fin 1))) = V c main_v36 _
  refine congrArg (V c main_v36) (funext fun a => Fin.ext ?_)
  match a with
  | ⟨0, _⟩ => show win2_1.index t (0 : Fin 2) * 5000 + 1 * p.val = t.val * 5000 + p.val; rw [e0]; omega
  | ⟨1, _⟩ => show win2_1.index t (1 : Fin 2) * 1 + 1 * 0 = 0; rw [e1]

/-- What point t writes back is block t of the row-wise product of the two arrays. -/
theorem writeBack2 (c : Dev nD) (t : Fin cfg2.N) :
    (dat2 (F := Ideal) V c).flushed 2 t
      = ((cfg2.win 2).blk t).view.read (Elt Ideal) (Spec.userMul (V c main_v35) (V c main_v36)) := by
  obtain ⟨-, -, -, -, e0, e1⟩ := blockIdx2 t
  show (cfg2.win 2).cut (grid2.coords t) ((dat2 V c).after 2 t) = _
  rw [after2_2]
  unfold out2_2
  rw [View.canon_unit_zero zeroOff]
  simp only [View.ld_unit_zero (S := S5000x64) zeroOff, View.ld_unit_zero (S := S5000x1) zeroOff]
  refine funext_ix2 (a := 5000) (b := 64) _ _ fun p q => ?_
  show k2_pay1 (F := Ideal) (iblk2 V c 0 t) (iblk2 V c 1 t) (ix2 p q)
    = Spec.userMul (V c main_v35) (V c main_v36) (((cfg2.win 2).blk t).view.emb (ix2 p q))
  refine (mulBody_apply (iblk2 V c 0 t) (iblk2 V c 1 t) p q).trans ?_
  rw [rowsBlock2_apply V c t p q, colBlock2_apply V c t p]
  have hi : ((cfg2.win 2).blk t).view.emb (ix2 p q)
      = (ix2 ⟨t.val * 5000 + p.val, row2_lt t p⟩ q : Spec.SE64.Idx) :=
    funext fun a => Fin.ext (by
      match a with
      | ⟨0, _⟩ => show win2_2.index t (0 : Fin 2) * 5000 + 1 * p.val = t.val * 5000 + p.val; rw [e0]; omega
      | ⟨1, _⟩ => show win2_2.index t (1 : Fin 2) * 64 + 1 * q.val = q.val; rw [e1]; omega)
  rw [hi]
  rfl

/-- An index of the output array lies in point t's block iff each coordinate lies in the block's range. -/
theorem mem_block2 (t : Fin cfg2.N) (i : S1000000x64.Idx) :
    i ∈ ((cfg2.win 2).blk t).view.set
      ↔ ∀ a : Fin 2, win2_2.index t a * S5000x64.size a ≤ (i a).val ∧ (i a).val < win2_2.index t a * S5000x64.size a + S5000x64.size a := by
  show i ∈ ((View.whole main_v37).slice (win2_2.rect t)).set ↔ _
  rw [View.set_slice_whole, Rect.mem_set_unit]
  exact Iff.rfl

/-- Every row lies in a block: row r in block r / 5000. -/
theorem cover2 (i : S1000000x64.Idx) :
    ∃ t : Fin cfg2.N, (cfg2.win 2).flush t = true ∧ i ∈ ((cfg2.win 2).blk t).view.set := by
  have hi0 : (i 0).val < 1000000 := (i 0).isLt
  have hi1 : (i 1).val < 64 := (i 1).isLt
  have hN : cfg2.N = 200 := N_2
  let t : Fin cfg2.N := ⟨(i 0).val / 5000, by rw [hN]; omega⟩
  obtain ⟨-, -, -, -, e0, e1⟩ := blockIdx2 t
  have ht : t.val = (i 0).val / 5000 := rfl
  refine ⟨t, flush2_2 t, ?_⟩
  rw [mem_block2]
  intro a
  match a with
  | ⟨0, _⟩ => show win2_2.index t (0 : Fin 2) * 5000 ≤ (i 0).val ∧ (i 0).val < win2_2.index t (0 : Fin 2) * 5000 + 5000; rw [e0, ht]; omega
  | ⟨1, _⟩ => show win2_2.index t (1 : Fin 2) * 64 ≤ (i 1).val ∧ (i 1).val < win2_2.index t (1 : Fin 2) * 64 + 64; rw [e1]; omega

/-- REGION 2's output array after the run: the row-wise product of the gathered rows and the value column. -/
theorem final2 (c : Dev nD) :
    (dat2 (F := Ideal) V c).arrAt 2 cfg2.N = Spec.userMul (V c main_v35) (V c main_v36) :=
  (dat2 (F := Ideal) V c).arrAt_eq_of_cover 2 (Spec.userMul (V c main_v35) (V c main_v36))
    (fun t _ => writeBack2 V c t) cover2

/-! ## Region 3: the user update -/

/-- The body's two products are plain matrix products: rows by columns, nothing batched. -/
theorem scoresDot_eq : dot_S5000x64_S64x4_S5000x4_1_0_0_1_n_n = DotDims.plain 5000 64 4 := rfl
theorem mixDot_eq : dot_S5000x4_S4x64_S5000x64_1_0_0_1_n_n = DotDims.plain 5000 4 64 := rfl

/-- THE ROW-WISE SOFTMAX over four lanes of an [a, 4] block v: with m the larger of minus infinity and the lane maximum
    of a row (kept as a column and broadcast back) and e = exp (v - m), the body is e divided by the lane sum of e
    (kept as a column and broadcast back). At (r, k) it is the softmax of row r at lane k: a function of row r only. -/
theorem softmaxRows_apply {a : ℕ} (v : FVec Ideal ⟨2, ![a, 4]⟩ .f32)
    (hr : (⟨2, ![a, 4]⟩ : Shape).Reduces [1] ⟨1, ![a]⟩) (hφ hφ' : FKind.Formats .f32)
    (hm : (0xFF800000#32 : BitVec FTy.f32.bits) = FKind.maximumf.neutral .f32 hφ)
    (hs : (0x00000000#32 : BitVec FTy.f32.bits) = FKind.add.neutral .f32 hφ')
    (hc : (⟨1, ![a]⟩ : Shape).ShapeCasts ⟨2, ![a, 1]⟩) (hb : (⟨2, ![a, 1]⟩ : Shape).Broadcasts ⟨2, ![a, 4]⟩)
    (r : Fin a) (k : Fin 4) :
    divf
        (exp (subf v (broadcastTo ⟨2, ![a, 4]⟩
          (shapeCast ⟨2, ![a, 1]⟩
            (maximumf (broadcast ⟨1, ![a]⟩ (Scalar.ofBits (F := Ideal) .f32 0xFF800000#32))
              (multiReduction (F := Ideal) .maximumf [1] ⟨1, ![a]⟩ v 0xFF800000#32 hr hφ hm)) hc) hb)))
        (broadcastTo ⟨2, ![a, 4]⟩
          (shapeCast ⟨2, ![a, 1]⟩
            (multiReduction (F := Ideal) .add [1] ⟨1, ![a]⟩
              (exp (subf v (broadcastTo ⟨2, ![a, 4]⟩
                (shapeCast ⟨2, ![a, 1]⟩
                  (maximumf (broadcast ⟨1, ![a]⟩ (Scalar.ofBits (F := Ideal) .f32 0xFF800000#32))
                    (multiReduction (F := Ideal) .maximumf [1] ⟨1, ![a]⟩ v 0xFF800000#32 hr hφ hm)) hc) hb)))
              0x00000000#32 hr hφ' hs) hc) hb) (ix2 r k)
      = Spec.softmaxAt (fun k' => v (ix2 r k')) k := by
  -- the centred block at any lane of row r
  have hz : ∀ k' : Fin 4, subf v (broadcastTo ⟨2, ![a, 4]⟩
      (shapeCast ⟨2, ![a, 1]⟩
        (maximumf (broadcast ⟨1, ![a]⟩ (Scalar.ofBits (F := Ideal) .f32 0xFF800000#32))
          (multiReduction (F := Ideal) .maximumf [1] ⟨1, ![a]⟩ v 0xFF800000#32 hr hφ hm)) hc) hb) (ix2 r k')
      = v (ix2 r k') - Spec.rowMax (fun k'' => v (ix2 r k'')) := fun k' => by
    rw [subf_apply, broadcastTo_a1_ab_apply, shapeCast_a_a1_apply, maximumf_apply, broadcast_apply,
      multiReduction_maximumf_lane]
    rfl
  rw [divf_apply, exp_apply, hz k, broadcastTo_a1_ab_apply, shapeCast_a_a1_apply, multiReduction_add_lane]
  unfold Spec.softmaxAt
  exact congrArg (Ideal.div _) (Finset.sum_congr rfl fun j _ => by rw [exp_apply, hz j])

/-- The body's result at row p, lane q: the aggregate's entry times the mix of the relation weights by the softmax of the
    row's scores, plus the aggregate's entry. -/
theorem finBody_apply (x0 : FVec Ideal S5000x64 .f32) (lt : FVec Ideal S64x4 .f32) (d : FVec Ideal S4x64 .f32)
    (ag : FVec Ideal S5000x64 .f32) (p : Fin 5000) (q : Fin 64) :
    k3_pay1 (F := Ideal) x0 lt d ag (ix2 p q)
      = ag (ix2 p q) * (∑ k : Fin 4, Spec.softmaxAt (fun k' => ∑ j : Fin 64, x0 (ix2 p j) * lt (ix2 j k')) k * d (ix2 k q))
        + ag (ix2 p q) := by
  unfold k3_pay1
  rw [scoresDot_eq, mixDot_eq]
  simp only [shapeCast_self]
  rw [addf_apply, mulf_apply]
  refine (congrArg (fun z => ag (ix2 p q) * z + ag (ix2 p q)) (matmul_plain_zero_apply none _ d p q)).trans ?_
  refine congrArg (fun z => ag (ix2 p q) * z + ag (ix2 p q)) (Finset.sum_congr rfl fun k _ => ?_)
  refine congrArg (· * d (ix2 k q)) ?_
  refine (softmaxRows_apply _ _ _ _ _ _ _ _ p k).trans ?_
  exact congrArg (fun f => Spec.softmaxAt f k) (funext fun k' => matmul_plain_zero_apply none x0 lt p k')

/-- The same over rows of whole arrays: if row p of the two row blocks is row u of the arrays X and A, and the two small
    blocks are the arrays LT and D, the body's result at (p, q) is the user update at (u, q). -/
theorem finBody_row (x0 : FVec Ideal S5000x64 .f32) (lt : FVec Ideal S64x4 .f32) (d : FVec Ideal S4x64 .f32)
    (ag : FVec Ideal S5000x64 .f32) (p : Fin 5000) (q : Fin 64)
    (X A : Spec.SU64.Idx → EReal) (LT : Spec.SLT.Idx → EReal) (D : Spec.SD.Idx → EReal) (u : Fin 50000)
    (h0 : ∀ j : Fin 64, x0 (ix2 p j) = X (ix2 u j)) (h1 : ∀ j : Fin 64, ag (ix2 p j) = A (ix2 u j))
    (h2 : ∀ (j : Fin 64) (k : Fin 4), lt (ix2 j k) = LT (ix2 j k))
    (h3 : ∀ (k : Fin 4) (j : Fin 64), d (ix2 k j) = D (ix2 k j)) :
    k3_pay1 (F := Ideal) x0 lt d ag (ix2 p q) = Spec.userFinAt X A LT D u q := by
  rw [finBody_apply]
  unfold Spec.userFinAt Spec.logitAt
  simp only [h0, h1, h2, h3]

/-- The block indices of region 3's five windows at a point: the three row-blocked ones walk the rows, the two small
    matrices stay at their one block. -/
theorem blockIdx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Row p of block t is row 5000 t + p of the array. -/
theorem row3_lt (t : Fin cfg3.N) (p : Fin 5000) : t.val * 5000 + p.val < 50000 := by
  have ht : t.val < 10 := Nat.lt_of_lt_of_eq t.isLt N_3
  have hp := p.isLt
  omega

/-- The user rows' block at point t, read at (p, j): the array at row 5000 t + p. -/
theorem userBlock3_apply (c : Dev nD) (t : Fin cfg3.N) (p : Fin 5000) (j : Fin 64) :
    (iblk3 V c 0 t : Vec Ideal S5000x64 .f32) (ix2 p j)
      = (V c main_arg1 : Spec.SU64.Idx → EReal) (ix2 ⟨t.val * 5000 + p.val, row3_lt t p⟩ j) := by
  obtain ⟨e0, e1, -⟩ := blockIdx3 t
  unfold iblk3
  rw [View.read_apply]
  show V c main_arg1 (((cfg3.win 0).blk t).view.emb (ix2 p j)) = V c main_arg1 _
  refine congrArg (V c main_arg1) (funext fun a => Fin.ext ?_)
  match a with
  | ⟨0, _⟩ => show win3_0.index t (0 : Fin 2) * 5000 + 1 * p.val = t.val * 5000 + p.val; rw [e0]; omega
  | ⟨1, _⟩ => show win3_0.index t (1 : Fin 2) * 64 + 1 * j.val = j.val; rw [e1]; omega

/-- The aggregates' block at point t, read at (p, j): the array at row 5000 t + p. -/
theorem aggBlock3_apply (c : Dev nD) (t : Fin cfg3.N) (p : Fin 5000) (j : Fin 64) :
    (iblk3 V c 1 t : Vec Ideal S5000x64 .f32) (ix2 p j)
      = (V c main_v40 : Spec.SU64.Idx → EReal) (ix2 ⟨t.val * 5000 + p.val, row3_lt t p⟩ j) := by
  obtain ⟨-, -, e0, e1, -⟩ := blockIdx3 t
  unfold iblk3
  rw [View.read_apply]
  show V c main_v40 (((cfg3.win 1).blk t).view.emb (ix2 p j)) = V c main_v40 _
  refine congrArg (V c main_v40) (funext fun a => Fin.ext ?_)
  match a with
  | ⟨0, _⟩ => show win3_1.index t (0 : Fin 2) * 5000 + 1 * p.val = t.val * 5000 + p.val; rw [e0]; omega
  | ⟨1, _⟩ => show win3_1.index t (1 : Fin 2) * 64 + 1 * j.val = j.val; rw [e1]; omega

/-- The latent factors' block is the whole 64 x 4 array at every point. -/
theorem factorBlock3_apply (c : Dev nD) (t : Fin cfg3.N) (j : Fin 64) (k : Fin 4) :
    (iblk3 V c 2 t : Vec Ideal S64x4 .f32) (ix2 j k) = (V c main_v53 : Spec.SLT.Idx → EReal) (ix2 j k) := by
  obtain ⟨-, -, -, -, e0, e1, -⟩ := blockIdx3 t
  unfold iblk3
  rw [View.read_apply]
  show V c main_v53 (((cfg3.win 2).blk t).view.emb (ix2 j k)) = V c main_v53 _
  refine congrArg (V c main_v53) (funext fun a => Fin.ext ?_)
  match a with
  | ⟨0, _⟩ => show win3_2.index t (0 : Fin 2) * 64 + 1 * j.val = j.val; rw [e0]; omega
  | ⟨1, _⟩ => show win3_2.index t (1 : Fin 2) * 4 + 1 * k.val = k.val; rw [e1]; omega

/-- The relation weights' block is the whole 4 x 64 array at every point. -/
theorem weightBlock3_apply (c : Dev nD) (t : Fin cfg3.N) (k : Fin 4) (j : Fin 64) :
    (iblk3 V c 3 t : Vec Ideal S4x64 .f32) (ix2 k j) = (V c main_v52 : Spec.SD.Idx → EReal) (ix2 k j) := by
  obtain ⟨-, -, -, -, -, -, e0, e1, -⟩ := blockIdx3 t
  unfold iblk3
  rw [View.read_apply]
  show V c main_v52 (((cfg3.win 3).blk t).view.emb (ix2 k j)) = V c main_v52 _
  refine congrArg (V c main_v52) (funext fun a => Fin.ext ?_)
  match a with
  | ⟨0, _⟩ => show win3_3.index t (0 : Fin 2) * 4 + 1 * k.val = k.val; rw [e0]; omega
  | ⟨1, _⟩ => show win3_3.index t (1 : Fin 2) * 64 + 1 * j.val = j.val; rw [e1]; omega

/-- What point t writes back is block t of the row-wise user update of the four arrays. -/
theorem writeBack3 (c : Dev nD) (t : Fin cfg3.N) :
    (dat3 (F := Ideal) V c).flushed 4 t
      = ((cfg3.win 4).blk t).view.read (Elt Ideal)
          (Spec.userFin (V c main_arg1) (V c main_v40) (V c main_v53) (V c main_v52)) := by
  obtain ⟨-, -, -, -, -, -, -, -, e0, e1⟩ := blockIdx3 t
  show (cfg3.win 4).cut (grid3.coords t) ((dat3 V c).after 4 t) = _
  rw [after3_4]
  unfold out3_4
  rw [View.canon_unit_zero zeroOff]
  simp only [View.ld_unit_zero (S := S5000x64) zeroOff, View.ld_unit_zero (S := S64x4) zeroOff,
    View.ld_unit_zero (S := S4x64) zeroOff]
  refine funext_ix2 (a := 5000) (b := 64) _ _ fun p q => ?_
  show k3_pay1 (F := Ideal) (iblk3 V c 0 t) (iblk3 V c 2 t) (iblk3 V c 3 t) (iblk3 V c 1 t) (ix2 p q)
    = Spec.userFin (V c main_arg1) (V c main_v40) (V c main_v53) (V c main_v52) (((cfg3.win 4).blk t).view.emb (ix2 p q))
  have hi : ((cfg3.win 4).blk t).view.emb (ix2 p q)
      = (ix2 ⟨t.val * 5000 + p.val, row3_lt t p⟩ q : Spec.SU64.Idx) :=
    funext fun a => Fin.ext (by
      match a with
      | ⟨0, _⟩ => show win3_4.index t (0 : Fin 2) * 5000 + 1 * p.val = t.val * 5000 + p.val; rw [e0]; omega
      | ⟨1, _⟩ => show win3_4.index t (1 : Fin 2) * 64 + 1 * q.val = q.val; rw [e1]; omega)
  rw [hi]
  exact finBody_row (iblk3 V c 0 t) (iblk3 V c 2 t) (iblk3 V c 3 t) (iblk3 V c 1 t) p q
    (V c main_arg1) (V c main_v40) (V c main_v53) (V c main_v52) ⟨t.val * 5000 + p.val, row3_lt t p⟩
    (userBlock3_apply V c t p) (aggBlock3_apply V c t p) (factorBlock3_apply V c t) (weightBlock3_apply V c t)

/-- An index of the output array lies in point t's block iff each coordinate lies in the block's range. -/
theorem mem_block3 (t : Fin cfg3.N) (i : S50000x64.Idx) :
    i ∈ ((cfg3.win 4).blk t).view.set
      ↔ ∀ a : Fin 2, win3_4.index t a * S5000x64.size a ≤ (i a).val ∧ (i a).val < win3_4.index t a * S5000x64.size a + S5000x64.size a := by
  show i ∈ ((View.whole main_v54).slice (win3_4.rect t)).set ↔ _
  rw [View.set_slice_whole, Rect.mem_set_unit]
  exact Iff.rfl

/-- Every row lies in a block: row r in block r / 5000. -/
theorem cover3 (i : S50000x64.Idx) :
    ∃ t : Fin cfg3.N, (cfg3.win 4).flush t = true ∧ i ∈ ((cfg3.win 4).blk t).view.set := by
  have hi0 : (i 0).val < 50000 := (i 0).isLt
  have hi1 : (i 1).val < 64 := (i 1).isLt
  have hN : cfg3.N = 10 := N_3
  let t : Fin cfg3.N := ⟨(i 0).val / 5000, by rw [hN]; omega⟩
  obtain ⟨-, -, -, -, -, -, -, -, e0, e1⟩ := blockIdx3 t
  have ht : t.val = (i 0).val / 5000 := rfl
  refine ⟨t, flush3_4 t, ?_⟩
  rw [mem_block3]
  intro a
  match a with
  | ⟨0, _⟩ => show win3_4.index t (0 : Fin 2) * 5000 ≤ (i 0).val ∧ (i 0).val < win3_4.index t (0 : Fin 2) * 5000 + 5000; rw [e0, ht]; omega
  | ⟨1, _⟩ => show win3_4.index t (1 : Fin 2) * 64 ≤ (i 1).val ∧ (i 1).val < win3_4.index t (1 : Fin 2) * 64 + 64; rw [e1]; omega

/-- REGION 3's output array after the run: the row-wise user update of the user rows, the aggregates, the latent factors
    and the relation weights. -/
theorem final3 (c : Dev nD) :
    (dat3 (F := Ideal) V c).arrAt 4 cfg3.N
      = Spec.userFin (V c main_arg1) (V c main_v40) (V c main_v53) (V c main_v52) :=
  (dat3 (F := Ideal) V c).arrAt_eq_of_cover 4 (Spec.userFin (V c main_arg1) (V c main_v40) (V c main_v53) (V c main_v52))
    (fun t _ => writeBack3 V c t) cover3

end Cert.KernelIdeal.UserValue

end
-- ==== Proof.KEntity.lean ====
/-
  The first two kernels of the program, each read as ONE row-wise function of its input arrays on the extended reals.

  * The edge-message kernel runs over 200 blocks of 5000 rows. Row r of its [1000000, 65] output depends only on row r of
    its three row-blocked inputs and on the resident [16, 64] weight: lanes 0..63 hold the gathered row times the weight
    row selected by a one-hot product, times the edge's mask; lane 64 holds one.
  * The mean kernel runs over 10 blocks of 10000 rows. Row r of its [100000, 64] output is lanes 0..63 of row r of the
    input divided by the larger of lane 64 of that row and one.

  For each kernel: the body's value at an entry given by its two coordinates; what a grid point writes back, as the block
  of the whole-array function at that point (block t covers rows t * B .. t * B + B - 1, so an entry of a block sits at
  block index times block size plus its coordinate inside the block); and the cover: row r lies in block r / B.
-/
import proofs.«400045_j55018531062593_4_alg».proof.Proof.Gen.KernelIdeal.Frame
import proofs.«400045_j55018531062593_4_alg».proof.Proof.Spec
import proofs.«400045_j55018531062593_4_alg».proof.Proof.LibRows
import Idealize.ShloMosaic.Lib.Pipeline.Value
import Idealize.ShloMosaic.Lib.ValueIdx
import Idealize.ShloMosaic.Lib.ValueLayout
import Idealize.ShloMosaic.PureOps.Ideal.Laws

open scoped BigOperators

noncomputable section

namespace Cert.KernelIdeal.EntityValue

open Cert.KernelIdeal Cert.KernelIdeal.Gen Idealize.ShloMosaic Idealize.ShloMosaic.TcCoe Idealize.SL.Sem
open Idealize.ShloMosaic.ValueIdx
open Idealize.ShloMosaic.Pipeline (Dat)
open Cert.Proof Cert.Proof.LibRows

variable (V : (c : Dev nD) → (b : Ref sig .tc) → Buf (Elt Ideal) ((c : Thread nD τ).loc b))

/-- The zero offsets of a rank-2 rectangle, however they are spelt. -/
theorem hz : (![0, 0] : Fin 2 → Nat) = fun _ => 0 := funext fun a => by fin_cases a <;> rfl

/-! ## The edge-message kernel -/

/-- The float read of a one-bit truth value widened to 32 bits: one if it holds, zero if not. -/
theorem sitofp_ofBool (b : Bool) :
    (FloatOps.sitofp (F := Ideal) .f32 ((BitVec.ofBool b).setWidth 32) : EReal) = if b then 1 else 0 := by
  cases b
  · show (((BitVec.setWidth 32 (BitVec.ofBool false)).toInt : ℝ) : EReal) = 0
    rw [show (BitVec.setWidth 32 (BitVec.ofBool false)).toInt = 0 from by decide]; simp
  · show (((BitVec.setWidth 32 (BitVec.ofBool true)).toInt : ℝ) : EReal) = 1
    rw [show (BitVec.setWidth 32 (BitVec.ofBool true)).toInt = 1 from by decide]; simp

/-- The lane index compared with a column of words broadcast over 16 lanes, as a float: at (p, k) the entry k of the
    one-hot row of the word of row p. -/
theorem oneHotRow_apply {a : ℕ} (z : IVec ⟨2, ![a, 1]⟩ 32) (hio : (⟨2, ![a, 16]⟩ : Shape).Iotas .tc 32 [1])
    (hb : (⟨2, ![a, 1]⟩ : Shape).Broadcasts ⟨2, ![a, 16]⟩)
    (hlt : 1 < 32) (p : Fin a) (k : Fin 16) :
    (sitofp .f32 (extui 32 (cmpi .eq (iota .tc ⟨2, ![a, 16]⟩ 32 [1] hio)
        (broadcastTo ⟨2, ![a, 16]⟩ z hb)) hlt) : FVec Ideal ⟨2, ![a, 16]⟩ .f32) (ix2 p k)
      = Spec.oneHot (z (ix2 p (0 : Fin 1))) k := by
  rw [sitofp_apply, extui_apply]
  show FloatOps.sitofp (F := Ideal) .f32 ((IntOp.cmpi .eq (iota .tc ⟨2, ![a, 16]⟩ 32 [1] hio (ix2 p k))
      (broadcastTo ⟨2, ![a, 16]⟩ z hb (ix2 p k))).setWidth 32) = _
  rw [iota_single_apply, broadcastTo_a1_ab_apply]
  show FloatOps.sitofp (F := Ideal) .f32 ((BitVec.ofBool (BitVec.ofNat 32 k.val == z (ix2 p (0 : Fin 1)))).setWidth 32) = _
  rw [sitofp_ofBool]
  unfold Spec.oneHot
  by_cases h : BitVec.ofNat 32 k.val = z (ix2 p (0 : Fin 1))
  · rw [if_pos h, if_pos (by simpa using h)]
  · rw [if_neg h, if_neg (by simpa using h)]

/-- A block times the product of the one-hot rows with the weight, times a mask column: at (p, q) the block's entry
    times the weight row the word of row p selects, at lane q, times the mask of row p. -/
theorem msgBody_apply {a : ℕ} (z : IVec ⟨2, ![a, 1]⟩ 32) (W : FVec Ideal ⟨2, ![16, 64]⟩ .f32)
    (g : FVec Ideal ⟨2, ![a, 64]⟩ .f32) (mk : FVec Ideal ⟨2, ![a, 1]⟩ .f32)
    (hio : (⟨2, ![a, 16]⟩ : Shape).Iotas .tc 32 [1])
    (hc : (⟨2, ![a, 1]⟩ : Shape).ShapeCasts ⟨2, ![a, 1]⟩) (hb : (⟨2, ![a, 1]⟩ : Shape).Broadcasts ⟨2, ![a, 16]⟩)
    (hlt : 1 < 32) (hg : (⟨2, ![a, 64]⟩ : Shape).ShapeCasts ⟨2, ![a, 64]⟩)
    (hc' : (⟨2, ![a, 1]⟩ : Shape).ShapeCasts ⟨2, ![a, 1]⟩) (hb' : (⟨2, ![a, 1]⟩ : Shape).Broadcasts ⟨2, ![a, 64]⟩)
    (p : Fin a) (q : Fin 64) :
    mulf (mulf (shapeCast ⟨2, ![a, 64]⟩ g hg)
          (matmul (DotDims.plain a 16 64) none
            (sitofp .f32 (extui 32 (cmpi .eq (iota .tc ⟨2, ![a, 16]⟩ 32 [1] hio)
              (broadcastTo ⟨2, ![a, 16]⟩ (shapeCast ⟨2, ![a, 1]⟩ z hc) hb)) hlt) : FVec Ideal ⟨2, ![a, 16]⟩ .f32)
            W (constant (F := Ideal) ⟨2, ![a, 64]⟩ .f32 0x00000000#32)))
        (broadcastTo ⟨2, ![a, 64]⟩ (shapeCast ⟨2, ![a, 1]⟩ mk hc') hb') (ix2 p q)
      = g (ix2 p q) * (∑ k : Fin 16, Spec.oneHot (z (ix2 p (0 : Fin 1))) k * W (ix2 k q)) * mk (ix2 p (0 : Fin 1)) := by
  rw [mulf_apply, mulf_apply, broadcastTo_a1_ab_apply, shapeCast_self, shapeCast_self, shapeCast_self]
  refine congrArg (fun s : EReal => g (ix2 p q) * s * mk (ix2 p (0 : Fin 1))) ?_
  refine (matmul_plain_zero_apply none _ W p q).trans (Finset.sum_congr rfl fun k _ => ?_)
  rw [oneHotRow_apply]

/-- The edge-message kernel's first stored value at (p, q), from its four loads. -/
theorem msgPayload_apply (v0 : Vec Ideal S5000x1 .i32) (v7 : Vec Ideal S16x64 .f32) (v9 : Vec Ideal S5000x64 .f32)
    (v12 : Vec Ideal S5000x1 .f32) (p : Fin 5000) (q : Fin 64) :
    k0_pay1 (F := Ideal) v0 v7 v9 v12 (ix2 p q)
      = v9 (ix2 p q) * (∑ k : Fin 16, Spec.oneHot (v0 (ix2 p (0 : Fin 1))) k * v7 (ix2 k q)) * v12 (ix2 p (0 : Fin 1)) := by
  unfold k0_pay1
  exact msgBody_apply v0 v7 v9 v12 _ _ _ _ _ _ _ p q

/-- Its second stored value is the column of ones. -/
theorem onesPayload_apply (j : S5000x1.Idx) : k0_pay2 (F := Ideal) j = Spec.one := rfl

/-- The two stores of the body, last first: the column of ones into lane 64, then the messages into lanes 0..63. -/
abbrev msgPieces (w1 : Vec Ideal S5000x1 .f32) (w2 : Vec Ideal S5000x64 .f32) : List (View.Piece (Elt Ideal) S5000x65 .f32) :=
  [⟨Rect.unit (s := S5000x65) ![0, 64] S5000x1.size inb_S5000x65_S5000x1_0_64, w1⟩,
   ⟨Rect.unit (s := S5000x65) ![0, 0] S5000x64.size inb_S5000x65_S5000x64_0_0, w2⟩]

/-- What the body leaves in the output's staging buffer: its two stores over the four input blocks. -/
theorem msgOut_eq (c : Dev nD) (i : grid0.Coords) (arg1 : Memref sig .tc .vmem S5000x64 .f32) (harg1 : arg1.IsWhole)
    (arg2 : Memref sig .tc .vmem S5000x1 .i32) (harg2 : arg2.IsWhole) (arg3 : Memref sig .tc .vmem S5000x1 .f32) (harg3 : arg3.IsWhole)
    (arg4 : Memref sig .tc .vmem S16x64 .f32) (harg4 : arg4.IsWhole) (arg5 : Memref sig .tc .vmem S5000x65 .f32) (harg5 : arg5.IsWhole)
    (x0 : Vec Ideal S5000x64 .f32) (x1 : Vec Ideal S5000x1 .i32) (x2 : Vec Ideal S5000x1 .f32) (x3 : Vec Ideal S16x64 .f32) :
    out0_A_4 (F := Ideal) c i arg1 harg1 arg2 harg2 arg3 harg3 arg4 harg4 arg5 harg5 x0 x1 x2 x3
      = View.canon (msgPieces (k0_pay2 (F := Ideal)) (k0_pay1 (F := Ideal) x1 x3 x0 x2)) := by
  unfold out0_A_4
  rw [View.read_writes_eq_canon _ _ _ (cover0_A_4 c i arg1 harg1 arg2 harg2 arg3 harg3 arg4 harg4 arg5 harg5 x0 x1 x2 x3)]
  unfold kernelRun0_A
  dsimp only
  sl_unfold_words
  simp only [View.readAt_eq_ld, harg1.read_unread, harg2.read_unread, harg3.read_unread, harg4.read_unread,
    View.ld_unit_zero (S := S5000x64) hz, View.ld_unit_zero (S := S5000x1) hz, View.ld_unit_zero (S := S16x64) hz]

/-- At a lane below 64 the buffer holds the first store's value: the later store does not reach it. -/
theorem msgCanon_lanes (w1 : Vec Ideal S5000x1 .f32) (w2 : Vec Ideal S5000x64 .f32) (p : Fin 5000) (q : Fin 64) :
    View.canon (msgPieces w1 w2) (ix2 p ⟨q.val, Nat.lt_succ_of_lt q.isLt⟩ : S5000x65.Idx) = w2 (ix2 p q) := by
  have hq : q.val < 64 := q.isLt
  have hnot : (ix2 p ⟨q.val, Nat.lt_succ_of_lt q.isLt⟩ : S5000x65.Idx)
      ∉ (Rect.unit (s := S5000x65) ![0, 64] S5000x1.size inb_S5000x65_S5000x1_0_64).set := by
    rw [Rect.mem_set_unit]
    intro h
    have h1 : 64 ≤ q.val := (h 1).1
    omega
  have e : (ix2 p ⟨q.val, Nat.lt_succ_of_lt q.isLt⟩ : S5000x65.Idx)
      = (Rect.unit (s := S5000x65) ![0, 0] S5000x64.size inb_S5000x65_S5000x64_0_0).emb (ix2 p q) :=
    funext fun a => Fin.ext (match a with
      | ⟨0, _⟩ => by show p.val = 0 + 1 * p.val; omega
      | ⟨1, _⟩ => by show q.val = 0 + 1 * q.val; omega)
  refine (View.canon_cons_of_not_mem (Val := Elt Ideal)
    (⟨Rect.unit (s := S5000x65) ![0, 64] S5000x1.size inb_S5000x65_S5000x1_0_64, w1⟩ : View.Piece (Elt Ideal) S5000x65 .f32)
    [⟨Rect.unit (s := S5000x65) ![0, 0] S5000x64.size inb_S5000x65_S5000x64_0_0, w2⟩] hnot).trans ?_
  rw [e]
  exact View.canon_cons_emb (Val := Elt Ideal) (Rect.unit (s := S5000x65) ![0, 0] S5000x64.size inb_S5000x65_S5000x64_0_0)
    w2 [] (ix2 p q)

/-- At lane 64 it holds the later store's value. -/
theorem msgCanon_count (w1 : Vec Ideal S5000x1 .f32) (w2 : Vec Ideal S5000x64 .f32) (p : Fin 5000) :
    View.canon (msgPieces w1 w2) (ix2 p ⟨64, Nat.lt_succ_self 64⟩ : S5000x65.Idx) = w1 (ix2 p (0 : Fin 1)) := by
  have e : (ix2 p ⟨64, Nat.lt_succ_self 64⟩ : S5000x65.Idx)
      = (Rect.unit (s := S5000x65) ![0, 64] S5000x1.size inb_S5000x65_S5000x1_0_64).emb (ix2 p (0 : Fin 1)) :=
    funext fun a => Fin.ext (match a with
      | ⟨0, _⟩ => by show p.val = 0 + 1 * p.val; omega
      | ⟨1, _⟩ => by show 64 = 64 + 1 * 0; omega)
  rw [e]
  exact View.canon_cons_emb (Val := Elt Ideal) (Rect.unit (s := S5000x65) ![0, 64] S5000x1.size inb_S5000x65_S5000x1_0_64)
    w1 [⟨Rect.unit (s := S5000x65) ![0, 0] S5000x64.size inb_S5000x65_S5000x64_0_0, w2⟩] (ix2 p (0 : Fin 1))

/-- If row p of the three row blocks is row e of their arrays, and the weight block is the weight, the buffer at
    (p, q) is the edge message of row e at lane q. -/
theorem msgPoint (x0 : Vec Ideal S5000x64 .f32) (x1 : Vec Ideal S5000x1 .i32) (x2 : Vec Ideal S5000x1 .f32)
    (x3 : Vec Ideal S16x64 .f32) (g : Spec.SE64.Idx → EReal) (et : Spec.SE1.Idx → BitVec 32) (mk : Spec.SE1.Idx → EReal)
    (W : Spec.SW.Idx → EReal) (p : Fin 5000) (q : Fin 65) (e : Fin 1000000)
    (h0 : ∀ q' : Fin 64, x0 (ix2 p q') = g (ix2 e q')) (h1 : x1 (ix2 p (0 : Fin 1)) = et (ix2 e (0 : Fin 1)))
    (h2 : x2 (ix2 p (0 : Fin 1)) = mk (ix2 e (0 : Fin 1))) (h3 : ∀ (k : Fin 16) (q' : Fin 64), x3 (ix2 k q') = W (ix2 k q')) :
    View.canon (msgPieces (k0_pay2 (F := Ideal)) (k0_pay1 (F := Ideal) x1 x3 x0 x2)) (ix2 p q : S5000x65.Idx)
      = Spec.neighExtAt g et mk W e q := by
  unfold Spec.neighExtAt
  by_cases h : q.val < 64
  · rw [dif_pos h]
    refine (msgCanon_lanes _ _ p ⟨q.val, h⟩).trans ?_
    rw [msgPayload_apply, h0, h1, h2]
    simp only [h3]
  · rw [dif_neg h]
    obtain rfl : q = ⟨64, Nat.lt_succ_self 64⟩ := Fin.ext (by show q.val = 64; have := q.isLt; omega)
    exact (msgCanon_count _ _ p).trans rfl

/-- The row-blocked windows of the edge-message kernel move with the grid point along the rows and stay at lane block
    0; the weight's window stays at block (0, 0). -/
theorem msgIndex : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The gathered-row block at point t is rows 5000 t .. 5000 t + 4999 of its array. -/
theorem msgInput0_apply (c : Dev nD) (t : Fin cfg0.N) (x : S5000x64.Idx) (k : S1000000x64.Idx)
    (hk0 : (k 0).val = t.val * 5000 + (x 0).val) (hk1 : (k 1).val = (x 1).val) :
    (iblk0 V c 0 t : Vec Ideal S5000x64 .f32) x = (V c main_v21 : S1000000x64.Idx → EReal) k := by
  obtain ⟨e0, e1, -⟩ := msgIndex t
  unfold iblk0
  rw [View.read_apply]
  show V c main_v21 _ = V c main_v21 _
  congr 1
  funext a
  apply Fin.ext
  match a with
  | ⟨0, _⟩ => show win0_0.index t (0 : Fin 2) * 5000 + 1 * (x 0).val = (k 0).val; rw [e0, hk0]; omega
  | ⟨1, _⟩ => show win0_0.index t (1 : Fin 2) * 64 + 1 * (x 1).val = (k 1).val; rw [e1, hk1]; omega

/-- The relation-word block at point t is rows 5000 t .. 5000 t + 4999 of its column. -/
theorem msgInput1_apply (c : Dev nD) (t : Fin cfg0.N) (x : S5000x1.Idx) (k : S1000000x1.Idx)
    (hk0 : (k 0).val = t.val * 5000 + (x 0).val) (hk1 : (k 1).val = (x 1).val) :
    (iblk0 V c 1 t : Vec Ideal S5000x1 .i32) x = (V c main_v23 : S1000000x1.Idx → BitVec 32) k := by
  obtain ⟨-, -, e0, e1, -⟩ := msgIndex t
  unfold iblk0
  rw [View.read_apply]
  show V c main_v23 _ = V c main_v23 _
  congr 1
  funext a
  apply Fin.ext
  match a with
  | ⟨0, _⟩ => show win0_1.index t (0 : Fin 2) * 5000 + 1 * (x 0).val = (k 0).val; rw [e0, hk0]; omega
  | ⟨1, _⟩ => show win0_1.index t (1 : Fin 2) * 1 + 1 * (x 1).val = (k 1).val; rw [e1, hk1]; omega

/-- The mask block at point t is rows 5000 t .. 5000 t + 4999 of its column. -/
theorem msgInput2_apply (c : Dev nD) (t : Fin cfg0.N) (x : S5000x1.Idx) (k : S1000000x1.Idx)
    (hk0 : (k 0).val = t.val * 5000 + (x 0).val) (hk1 : (k 1).val = (x 1).val) :
    (iblk0 V c 2 t : Vec Ideal S5000x1 .f32) x = (V c main_v22 : S1000000x1.Idx → EReal) k := by
  obtain ⟨-, -, -, -, e0, e1, -⟩ := msgIndex t
  unfold iblk0
  rw [View.read_apply]
  show V c main_v22 _ = V c main_v22 _
  congr 1
  funext a
  apply Fin.ext
  match a with
  | ⟨0, _⟩ => show win0_2.index t (0 : Fin 2) * 5000 + 1 * (x 0).val = (k 0).val; rw [e0, hk0]; omega
  | ⟨1, _⟩ => show win0_2.index t (1 : Fin 2) * 1 + 1 * (x 1).val = (k 1).val; rw [e1, hk1]; omega

/-- The weight block at every point is the whole weight. -/
theorem msgInput3_apply (c : Dev nD) (t : Fin cfg0.N) (x : S16x64.Idx) :
    (iblk0 V c 3 t : Vec Ideal S16x64 .f32) x = (V c main_arg7 : S16x64.Idx → EReal) x := by
  obtain ⟨-, -, -, -, -, -, e0, e1, -⟩ := msgIndex t
  unfold iblk0
  rw [View.read_apply]
  show V c main_arg7 _ = V c main_arg7 _
  congr 1
  funext a
  apply Fin.ext
  match a with
  | ⟨0, _⟩ => show win0_3.index t (0 : Fin 2) * 16 + 1 * (x 0).val = (x 0).val; rw [e0]; omega
  | ⟨1, _⟩ => show win0_3.index t (1 : Fin 2) * 64 + 1 * (x 1).val = (x 1).val; rw [e1]; omega

/-- What point t writes back is block t of the row-wise edge messages of the input arrays. -/
theorem msgFlushed (c : Dev nD) (t : Fin cfg0.N) :
    (dat0 (F := Ideal) V c).flushed 4 t = ((cfg0.win 4).blk t).view.read (Elt Ideal)
      (Spec.neighExt (V c main_v21) (V c main_v23) (V c main_v22) (V c main_arg7)) := by
  show (cfg0.win 4).cut (grid0.coords t) ((dat0 V c).after 4 t) = _
  rw [after0_4]
  unfold outsAt0
  rw [msgOut_eq c (grid0.coords t) (ms0_0 t) (hs0_0 t) (ms0_1 t) (hs0_1 t) (ms0_2 t) (hs0_2 t) (ms0_3 t) (hs0_3 t)
    (ms0_4 t) (hs0_4 t) (iblk0 V c 0 t) (iblk0 V c 1 t) (iblk0 V c 2 t) (iblk0 V c 3 t)]
  have ht : t.val < 200 := Nat.lt_of_lt_of_eq t.isLt N_0
  obtain ⟨-, -, -, -, -, -, -, -, e8, e9⟩ := msgIndex t
  have key : ∀ j : S5000x65.Idx,
      View.canon (msgPieces (k0_pay2 (F := Ideal))
          (k0_pay1 (F := Ideal) (iblk0 V c 1 t) (iblk0 V c 3 t) (iblk0 V c 0 t) (iblk0 V c 2 t))) j
        = Spec.neighExt (V c main_v21) (V c main_v23) (V c main_v22) (V c main_arg7) (((cfg0.win 4).blk t).view.emb j) := by
    intro j
    obtain ⟨p, q, rfl⟩ : ∃ (p : Fin 5000) (q : Fin 65), j = ix2 p q := ⟨j 0, j 1, eq_ix2 j⟩
    refine (msgPoint (iblk0 V c 0 t) (iblk0 V c 1 t) (iblk0 V c 2 t) (iblk0 V c 3 t)
      (V c main_v21) (V c main_v23) (V c main_v22) (V c main_arg7) p q ⟨t.val * 5000 + p.val, by omega⟩
      (fun q' => ?_) ?_ ?_ (fun k q' => ?_)).trans ?_
    · exact msgInput0_apply V c t (ix2 p q') (ix2 _ q') rfl rfl
    · exact msgInput1_apply V c t (ix2 p (0 : Fin 1)) (ix2 _ (0 : Fin 1)) rfl rfl
    · exact msgInput2_apply V c t (ix2 p (0 : Fin 1)) (ix2 _ (0 : Fin 1)) rfl rfl
    · exact msgInput3_apply V c t (ix2 k q')
    · have h0 : Spec.c0 (((cfg0.win 4).blk t).view.emb (ix2 p q)) = ⟨t.val * 5000 + p.val, by omega⟩ :=
        Fin.ext (by
          show win0_4.index t (0 : Fin 2) * 5000 + 1 * p.val = t.val * 5000 + p.val
          rw [e8]; omega)
      have h1 : Spec.c1 (((cfg0.win 4).blk t).view.emb (ix2 p q)) = q :=
        Fin.ext (by
          show win0_4.index t (1 : Fin 2) * 65 + 1 * q.val = q.val
          rw [e9]; omega)
      show _ = Spec.neighExtAt (V c main_v21) (V c main_v23) (V c main_v22) (V c main_arg7)
        (Spec.c0 (((cfg0.win 4).blk t).view.emb (ix2 p q))) (Spec.c1 (((cfg0.win 4).blk t).view.emb (ix2 p q)))
      rw [h0, h1]
  funext j
  exact key j

/-- An index of the output array is in point t's block iff each coordinate is in the block's range on its axis. -/
theorem msgMem (t : Fin cfg0.N) (i : S1000000x65.Idx) :
    i ∈ ((cfg0.win 4).blk t).view.set ↔ ∀ a : Fin 2, win0_4.index t a * S5000x65.size a ≤ (i a).val
      ∧ (i a).val < win0_4.index t a * S5000x65.size a + S5000x65.size a := by
  show i ∈ ((View.whole main_v24).slice (win0_4.rect t)).set ↔ _
  rw [View.set_slice_whole, Rect.mem_set_unit]
  exact Iff.rfl

/-- After the edge-message kernel's run its output array is the row-wise edge messages of the input arrays, with the
    column of ones appended: row r is written by point r / 5000. -/
theorem final0 (c : Dev nD) : (dat0 (F := Ideal) V c).arrAt 4 cfg0.N
    = Spec.neighExt (V c main_v21) (V c main_v23) (V c main_v22) (V c main_arg7) :=
  (dat0 V c).arrAt_eq_of_cover 4 (Spec.neighExt (V c main_v21) (V c main_v23) (V c main_v22) (V c main_arg7))
    (fun t _ => msgFlushed V c t) fun i => by
    have hi0 : (i 0).val < 1000000 := (i 0).isLt
    have hi1 : (i 1).val < 65 := (i 1).isLt
    have hN : cfg0.N = 200 := N_0
    refine ⟨⟨(i 0).val / 5000, by rw [hN]; omega⟩, flush0_4 _, ?_⟩
    rw [msgMem]
    obtain ⟨-, -, -, -, -, -, -, -, e8, e9⟩ := msgIndex ⟨(i 0).val / 5000, by rw [hN]; omega⟩
    intro a
    match a with
    | ⟨0, _⟩ =>
      show win0_4.index _ (0 : Fin 2) * 5000 ≤ (i 0).val ∧ (i 0).val < win0_4.index _ (0 : Fin 2) * 5000 + 5000
      rw [e8]; show (i 0).val / 5000 * 5000 ≤ (i 0).val ∧ (i 0).val < (i 0).val / 5000 * 5000 + 5000; omega
    | ⟨1, _⟩ =>
      show win0_4.index _ (1 : Fin 2) * 65 ≤ (i 1).val ∧ (i 1).val < win0_4.index _ (1 : Fin 2) * 65 + 65
      rw [e9]; omega

/-! ## The mean kernel -/

/-- A block divided, row by row, by the larger of a column and a constant: at (p, q) it is the block's entry over the
    larger of the column's entry of row p and the constant. -/
theorem meanBody_apply {a b : ℕ} (v0 : FVec Ideal ⟨2, ![a, b]⟩ .f32) (v2 : FVec Ideal ⟨2, ![a, 1]⟩ .f32) (cst : EReal)
    (h0 : (⟨2, ![a, b]⟩ : Shape).ShapeCasts ⟨2, ![a, b]⟩) (h1 : (⟨2, ![a, 1]⟩ : Shape).ShapeCasts ⟨2, ![a, 1]⟩)
    (hb : (⟨2, ![a, 1]⟩ : Shape).Broadcasts ⟨2, ![a, b]⟩) (p : Fin a) (q : Fin b) :
    divf (shapeCast ⟨2, ![a, b]⟩ v0 h0)
        (broadcastTo ⟨2, ![a, b]⟩ (maximumf (shapeCast ⟨2, ![a, 1]⟩ v2 h1) (broadcast ⟨2, ![a, 1]⟩ cst)) hb) (ix2 p q)
      = Ideal.div (v0 (ix2 p q)) (max (v2 (ix2 p (0 : Fin 1))) cst) := by
  rw [divf_apply, broadcastTo_a1_ab_apply, maximumf_apply, shapeCast_self, shapeCast_self, broadcast_apply]

/-- The mean kernel's stored value at (p, q), from its two loads. -/
theorem meanPayload_apply (v0 : Vec Ideal S10000x64 .f32) (v2 : Vec Ideal S10000x1 .f32) (p : Fin 10000) (q : Fin 64) :
    k1_pay1 (F := Ideal) v0 v2 (ix2 p q) = Ideal.div (v0 (ix2 p q)) (max (v2 (ix2 p (0 : Fin 1))) Spec.one) := by
  unfold k1_pay1
  exact meanBody_apply v0 v2 Spec.one _ _ _ p q

/-- The first load reads lanes 0..63 of the block: its entry (p, q) is the block's (p, q). -/
theorem meanLoad_lanes (p : Fin 10000) (q : Fin 64) :
    r1_0.idx (ix2 p q) = (ix2 p ⟨q.val, Nat.lt_succ_of_lt q.isLt⟩ : S10000x65.Idx) :=
  funext fun a => Fin.ext (match a with
    | ⟨0, _⟩ => by show 0 + 1 * p.val = p.val; omega
    | ⟨1, _⟩ => by show 0 + 1 * q.val = q.val; omega)

/-- The second load reads lane 64 of the block: its entry (p, 0) is the block's (p, 64). -/
theorem meanLoad_count (p : Fin 10000) :
    r1_1.idx (ix2 p (0 : Fin 1)) = (ix2 p ⟨64, Nat.lt_succ_self 64⟩ : S10000x65.Idx) :=
  funext fun a => Fin.ext (match a with
    | ⟨0, _⟩ => by show 0 + 1 * p.val = p.val; omega
    | ⟨1, _⟩ => by show 64 + 1 * 0 = 64; omega)

/-- If row p of the block is row n of the array, the body's value at (p, q) is the mean of row n at lane q. -/
theorem meanPoint (x0 : Vec Ideal S10000x65 .f32) (A : Spec.SN65.Idx → EReal) (p : Fin 10000) (q : Fin 64) (n : Fin 100000)
    (hx : ∀ q' : Fin 65, x0 (ix2 p q') = A (ix2 n q')) :
    k1_pay1 (F := Ideal) (View.ld x0 r1_0) (View.ld x0 r1_1) (ix2 p q) = Spec.entFinAt A n q := by
  rw [meanPayload_apply]
  show Ideal.div (x0 (r1_0.idx (ix2 p q))) (max (x0 (r1_1.idx (ix2 p (0 : Fin 1)))) Spec.one) = _
  rw [meanLoad_lanes, meanLoad_count, hx, hx]
  rfl

/-- Both windows of the mean kernel move with the grid point along the rows and stay at lane block 0. -/
theorem meanIndex : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

/-- The input block at point t is rows 10000 t .. 10000 t + 9999 of the input array. -/
theorem meanInput_apply (c : Dev nD) (t : Fin cfg1.N) (x : S10000x65.Idx) (k : S100000x65.Idx)
    (hk0 : (k 0).val = t.val * 10000 + (x 0).val) (hk1 : (k 1).val = (x 1).val) :
    (iblk1 V c 0 t : Vec Ideal S10000x65 .f32) x = (V c main_v27 : S100000x65.Idx → EReal) k := by
  obtain ⟨e0, e1, -, -⟩ := meanIndex t
  unfold iblk1
  rw [View.read_apply]
  show V c main_v27 _ = V c main_v27 _
  congr 1
  funext a
  apply Fin.ext
  match a with
  | ⟨0, _⟩ => show win1_0.index t (0 : Fin 2) * 10000 + 1 * (x 0).val = (k 0).val; rw [e0, hk0]; omega
  | ⟨1, _⟩ => show win1_0.index t (1 : Fin 2) * 65 + 1 * (x 1).val = (k 1).val; rw [e1, hk1]; omega

/-- What point t writes back is block t of the row-wise mean of the input array. -/
theorem meanFlushed (c : Dev nD) (t : Fin cfg1.N) :
    (dat1 (F := Ideal) V c).flushed 1 t = ((cfg1.win 1).blk t).view.read (Elt Ideal) (Spec.entFin (V c main_v27)) := by
  show (cfg1.win 1).cut (grid1.coords t) ((dat1 V c).after 1 t) = _
  rw [after1_1]
  unfold out1_1
  rw [View.canon_unit_zero hz]
  have ht : t.val < 10 := Nat.lt_of_lt_of_eq t.isLt N_1
  obtain ⟨-, -, e2, e3⟩ := meanIndex t
  have key : ∀ j : S10000x64.Idx,
      k1_pay1 (F := Ideal) (View.ld (iblk1 V c 0 t) r1_0) (View.ld (iblk1 V c 0 t) r1_1) j
        = Spec.entFin (V c main_v27) (((cfg1.win 1).blk t).view.emb j) := by
    intro j
    obtain ⟨p, q, rfl⟩ : ∃ (p : Fin 10000) (q : Fin 64), j = ix2 p q := ⟨j 0, j 1, eq_ix2 j⟩
    refine (meanPoint (iblk1 V c 0 t) (V c main_v27) p q ⟨t.val * 10000 + p.val, by omega⟩ fun q' => ?_).trans ?_
    · exact meanInput_apply V c t (ix2 p q') (ix2 _ q') rfl rfl
    · have h0 : Spec.c0 (((cfg1.win 1).blk t).view.emb (ix2 p q)) = ⟨t.val * 10000 + p.val, by omega⟩ :=
        Fin.ext (by
          show win1_1.index t (0 : Fin 2) * 10000 + 1 * p.val = t.val * 10000 + p.val
          rw [e2]; omega)
      have h1 : Spec.c1 (((cfg1.win 1).blk t).view.emb (ix2 p q)) = q :=
        Fin.ext (by
          show win1_1.index t (1 : Fin 2) * 64 + 1 * q.val = q.val
          rw [e3]; omega)
      show _ = Spec.entFinAt (V c main_v27) (Spec.c0 (((cfg1.win 1).blk t).view.emb (ix2 p q)))
        (Spec.c1 (((cfg1.win 1).blk t).view.emb (ix2 p q)))
      rw [h0, h1]
  funext j
  exact key j

/-- An index of the output array is in point t's block iff each coordinate is in the block's range on its axis. -/
theorem meanMem (t : Fin cfg1.N) (i : S100000x64.Idx) :
    i ∈ ((cfg1.win 1).blk t).view.set ↔ ∀ a : Fin 2, win1_1.index t a * S10000x64.size a ≤ (i a).val
      ∧ (i a).val < win1_1.index t a * S10000x64.size a + S10000x64.size a := by
  show i ∈ ((View.whole main_v28).slice (win1_1.rect t)).set ↔ _
  rw [View.set_slice_whole, Rect.mem_set_unit]
  exact Iff.rfl

/-- After the mean kernel's run its output array is the row-wise mean of the input array: row r is written by point
    r / 10000. -/
theorem final1 (c : Dev nD) : (dat1 (F := Ideal) V c).arrAt 1 cfg1.N = Spec.entFin (V c main_v27) :=
  (dat1 V c).arrAt_eq_of_cover 1 (Spec.entFin (V c main_v27)) (fun t _ => meanFlushed V c t) fun i => by
    have hi0 : (i 0).val < 100000 := (i 0).isLt
    have hi1 : (i 1).val < 64 := (i 1).isLt
    have hN : cfg1.N = 10 := N_1
    refine ⟨⟨(i 0).val / 10000, by rw [hN]; omega⟩, flush1_1 _, ?_⟩
    rw [meanMem]
    obtain ⟨-, -, e2, e3⟩ := meanIndex ⟨(i 0).val / 10000, by rw [hN]; omega⟩
    intro a
    match a with
    | ⟨0, _⟩ =>
      show win1_1.index _ (0 : Fin 2) * 10000 ≤ (i 0).val ∧ (i 0).val < win1_1.index _ (0 : Fin 2) * 10000 + 10000
      rw [e2]; show (i 0).val / 10000 * 10000 ≤ (i 0).val ∧ (i 0).val < (i 0).val / 10000 * 10000 + 10000; omega
    | ⟨1, _⟩ =>
      show win1_1.index _ (1 : Fin 2) * 64 ≤ (i 1).val ∧ (i 1).val < win1_1.index _ (1 : Fin 2) * 64 + 64
      rw [e3]; omega

end Cert.KernelIdeal.EntityValue
end
-- ==== Proof.KChain.lean ====
/-
  What the kernel program's two results are, as whole-array terms of the argument arrays: each pallas_call's output is
  its row-wise body of what the call finds in its operands, each host stretch's buffers are its operations of what it
  finds, and an untouched buffer is passed along; composed from the return back to the launch.
-/
import proofs.«400045_j55018531062593_4_alg».proof.Proof.Gen.KernelIdeal.Frame
import proofs.«400045_j55018531062593_4_alg».proof.Proof.KHostDefs
import proofs.«400045_j55018531062593_4_alg».proof.Proof.KUser
import proofs.«400045_j55018531062593_4_alg».proof.Proof.KEntity
import proofs.«400045_j55018531062593_4_alg».proof.Proof.Spec
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

/-- One host stretch: the buffer after the stretch's operations, as their functions of what the stretch found. -/
macro "layer " ops:ident " from " W:term : tactic =>
  `(tactic| (show StableHlo.after $ops $W _ = _; generalize $W = Wv; after_results_simp))

variable {F : FTy → Type} [FloatOps F]
variable (m : (ℓ : Loc nD τ sig) → Buf (Elt F) ℓ) (ρ : Dev nD → PrngReg)

/-! ## What region 0 finds (every host operation before it, from the launch) -/

set_option maxHeartbeats 4000000 in
theorem W11_v21 (c : Dev nD) : W11 m ρ c (Proc.devRef .tc main_v21)
    = gatherEnt (m ((c : Thread nD τ).loc main_arg0)) (colI (wrapW 100000#32 (tailC (m ((c : Thread nD τ).loc main_arg3))))) := by
  show StableHlo.after hostOps0_10 (W10 m ρ c) (Proc.devRef .tc main_v21) = _
  after_results_simp
  rfl

set_option maxHeartbeats 4000000 in
theorem W11_v23 (c : Dev nD) : W11 m ρ c (Proc.devRef .tc main_v23) = colI (etC (m ((c : Thread nD τ).loc main_arg4))) := by
  show StableHlo.after hostOps0_10 (W10 m ρ c) (Proc.devRef .tc main_v23) = _
  after_results_simp
  rfl

set_option maxHeartbeats 4000000 in
theorem W11_v22 (c : Dev nD) : W11 m ρ c (Proc.devRef .tc main_v22) = colF (m ((c : Thread nD τ).loc main_arg9)) := by
  show StableHlo.after hostOps0_10 (W10 m ρ c) (Proc.devRef .tc main_v22) = _
  after_results_simp
  rfl

set_option maxHeartbeats 4000000 in
theorem W11_v8 (c : Dev nD) : W11 m ρ c (Proc.devRef .tc main_v8) = headC (m ((c : Thread nD τ).loc main_arg3)) := by
  show StableHlo.after hostOps0_10 (W10 m ρ c) (Proc.devRef .tc main_v8) = _
  after_results_simp
  rfl

set_option maxHeartbeats 4000000 in
theorem W11_v13 (c : Dev nD) : W11 m ρ c (Proc.devRef .tc main_v13) = rowsC (m ((c : Thread nD τ).loc main_arg5)) := by
  show StableHlo.after hostOps0_10 (W10 m ρ c) (Proc.devRef .tc main_v13) = _
  after_results_simp
  rfl

set_option maxHeartbeats 4000000 in
theorem W11_v14 (c : Dev nD) : W11 m ρ c (Proc.devRef .tc main_v14) = colsC (m ((c : Thread nD τ).loc main_arg5)) := by
  show StableHlo.after hostOps0_10 (W10 m ρ c) (Proc.devRef .tc main_v14) = _
  after_results_simp
  rfl

set_option maxHeartbeats 4000000 in
/-- No host operation before region 0 writes an argument. -/
theorem W11_arg (c : Dev nD) (b : Ref sig .tc) (hb : b = main_arg0 ∨ b = main_arg1 ∨ b = main_arg2 ∨ b = main_arg6 ∨ b = main_arg7 ∨ b = main_arg8) :
    W11 m ρ c (Proc.devRef .tc b) = m ((c : Thread nD τ).loc b) := by
  rcases hb with rfl | rfl | rfl | rfl | rfl | rfl <;>
  · show StableHlo.after hostOps0_10 (W10 m ρ c) _ = _
    after_results_simp
    try rfl

/-! ## Untouched buffers, passed along from region 0's entry -/

set_option maxHeartbeats 2000000 in
theorem W12_arg7 (c : Dev nD) : W12 m ρ c (Proc.devRef .tc main_arg7) = W11 m ρ c (Proc.devRef .tc main_arg7) :=
  (W12_arr m ρ c 3).trans (((dat0 (V11 m ρ) c).arrAt_in 3 rfl _).trans (A_eq0 (V11 m ρ) c 3))

set_option maxHeartbeats 2000000 in
theorem W14_of_W11 (c : Dev nD) (b : Ref sig .tc)
    (hb : b = main_arg0 ∨ b = main_v14 ∨ b = main_arg6 ∨ b = main_v13 ∨ b = main_arg1 ∨ b = main_arg2 ∨ b = main_arg7 ∨ b = main_arg8) :
    W14 m ρ c (Proc.devRef .tc b) = W11 m ρ c (Proc.devRef .tc b) := by
  rcases hb with rfl | rfl | rfl | rfl | rfl | rfl | rfl | rfl
  case inr.inr.inr.inr.inr.inr.inl =>
    rw [W14_of_ne m ρ c _ (by decide)]
    refine Eq.trans ?_ (W12_arg7 m ρ c)
    layer hostOps1 from (W12 m ρ c)
  all_goals
    rw [W14_of_ne m ρ c _ (by decide)]
    refine Eq.trans ?_ (W12_of_ne m ρ c _ (by decide))
    layer hostOps1 from (W12 m ρ c)

set_option maxHeartbeats 2000000 in
theorem W16_of_W11 (c : Dev nD) (b : Ref sig .tc)
    (hb : b = main_v13 ∨ b = main_arg1 ∨ b = main_arg2 ∨ b = main_arg7 ∨ b = main_arg8) :
    W16 m ρ c (Proc.devRef .tc b) = W11 m ρ c (Proc.devRef .tc b) := by
  rcases hb with rfl | rfl | rfl | rfl | rfl <;>
  · rw [W16_of_ne m ρ c _ (by decide)]
    refine Eq.trans ?_ (W14_of_W11 m ρ c _ (by simp))
    layer hostOps2 from (W14 m ρ c)

/-! ## What region 2 finds -/

set_option maxHeartbeats 2000000 in
theorem W15_v35 (c : Dev nD) : W15 m ρ c (Proc.devRef .tc main_v35)
    = gatherEnt (m ((c : Thread nD τ).loc main_arg0)) (colI (wrapW 100000#32 (colsC (m ((c : Thread nD τ).loc main_arg5))))) := by
  have e : W15 m ρ c (Proc.devRef .tc main_v35)
      = gatherEnt (W14 m ρ c (Proc.devRef .tc main_arg0)) (colI (wrapW 100000#32 (W14 m ρ c (Proc.devRef .tc main_v14)))) := by
    layer hostOps2 from (W14 m ρ c)
    rfl
  rw [e, W14_of_W11 m ρ c main_arg0 (by simp), W14_of_W11 m ρ c main_v14 (by simp), W11_arg m ρ c main_arg0 (by simp), W11_v14]

set_option maxHeartbeats 2000000 in
theorem W15_v36 (c : Dev nD) : W15 m ρ c (Proc.devRef .tc main_v36) = colF (m ((c : Thread nD τ).loc main_arg6)) := by
  have e : W15 m ρ c (Proc.devRef .tc main_v36) = colF (W14 m ρ c (Proc.devRef .tc main_arg6)) := by
    layer hostOps2 from (W14 m ρ c)
    rfl
  rw [e, W14_of_W11 m ρ c main_arg6 (by simp), W11_arg m ρ c main_arg6 (by simp)]

/-! ## What region 3 finds -/

set_option maxHeartbeats 2000000 in
theorem W17_v53 (c : Dev nD) : W17 m ρ c (Proc.devRef .tc main_v53) = latT (m ((c : Thread nD τ).loc main_arg2)) := by
  have e : W17 m ρ c (Proc.devRef .tc main_v53) = latT (W16 m ρ c (Proc.devRef .tc main_arg2)) := by
    layer hostOps3 from (W16 m ρ c)
    rfl
  rw [e, W16_of_W11 m ρ c main_arg2 (by simp), W11_arg m ρ c main_arg2 (by simp)]

set_option maxHeartbeats 2000000 in
theorem W17_v52 (c : Dev nD) : W17 m ρ c (Proc.devRef .tc main_v52)
    = disen (m ((c : Thread nD τ).loc main_arg7)) (m ((c : Thread nD τ).loc main_arg8)) := by
  have e : W17 m ρ c (Proc.devRef .tc main_v52)
      = disen (W16 m ρ c (Proc.devRef .tc main_arg7)) (W16 m ρ c (Proc.devRef .tc main_arg8)) := by
    layer hostOps3 from (W16 m ρ c)
    rfl
  rw [e, W16_of_W11 m ρ c main_arg7 (by simp), W16_of_W11 m ρ c main_arg8 (by simp), W11_arg m ρ c main_arg7 (by simp),
    W11_arg m ρ c main_arg8 (by simp)]

set_option maxHeartbeats 2000000 in
theorem W17_arg1 (c : Dev nD) : W17 m ρ c (Proc.devRef .tc main_arg1) = m ((c : Thread nD τ).loc main_arg1) := by
  have e : W17 m ρ c (Proc.devRef .tc main_arg1) = W16 m ρ c (Proc.devRef .tc main_arg1) := by
    layer hostOps3 from (W16 m ρ c)
  rw [e, W16_of_W11 m ρ c main_arg1 (by simp), W11_arg m ρ c main_arg1 (by simp)]

set_option maxHeartbeats 2000000 in
theorem W17_v40 (c : Dev nD) : W17 m ρ c (Proc.devRef .tc main_v40)
    = Host.scatterAdd scatter_S50000x64_S1000000x1_S1000000x64_1_0_0_1 zerosU (colI (rowsC (m ((c : Thread nD τ).loc main_arg5))))
        (W16 m ρ c (Proc.devRef .tc main_v37)) := by
  have e : W17 m ρ c (Proc.devRef .tc main_v40)
      = Host.scatterAdd scatter_S50000x64_S1000000x1_S1000000x64_1_0_0_1 zerosU (colI (W16 m ρ c (Proc.devRef .tc main_v13)))
          (W16 m ρ c (Proc.devRef .tc main_v37)) := by
    layer hostOps3 from (W16 m ρ c)
    rfl
  rw [e, W16_of_W11 m ρ c main_v13 (by simp), W11_v13]

/-! ## What region 1 finds -/

set_option maxHeartbeats 2000000 in
theorem W13_v27 (c : Dev nD) : W13 m ρ c (Proc.devRef .tc main_v27)
    = Host.scatterAdd scatter_S100000x65_S1000000x1_S1000000x65_1_0_0_1 zeros65 (colI (headC (m ((c : Thread nD τ).loc main_arg3))))
        (W12 m ρ c (Proc.devRef .tc main_v24)) := by
  have e : W13 m ρ c (Proc.devRef .tc main_v27)
      = Host.scatterAdd scatter_S100000x65_S1000000x1_S1000000x65_1_0_0_1 zeros65 (colI (W12 m ρ c (Proc.devRef .tc main_v8)))
          (W12 m ρ c (Proc.devRef .tc main_v24)) := by
    layer hostOps1 from (W12 m ρ c)
    rfl
  rw [e, W12_of_ne m ρ c main_v8 (by decide), W11_v8]

set_option maxHeartbeats 2000000 in
/-- The first result is no later buffer's: it is what region 1 leaves. -/
theorem W18_v28 (c : Dev nD) : W18 m ρ c (Proc.devRef .tc main_v28) = (dat1 (V13 m ρ) c).arrAt 1 cfg1.N := by
  rw [W18_of_ne m ρ c main_v28 (by decide)]
  have e17 : W17 m ρ c (Proc.devRef .tc main_v28) = W16 m ρ c (Proc.devRef .tc main_v28) := by
    layer hostOps3 from (W16 m ρ c)
  rw [e17, W16_of_ne m ρ c main_v28 (by decide)]
  have e15 : W15 m ρ c (Proc.devRef .tc main_v28) = W14 m ρ c (Proc.devRef .tc main_v28) := by
    layer hostOps2 from (W14 m ρ c)
  rw [e15]
  exact W14_arr m ρ c 1

end Cert.KernelIdeal.Chain

/-! ## The two results, at the ideal instance -/

namespace Cert.KernelIdeal.Chain

open Cert.KernelIdeal Cert.KernelIdeal.Gen Cert.Proof
open Idealize.ShloMosaic Idealize.ShloMosaic.TcCoe Idealize.SL.Sem Idealize.ShloMosaic.StableHlo

variable (m : (ℓ : Loc nD τ sig) → Buf (Elt Ideal) ℓ) (ρ : Dev nD → PrngReg)

/-- The entity result: the mean over incoming edges of the edge messages, scattered by the clamped head column. -/
theorem ent_chain (c : Dev nD) : W18 m ρ c (Proc.devRef .tc main_v28)
    = Spec.entFin (Host.scatterAdd (F := Ideal) (φ := .f32) scatter_S100000x65_S1000000x1_S1000000x65_1_0_0_1 (zeros65 (F := Ideal))
        (colI (headC (m ((c : Thread nD τ).loc main_arg3))))
        (Spec.neighExt (gatherEnt (m ((c : Thread nD τ).loc main_arg0)) (colI (wrapW 100000#32 (tailC (m ((c : Thread nD τ).loc main_arg3))))))
          (colI (etC (m ((c : Thread nD τ).loc main_arg4)))) (colF (m ((c : Thread nD τ).loc main_arg9)))
          (m ((c : Thread nD τ).loc main_arg7)))) := by
  rw [W18_v28, EntityValue.final1 (V13 m ρ) c]
  show Spec.entFin (W13 m ρ c (Proc.devRef .tc main_v27)) = _
  rw [W13_v27]
  have e24 : W12 m ρ c (Proc.devRef .tc main_v24) = (dat0 (V11 m ρ) c).arrAt 4 cfg0.N := W12_arr m ρ c 4
  rw [e24, EntityValue.final0 (V11 m ρ) c]
  show Spec.entFin (Host.scatterAdd (F := Ideal) (φ := .f32) _ _ _ (Spec.neighExt (W11 m ρ c (Proc.devRef .tc main_v21)) (W11 m ρ c (Proc.devRef .tc main_v23))
    (W11 m ρ c (Proc.devRef .tc main_v22)) (W11 m ρ c (Proc.devRef .tc main_arg7)))) = _
  rw [W11_v21, W11_v23, W11_v22, W11_arg m ρ c main_arg7 (by simp)]

/-- The user result: the user update of the scattered user messages, the transposed latent table and the disentangled
    relation weights. -/
theorem user_chain (c : Dev nD) : W18 m ρ c (Proc.devRef .tc main_v54)
    = Spec.userFin (m ((c : Thread nD τ).loc main_arg1))
        (Host.scatterAdd (F := Ideal) (φ := .f32) scatter_S50000x64_S1000000x1_S1000000x64_1_0_0_1 (zerosU (F := Ideal)) (colI (rowsC (m ((c : Thread nD τ).loc main_arg5))))
          (Spec.userMul (gatherEnt (m ((c : Thread nD τ).loc main_arg0)) (colI (wrapW 100000#32 (colsC (m ((c : Thread nD τ).loc main_arg5))))))
            (colF (m ((c : Thread nD τ).loc main_arg6)))))
        (latT (m ((c : Thread nD τ).loc main_arg2)))
        (disen (m ((c : Thread nD τ).loc main_arg7)) (m ((c : Thread nD τ).loc main_arg8))) := by
  have e54 : W18 m ρ c (Proc.devRef .tc main_v54) = (dat3 (V17 m ρ) c).arrAt 4 cfg3.N := W18_arr m ρ c 4
  rw [e54, UserValue.final3 (V17 m ρ) c]
  show Spec.userFin (W17 m ρ c (Proc.devRef .tc main_arg1)) (W17 m ρ c (Proc.devRef .tc main_v40)) (W17 m ρ c (Proc.devRef .tc main_v53))
    (W17 m ρ c (Proc.devRef .tc main_v52)) = _
  rw [W17_arg1, W17_v40, W17_v53, W17_v52]
  have e37 : W16 m ρ c (Proc.devRef .tc main_v37) = (dat2 (V15 m ρ) c).arrAt 2 cfg2.N := W16_arr m ρ c 2
  rw [e37, UserValue.final2 (V15 m ρ) c]
  show Spec.userFin _ (Host.scatterAdd (F := Ideal) (φ := .f32) _ _ _ (Spec.userMul (W15 m ρ c (Proc.devRef .tc main_v35)) (W15 m ρ c (Proc.devRef .tc main_v36)))) _ _ = _
  rw [W15_v35, W15_v36]

end Cert.KernelIdeal.Chain

end
-- ==== Proof.PreRanges.lean ====
/-
  THE INTEGER CONJUNCTS OF THE PRECONDITION, DECODED.

  The precondition says that a printed predicate of the ten argument arrays is all ones. The predicate is a conjunction
  (a chain of one-bit `and`s) of eleven "for all elements" tests, each a reduction by `and` over a whole array of
  one-bit comparison results. The last four tests speak of the integer arrays:

    * every word of the [2 × 1000000] edge-index array is ≥ 0 and < 100000;
    * every word of the [1000000] edge-type array is ≥ 1 and ≤ 16;
    * every word of row 0 of the [2 × 1000000] interaction-index array is ≥ 0 and < 50000;
    * every word of row 1 of that array is ≥ 0 and < 100000;

  all comparisons signed. A chain of `and`s that is 1 has every member 1; a reduction by `and` that is 1 met a 1 at
  every element; so each comparison holds at each index. Rows 0 and 1 of the last array are taken as a [1 × 1000000]
  slice flattened to [1000000]: the flattened slice at position e is the array at (row, e), both indices having the
  same row-major position within the slice and the slice being the array shifted by the row offset.

  Last, words. A 32-bit word w with lo ≤ w signed, for a constant 0 ≤ lo < 2³¹, has its sign bit clear, so its signed and
  unsigned values agree and lo ≤ w unsigned; and then w < n (or w ≤ n) signed against a constant n < 2³¹ is the same
  comparison of unsigned values. Hence the four range facts on the unsigned values of the words, which is how the
  arrays are used as indices.
-/
import proofs.«400045_j55018531062593_4_alg».proof.Defs
import proofs.«400045_j55018531062593_4_alg».proof.Proof.Gen.Pre_finite_inputs
import Idealize.ShloMosaic.Lib.ReduceAll
import Idealize.ShloMosaic.Lib.StableHlo.Predicate
import Idealize.ShloMosaic.Lib.Pipeline.Value
import Idealize.ShloMosaic.Lib.ValueIdx

namespace Cert.Proof.PreRanges

open Idealize.ShloMosaic Idealize.ShloMosaic.ValueIdx Idealize.SL.Sem

/-- The scalar shape has one index. -/
instance : Subsingleton Cert.Pre_finite_inputs.S_.Idx := ⟨fun a b => funext fun d => d.elim0⟩

/-! ## Words -/

/-- A word that is at least a small non-negative constant, signed, is non-negative: its unsigned value is below 2³¹
    and at least the constant. -/
theorem le_toNat_of_sge (w : BitVec 32) (lo : Nat) (hlo : lo < 2 ^ 31)
    (h0 : IntOp.cmpi .sge w (BitVec.ofNat 32 lo) = 1#1) : lo ≤ w.toNat ∧ w.toNat < 2 ^ 31 := by
  unfold IntOp.cmpi at h0
  rw [StableHlo.Predicate.ofBool_eq_one_iff] at h0
  simp only [BitVec.sle, decide_eq_true_eq] at h0
  rw [StableHlo.Predicate.toInt_ofNat_small lo hlo, BitVec.toInt_eq_toNat_cond] at h0
  have := w.isLt
  split at h0 <;> omega

/-- The unsigned value of a small constant word is the constant. -/
theorem toNat_ofNat_small (n : Nat) (hn : n < 2 ^ 31) : (BitVec.ofNat 32 n).toNat = n := by
  rw [BitVec.toNat_ofNat]; exact Nat.mod_eq_of_lt (by omega)

/-- A word in [0, n) signed is below n unsigned. -/
theorem toNat_lt_of_range (w : BitVec 32) (n : Nat) (hn : n < 2 ^ 31) (h0 : IntOp.cmpi .sge w (BitVec.ofNat 32 0) = 1#1)
    (h1 : IntOp.cmpi .slt w (BitVec.ofNat 32 n) = 1#1) : w.toNat < n := by
  have hw := (le_toNat_of_sge w 0 (by norm_num) h0).2
  have hb := toNat_ofNat_small n hn
  have := (StableHlo.Predicate.slt_iff_toNat hw (by rw [hb]; exact hn)).1 h1
  rwa [hb] at this

/-- A word in [lo, hi] signed, 0 ≤ lo and hi small, is in [lo, hi] unsigned. -/
theorem toNat_mem_of_range (w : BitVec 32) (lo hi : Nat) (hlo : lo < 2 ^ 31) (hhi : hi < 2 ^ 31)
    (h0 : IntOp.cmpi .sge w (BitVec.ofNat 32 lo) = 1#1) (h1 : IntOp.cmpi .sle w (BitVec.ofNat 32 hi) = 1#1) :
    lo ≤ w.toNat ∧ w.toNat ≤ hi := by
  obtain ⟨hl, hw⟩ := le_toNat_of_sge w lo hlo h0
  have hb := toNat_ofNat_small hi hhi
  have := (StableHlo.Predicate.sle_iff_toNat hw (by rw [hb]; exact hhi)).1 h1
  rw [hb] at this
  exact ⟨hl, this⟩

/-! ## A row of a two-row array -/

/-- Row `r` of a [2 × n] array, cut out as the [1 × n] slice at offsets (r, 0) and flattened to [n], reads at `e` the
    array at (r, e). -/
theorem row_read {n : Nat} {α : Type} (x : (⟨2, ![2, n]⟩ : Shape).Idx → α) (off : Fin 2 → Nat) (r : Fin 2)
    (h0 : off 0 = r.val) (h1 : off 1 = 0)
    (hs : (⟨2, ![2, n]⟩ : Shape).Slices off ⟨2, ![1, n]⟩) (hc : (⟨2, ![1, n]⟩ : Shape).ShapeCasts ⟨1, ![n]⟩) (e : Fin n) :
    shapeCast ⟨1, ![n]⟩ (extractStridedSlice ⟨2, ![1, n]⟩ off x hs) hc (ix1 e) = x (ix2 r e) := by
  -- position e of the flat row is position (0, e) of the slice …
  refine (shapeCast_apply _ hc (ix1 e) (ix2 (0 : Fin 1) e) ?_).trans ?_
  · rw [Shape.rowMajor_val_two, Shape.rowMajor_val_one]
    show 0 * _ + e.val = e.val
    omega
  -- … which is position (r, e) of the array
  · refine extractStridedSlice_apply off x hs _ (ix2 r e) fun a => ?_
    match a with
    | ⟨0, _⟩ => show r.val = off 0 + 0; omega
    | ⟨1, _⟩ => show e.val = off 1 + e.val; omega

/-! ## The conjunction taken apart -/

section Decode
open Cert.Pre_finite_inputs
variable [Cert.Pre_finite_inputs.Facts]

/-- The printed predicate being 1 gives, of any ten arrays, the eight signed comparisons at every index of the three
    integer arrays. Nothing is evaluated: the `and`s are split as facts about functions. -/
theorem decode (a0 : FVec Ideal S100000x64 .f32) (a1 : FVec Ideal S50000x64 .f32) (a2 : FVec Ideal S4x64 .f32)
    (a3 : IVec S2x1000000 32) (a4 : IVec S1000000 32) (a5 : IVec S2x1000000 32) (a6 : FVec Ideal S1000000 .f32)
    (a7 : FVec Ideal S16x64 .f32) (a8 : FVec Ideal S4x16 .f32) (a9 : FVec Ideal S1000000 .f32)
    (e : fn (F := Ideal) a0 a1 a2 a3 a4 a5 a6 a7 a8 a9 ix0 = 1#1) :
    (∀ i, IntOp.cmpi .sge (a3 i) 0#32 = 1#1 ∧ IntOp.cmpi .slt (a3 i) 100000#32 = 1#1)
    ∧ (∀ i, IntOp.cmpi .sge (a4 i) 1#32 = 1#1 ∧ IntOp.cmpi .sle (a4 i) 16#32 = 1#1)
    ∧ (∀ q : Fin 1000000, IntOp.cmpi .sge (a5 (ix2 (0 : Fin 2) q)) 0#32 = 1#1
        ∧ IntOp.cmpi .slt (a5 (ix2 (0 : Fin 2) q)) 50000#32 = 1#1)
    ∧ (∀ q : Fin 1000000, IntOp.cmpi .sge (a5 (ix2 (1 : Fin 2) q)) 0#32 = 1#1
        ∧ IntOp.cmpi .slt (a5 (ix2 (1 : Fin 2) q)) 100000#32 = 1#1) := by
  dsimp only [fn, fn_part1, fn_part2, fn_part3] at e
  -- the last four members of the chain of `and`s, outermost first
  change IntOp.andi _ _ = 1#1 at e
  obtain ⟨e, h5b⟩ := IntOp.andi_eq_one.1 e
  change IntOp.andi _ _ = 1#1 at e
  obtain ⟨e, h5a⟩ := IntOp.andi_eq_one.1 e
  change IntOp.andi _ _ = 1#1 at e
  obtain ⟨e, h4⟩ := IntOp.andi_eq_one.1 e
  change IntOp.andi _ _ = 1#1 at e
  obtain ⟨-, h3⟩ := IntOp.andi_eq_one.1 e
  -- each is a reduction by `and` over all elements: it holds at each; the element is the `and` of two comparisons
  refine ⟨fun i => ?_, fun i => ?_, fun q => ?_, fun q => ?_⟩
  · exact IntOp.andi_eq_one.1 (Host.reduce_andi_all _ _ _ _ ix0 h3 i)
  · exact IntOp.andi_eq_one.1 (Host.reduce_andi_all _ _ _ _ ix0 h4 i)
  · have k := IntOp.andi_eq_one.1 (Host.reduce_andi_all _ _ _ _ ix0 h5a (ix1 q))
    rw [← row_read a5 ![0, 0] (0 : Fin 2) rfl rfl Facts.slices_S2x1000000_S1x1000000_0_0
      Facts.shapeCasts_S1x1000000_S1000000 q]
    exact k
  · have k := IntOp.andi_eq_one.1 (Host.reduce_andi_all _ _ _ _ ix0 h5b (ix1 q))
    rw [← row_read a5 ![1, 0] (1 : Fin 2) rfl rfl Facts.slices_S2x1000000_S1x1000000_1_0
      Facts.shapeCasts_S1x1000000_S1000000 q]
    exact k

end Decode

/-! ## The four range facts, of the kernel's argument buffers on any device -/

section Ranges
variable [Cert.KernelIdeal.Facts] [Cert.Pre_finite_inputs.Facts]
  (m : (ℓ : Loc Cert.KernelIdeal.nD Cert.KernelIdeal.τ Cert.KernelIdeal.sig) → Buf (Elt Ideal) ℓ)
  (h : Cert.Pre_KernelIdeal m) (c : Dev Cert.KernelIdeal.nD)
include h

/-- Every edge index, of either row, names one of the 100000 nodes. -/
theorem edge_index_range (r : Fin 2) (e : Fin 1000000) :
    ((m ((c.tc : Thread Cert.KernelIdeal.nD Cert.KernelIdeal.τ).loc Cert.KernelIdeal.main_arg3)
      : IVec Cert.KernelIdeal.S2x1000000 32) (ix2 r e)).toNat < 100000 := by
  obtain ⟨h3, -⟩ := decode _ _ _ _ _ _ _ _ _ _ (congrFun (h c) ix0)
  exact toNat_lt_of_range _ 100000 (by norm_num) (h3 _).1 (h3 _).2

/-- Every edge type is one of 1 … 16. -/
theorem edge_type_range (e : Fin 1000000) :
    1 ≤ ((m ((c.tc : Thread Cert.KernelIdeal.nD Cert.KernelIdeal.τ).loc Cert.KernelIdeal.main_arg4)
      : IVec Cert.KernelIdeal.S1000000 32) (ix1 e)).toNat
    ∧ ((m ((c.tc : Thread Cert.KernelIdeal.nD Cert.KernelIdeal.τ).loc Cert.KernelIdeal.main_arg4)
      : IVec Cert.KernelIdeal.S1000000 32) (ix1 e)).toNat ≤ 16 := by
  obtain ⟨-, h4, -⟩ := decode _ _ _ _ _ _ _ _ _ _ (congrFun (h c) ix0)
  exact toNat_mem_of_range _ 1 16 (by norm_num) (by norm_num) (h4 _).1 (h4 _).2

/-- Every entry of row 0 of the interaction indices names one of the 50000 rows. -/
theorem rows_range (e : Fin 1000000) :
    ((m ((c.tc : Thread Cert.KernelIdeal.nD Cert.KernelIdeal.τ).loc Cert.KernelIdeal.main_arg5)
      : IVec Cert.KernelIdeal.S2x1000000 32) (ix2 (0 : Fin 2) e)).toNat < 50000 := by
  obtain ⟨-, -, h5a, -⟩ := decode _ _ _ _ _ _ _ _ _ _ (congrFun (h c) ix0)
  exact toNat_lt_of_range _ 50000 (by norm_num) (h5a e).1 (h5a e).2

/-- Every entry of row 1 of the interaction indices names one of the 100000 columns. -/
theorem cols_range (e : Fin 1000000) :
    ((m ((c.tc : Thread Cert.KernelIdeal.nD Cert.KernelIdeal.τ).loc Cert.KernelIdeal.main_arg5)
      : IVec Cert.KernelIdeal.S2x1000000 32) (ix2 (1 : Fin 2) e)).toNat < 100000 := by
  obtain ⟨-, -, -, h5b⟩ := decode _ _ _ _ _ _ _ _ _ _ (congrFun (h c) ix0)
  exact toNat_lt_of_range _ 100000 (by norm_num) (h5b e).1 (h5b e).2

end Ranges

end Cert.Proof.PreRanges
-- ==== Proof.IdxEq.lean ====
/-
  THE TWO PROGRAMS' INDEX COLUMNS AGREE.

  The kernel program prepares each index column on the host by clamping a row of an index array into its table's range
  (and, where a gather follows, wrapping a negative word round from the table's end); the reference uses the raw row,
  wrapped where it gathers. On words that are already in range both the clamp and the wrap are the identity, so the
  columns are equal as whole arrays:

    * a word w with 0 ≤ w ≤ hi < 2³¹ unsigned is non-negative signed, so max(0, w) = w and min(hi, w) = w, signed;
    * a non-negative word is not below 0 signed, so "w + n if w < 0 else w" is w;
    * for 1 ≤ w ≤ 16 the word w − 1 has value w − 1, between 0 and 15.

  Each equality is proved pointwise on the vector of one million words, the word at position e of row r being the
  index array at (r, e); nothing is evaluated. The float columns, the gathers read through equal columns, the
  transposed table and the relation weights are the same terms in both programs and are equal by definition.
-/
import proofs.«400045_j55018531062593_4_alg».proof.Proof.KHostDefs
import proofs.«400045_j55018531062593_4_alg».proof.Proof.Gen.ReferenceIdeal.Read
import proofs.«400045_j55018531062593_4_alg».proof.Proof.PreRanges
import Idealize.ShloMosaic.Lib.StableHlo.Predicate
import Idealize.ShloMosaic.Lib.ValueIdx

namespace Cert.Proof.IdxEq

open Idealize.ShloMosaic Idealize.ShloMosaic.ValueIdx Idealize.SL.Sem
open Cert.KernelIdeal.Chain Cert.ReferenceIdeal.Read

/-! ## Words -/

/-- Between two non-negative words, the first is not below the second (signed) when it is not below it unsigned. -/
theorem slt_eq_false {a b : BitVec 32} (ha : a.toNat < 2 ^ 31) (hb : b.toNat < 2 ^ 31) (h : b.toNat ≤ a.toNat) :
    a.slt b = false := by
  simp only [BitVec.slt, StableHlo.Predicate.toInt_eq_toNat_of_lt ha, StableHlo.Predicate.toInt_eq_toNat_of_lt hb,
    decide_eq_false_iff_not]
  omega

/-- The larger of 0 and a non-negative word is the word. -/
theorem maxsi_zero (w : BitVec 32) (hw : w.toNat < 2 ^ 31) : IntOp.maxsi 0#32 w = w := by
  have h := slt_eq_false (a := w) (b := 0#32) hw (by decide) (Nat.zero_le _)
  unfold IntOp.maxsi
  rw [h]; rfl

/-- The smaller of a bound and a non-negative word not above it is the word. -/
theorem minsi_of_le (hi w : BitVec 32) (hhi : hi.toNat < 2 ^ 31) (hw : w.toNat ≤ hi.toNat) : IntOp.minsi hi w = w := by
  have h := slt_eq_false (a := hi) (b := w) hhi (by omega) hw
  unfold IntOp.minsi
  rw [h]; rfl

/-- A non-negative word is left alone by the wrap-around. -/
theorem select_slt_zero {α : Type} (w : BitVec 32) (hw : w.toNat < 2 ^ 31) (a b : α) :
    Scalar.select (IntOp.cmpi .slt w 0#32) a b = b := by
  have h := slt_eq_false (a := w) (b := 0#32) hw (by decide) (Nat.zero_le _)
  unfold IntOp.cmpi Scalar.select
  simp only [h]
  rfl

/-- One less than a positive word. -/
theorem toNat_sub_one (w : BitVec 32) (hw : 1 ≤ w.toNat) : (IntOp.subi w 1#32).toNat = w.toNat - 1 := by
  unfold IntOp.subi
  rw [BitVec.toNat_sub]
  have := w.isLt
  show (2 ^ 32 - 1 + w.toNat) % 2 ^ 32 = w.toNat - 1
  omega

/-! ## Vectors of one million words -/

section Vectors
variable {F : FTy → Type} [FloatOps F]

/-- The clamp into [0, hi] of words that are at most hi unsigned, hi below 2³¹, is the identity. -/
theorem clipW_eq_self (hi : BitVec 32) (hhi : hi.toNat < 2 ^ 31)
    (x : (⟨Cert.KernelIdeal.S1000000, .i32⟩ : BufTy).Contents (Elt F)) (hx : ∀ i, (x i).toNat ≤ hi.toNat) :
    clipW (F := F) 0#32 hi x = x := by
  funext i
  show IntOp.minsi hi (IntOp.maxsi 0#32 (x i)) = x i
  rw [maxsi_zero _ (lt_of_le_of_lt (hx i) hhi), minsi_of_le _ _ hhi (hx i)]

/-- The wrap-around of non-negative words is the identity. -/
theorem wrapW_eq_self (n : BitVec 32) (x : (⟨Cert.KernelIdeal.S1000000, .i32⟩ : BufTy).Contents (Elt F))
    (hx : ∀ i, (x i).toNat < 2 ^ 31) : wrapW (F := F) n x = x := by
  funext i
  show Scalar.select (IntOp.cmpi .slt (x i) 0#32) (IntOp.addi (x i) n) (x i) = x i
  exact select_slt_zero _ (hx i) _ _

/-- Rows 0 and 1 of a pair of index rows, read at a position. -/
theorem row0_apply (x : (⟨Cert.KernelIdeal.S2x1000000, .i32⟩ : BufTy).Contents (Elt F)) (e : Fin 1000000) :
    row0 (F := F) x (ix1 e) = x (ix2 (0 : Fin 2) e) :=
  Cert.Proof.PreRanges.row_read x ![0, 0] (0 : Fin 2) rfl rfl _ _ e
theorem row1_apply (x : (⟨Cert.KernelIdeal.S2x1000000, .i32⟩ : BufTy).Contents (Elt F)) (e : Fin 1000000) :
    row1 (F := F) x (ix1 e) = x (ix2 (1 : Fin 2) e) :=
  Cert.Proof.PreRanges.row_read x ![1, 0] (1 : Fin 2) rfl rfl _ _ e

/-! ## The five index columns, on arrays in range -/

/-- The head column: the clamp into [0, 99999] changes no word below 100000. -/
theorem head_eq (x3 : (⟨Cert.KernelIdeal.S2x1000000, .i32⟩ : BufTy).Contents (Elt F))
    (h3 : ∀ (r : Fin 2) (e : Fin 1000000), (x3 (ix2 r e)).toNat < 100000) :
    colI (headC (F := F) x3) = val_main_v25 (F := F) x3 := by
  have hc : headC (F := F) x3 = row0 x3 := clipW_eq_self 99999#32 (by decide) _ fun i => by
    obtain ⟨e, rfl⟩ : ∃ e : Fin 1000000, i = ix1 e := ⟨i 0, eq_ix1 i⟩
    have hr : row0 (F := F) x3 (ix1 e) = x3 (ix2 (0 : Fin 2) e) := row0_apply x3 e
    have := h3 0 e
    show (row0 (F := F) x3 (ix1 e)).toNat ≤ 99999
    rw [hr]; omega
  rw [hc]; rfl

/-- The tail column: clamped then wrapped on the one side, wrapped on the other; the clamp changes nothing. -/
theorem tail_eq (x3 : (⟨Cert.KernelIdeal.S2x1000000, .i32⟩ : BufTy).Contents (Elt F))
    (h3 : ∀ (r : Fin 2) (e : Fin 1000000), (x3 (ix2 r e)).toNat < 100000) :
    colI (wrapW (F := F) 100000#32 (tailC x3)) = val_main_v18 (F := F) x3 := by
  have hc : tailC (F := F) x3 = row1 x3 := clipW_eq_self 99999#32 (by decide) _ fun i => by
    obtain ⟨e, rfl⟩ : ∃ e : Fin 1000000, i = ix1 e := ⟨i 0, eq_ix1 i⟩
    have hr : row1 (F := F) x3 (ix1 e) = x3 (ix2 (1 : Fin 2) e) := row1_apply x3 e
    have := h3 1 e
    show (row1 (F := F) x3 (ix1 e)).toNat ≤ 99999
    rw [hr]; omega
  rw [hc]; rfl

/-- The relation column: type − 1 clamped into [0, 15] on the one side, wrapped by 16 on the other; for types
    1 … 16 both are type − 1. -/
theorem et_eq (x4 : (⟨Cert.KernelIdeal.S1000000, .i32⟩ : BufTy).Contents (Elt F))
    (h4 : ∀ e : Fin 1000000, 1 ≤ (x4 (ix1 e)).toNat ∧ (x4 (ix1 e)).toNat ≤ 16) :
    colI (etC (F := F) x4) = val_main_v11 (F := F) x4 := by
  have hv : ∀ i, (etm1 (F := F) x4 i).toNat ≤ 15 := fun i => by
    obtain ⟨e, rfl⟩ : ∃ e : Fin 1000000, i = ix1 e := ⟨i 0, eq_ix1 i⟩
    have h := h4 e
    show (IntOp.subi (x4 (ix1 e)) 1#32).toNat ≤ 15
    rw [toNat_sub_one _ h.1]
    omega
  have hc : etC (F := F) x4 = wrapW 16#32 (etm1 x4) :=
    (clipW_eq_self 15#32 (by decide) _ hv).trans
      (wrapW_eq_self 16#32 _ fun i => lt_of_le_of_lt (hv i) (by norm_num)).symm
  rw [hc]; rfl

/-- The row column of the interactions: the clamp into [0, 49999] changes no word below 50000. -/
theorem rows_eq (x5 : (⟨Cert.KernelIdeal.S2x1000000, .i32⟩ : BufTy).Contents (Elt F))
    (h5r : ∀ e : Fin 1000000, (x5 (ix2 (0 : Fin 2) e)).toNat < 50000) :
    colI (rowsC (F := F) x5) = val_main_v64 (F := F) x5 := by
  have hc : rowsC (F := F) x5 = row0 x5 := clipW_eq_self 49999#32 (by decide) _ fun i => by
    obtain ⟨e, rfl⟩ : ∃ e : Fin 1000000, i = ix1 e := ⟨i 0, eq_ix1 i⟩
    have hr : row0 (F := F) x5 (ix1 e) = x5 (ix2 (0 : Fin 2) e) := row0_apply x5 e
    have := h5r e
    show (row0 (F := F) x5 (ix1 e)).toNat ≤ 49999
    rw [hr]; omega
  rw [hc]; rfl

/-- The column column of the interactions: clamped then wrapped against wrapped. -/
theorem cols_eq (x5 : (⟨Cert.KernelIdeal.S2x1000000, .i32⟩ : BufTy).Contents (Elt F))
    (h5c : ∀ e : Fin 1000000, (x5 (ix2 (1 : Fin 2) e)).toNat < 100000) :
    colI (wrapW (F := F) 100000#32 (colsC x5)) = val_main_v59 (F := F) x5 := by
  have hc : colsC (F := F) x5 = row1 x5 := clipW_eq_self 99999#32 (by decide) _ fun i => by
    obtain ⟨e, rfl⟩ : ∃ e : Fin 1000000, i = ix1 e := ⟨i 0, eq_ix1 i⟩
    have hr : row1 (F := F) x5 (ix1 e) = x5 (ix2 (1 : Fin 2) e) := row1_apply x5 e
    have := h5c e
    show (row1 (F := F) x5 (ix1 e)).toNat ≤ 99999
    rw [hr]; omega
  rw [hc]; rfl

/-! ## The stages that are the same terms -/

theorem mask_eq (x9 : (⟨Cert.KernelIdeal.S1000000, .f32⟩ : BufTy).Contents (Elt F)) :
    colF (F := F) x9 = val_main_v21 (F := F) x9 := rfl
theorem vals_eq (x6 : (⟨Cert.KernelIdeal.S1000000, .f32⟩ : BufTy).Contents (Elt F)) :
    colF (F := F) x6 = val_main_v53 (F := F) x6 := rfl
theorem latT_eq (x2 : (⟨Cert.KernelIdeal.S4x64, .f32⟩ : BufTy).Contents (Elt F)) :
    latT (F := F) x2 = val_main_v36 (F := F) x2 := rfl
theorem disen_eq (x7 : (⟨Cert.KernelIdeal.S16x64, .f32⟩ : BufTy).Contents (Elt F))
    (x8 : (⟨Cert.KernelIdeal.S4x16, .f32⟩ : BufTy).Contents (Elt F)) :
    disen (F := F) x7 x8 = val_main_v77 (F := F) x7 x8 := rfl
theorem gather_tail_eq (x0 : (⟨Cert.KernelIdeal.S100000x64, .f32⟩ : BufTy).Contents (Elt F))
    (x3 : (⟨Cert.KernelIdeal.S2x1000000, .i32⟩ : BufTy).Contents (Elt F)) :
    gatherEnt (F := F) x0 (val_main_v18 (F := F) x3) = val_main_v19 (F := F) x0 x3 := rfl
theorem gather_cols_eq (x0 : (⟨Cert.KernelIdeal.S100000x64, .f32⟩ : BufTy).Contents (Elt F))
    (x5 : (⟨Cert.KernelIdeal.S2x1000000, .i32⟩ : BufTy).Contents (Elt F)) :
    gatherEnt (F := F) x0 (val_main_v59 (F := F) x5) = val_main_v60 (F := F) x0 x5 := rfl

end Vectors

/-! ## The same, of the kernel's argument buffers on any device, under the precondition -/

section OfPre
variable [Cert.KernelIdeal.Facts] [Cert.Pre_finite_inputs.Facts]
  (m : (ℓ : Loc Cert.KernelIdeal.nD Cert.KernelIdeal.τ Cert.KernelIdeal.sig) → Buf (Elt Ideal) ℓ)
  (h : Cert.Pre_KernelIdeal m) (c : Dev Cert.KernelIdeal.nD)
include h

theorem head_eq_pre :
    colI (headC (F := Ideal) (m ((c.tc : Thread Cert.KernelIdeal.nD Cert.KernelIdeal.τ).loc Cert.KernelIdeal.main_arg3)))
      = val_main_v25 (F := Ideal) (m ((c.tc : Thread Cert.KernelIdeal.nD Cert.KernelIdeal.τ).loc Cert.KernelIdeal.main_arg3)) :=
  head_eq _ (Cert.Proof.PreRanges.edge_index_range m h c)

theorem tail_eq_pre :
    colI (wrapW (F := Ideal) 100000#32
        (tailC (m ((c.tc : Thread Cert.KernelIdeal.nD Cert.KernelIdeal.τ).loc Cert.KernelIdeal.main_arg3))))
      = val_main_v18 (F := Ideal) (m ((c.tc : Thread Cert.KernelIdeal.nD Cert.KernelIdeal.τ).loc Cert.KernelIdeal.main_arg3)) :=
  tail_eq _ (Cert.Proof.PreRanges.edge_index_range m h c)

theorem et_eq_pre :
    colI (etC (F := Ideal) (m ((c.tc : Thread Cert.KernelIdeal.nD Cert.KernelIdeal.τ).loc Cert.KernelIdeal.main_arg4)))
      = val_main_v11 (F := Ideal) (m ((c.tc : Thread Cert.KernelIdeal.nD Cert.KernelIdeal.τ).loc Cert.KernelIdeal.main_arg4)) :=
  et_eq _ (Cert.Proof.PreRanges.edge_type_range m h c)

theorem rows_eq_pre :
    colI (rowsC (F := Ideal) (m ((c.tc : Thread Cert.KernelIdeal.nD Cert.KernelIdeal.τ).loc Cert.KernelIdeal.main_arg5)))
      = val_main_v64 (F := Ideal) (m ((c.tc : Thread Cert.KernelIdeal.nD Cert.KernelIdeal.τ).loc Cert.KernelIdeal.main_arg5)) :=
  rows_eq _ (Cert.Proof.PreRanges.rows_range m h c)

theorem cols_eq_pre :
    colI (wrapW (F := Ideal) 100000#32
        (colsC (m ((c.tc : Thread Cert.KernelIdeal.nD Cert.KernelIdeal.τ).loc Cert.KernelIdeal.main_arg5))))
      = val_main_v59 (F := Ideal) (m ((c.tc : Thread Cert.KernelIdeal.nD Cert.KernelIdeal.τ).loc Cert.KernelIdeal.main_arg5)) :=
  cols_eq _ (Cert.Proof.PreRanges.cols_range m h c)

end OfPre

end Cert.Proof.IdxEq
-- ==== Proof.LibGatherScatter.lean ====
/-
  The three index operations of one graph-convolution layer, READ AT AN INDEX, over generic extents: `N` rows (nodes),
  `E` start indices (edges), rows of width `D`.

  * the row gather `[N, D] → [E, D]` at a column `[E, 1]` of start indices (`gathD`): result `(e, q)` is the
    operand at `(row (idx (e, 0)), q)`;
  * the entry gather `[N] → [E]` at the same column (`gath1`): result `e` is the operand at `row (idx (e, 0))`;
    `row` is ONE function of the index word for both: the word read signed and clamped into `[0, N − 1]`;
  * the accumulating scatter `[E, D] → [N, D]` (`scatD`) and `[E] → [N]` (`scat1`) at a column of scatter indices:
    update `(e, q')` lands on `(i, q)` exactly when `q' = q` and the index word of `e`, read signed and NOT clamped,
    is `i`; hence at the ideal instance the scatter's value at `(i, q)` is the operand's plus the sum, over the edges
    `e` whose word is `i`, of the updates `(e, q)`.

  The dimension-number records are written out here with their well-formedness as an argument, so that a program's own
  record of the same fields is one of these by unfolding.
-/
import Idealize.ShloMosaic.PureOps.Ideal
import Idealize.ShloMosaic.Lib.ValueIdx

open scoped BigOperators

namespace Cert.Proof.GS

open Idealize.ShloMosaic Idealize.ShloMosaic.ValueIdx

/-! ## The records -/

/-- Row gather: operand `[N, D]`, start indices `[E, 1]`, result `[E, D]`; axis 0 collapsed and start-indexed, axis 1
    an offset axis of full width. -/
abbrev gathD (N E D : Nat) (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- Entry gather: operand `[N]`, start indices `[E, 1]`, result `[E]`; the one axis collapsed and start-indexed. -/
abbrev gath1 (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Row scatter: operand `[N, D]`, scatter indices `[E, 1]`, updates `[E, D]`; axis 0 inserted and scatter-indexed,
    axis 1 the window. -/
abbrev scatD (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- Entry scatter: operand `[N]`, scatter indices `[E, 1]`, updates `[E]`; no window. -/
abbrev scat1 (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-! ## The gathers at an index -/

/-- The row a gather reads for an index word: the word as a signed integer, clamped into `[0, N − 1]` (a negative
    word reads row 0, a word past the end the last row). -/
def row {N : Nat} (hN : 0 < N) {w : Nat} (b : BitVec w) : Fin N := ⟨min b.toInt.toNat (N - 1), by omega⟩

/-- A word whose signed value is a row number is sent to that row: the clamp leaves it alone. -/
theorem row_of_toInt {N : Nat} (hN : 0 < N) {w : Nat} (b : BitVec w) (i : Fin N) (h : b.toInt = (i.val : Int)) :
    row hN b = i := by
  refine Fin.ext ?_
  show min b.toInt.toNat (N - 1) = i.val
  rw [h, Int.toNat_natCast]
  have := i.isLt
  omega

variable {α : Type}

/-- THE ROW GATHER AT `(e, q)`: the operand at row `row (idx (e, 0))`, column `q`. On axis 0 (collapsed, no batching)
    the operand coordinate is the clamped start; on axis 1 (not start-indexed) it is the offset coordinate `q`. -/
theorem gather_gathD_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (q : Fin D) :
    Host.gather (gathD N E D wf) x idx (ix2 e q) = x (ix2 (row hN (idx (ix2 e (0 : Fin 1)))) q) := by
  unfold Host.gather
  congr 1
  funext a
  refine Fin.ext ?_
  match a with
  | ⟨0, _⟩ =>
    show (gathD N E D wf).start (ix2 e q) idx 0 + (gathD N E D wf).batchCoord (ix2 e q) 0
      + (gathD N E D wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ (gathD N E D wf).startIndexMap from List.mem_singleton.mpr rfl)]
    show min (idx _).toInt.toNat (N - 1) = min (idx (ix2 e (0 : Fin 1))).toInt.toNat (N - 1)
    congr 3
    congr 1
    funext b
    refine Fin.ext ?_
    match b with
    | ⟨0, _⟩ => rfl
    | ⟨1, _⟩ => rfl
  | ⟨1, _⟩ =>
    show (gathD N E D wf).start (ix2 e q) idx 1 + (gathD N E D wf).batchCoord (ix2 e q) 1
      + (gathD N E D wf).offCoord (ix2 e q) 1 = q.val
    rw [GatherDims.batchCoord_eq_zero _ _ _ List.not_mem_nil]
    have h1 : (1 : Fin 2) ∉ (gathD N E D wf).startIndexMap :=
      show (1 : Fin 2) ∉ ([0] : List (Fin 2)) by decide
    have hk : (1 : Fin 2) ∈ (gathD N E D wf).sKept :=
      (GatherDims.mem_sKept _ _).mpr ⟨show (1 : Fin 2) ∉ ([0] : List (Fin 2)) by decide, List.not_mem_nil⟩
    unfold GatherDims.start GatherDims.offCoord
    rw [dif_neg h1, dif_pos hk]
    simp only [Nat.zero_add]
    rfl

/-- THE ENTRY GATHER AT `e`: the operand at `row (idx (e, 0))`, the same row the row gather reads for that edge. -/
theorem gather_gath1_apply {N E w : Nat} (hN : 0 < N)
    (wf : GatherDims.WF ⟨1, ![N]⟩ ⟨2, ![E, 1]⟩ ⟨1, ![E]⟩ [] [0] [] [0] [] 1 ![1])
    (v : (⟨1, ![N]⟩ : Shape).Idx → α) (idx : IVec ⟨2, ![E, 1]⟩ w) (e : Fin E) :
    Host.gather (gath1 N E wf) v idx (ix1 e) = v (ix1 (row hN (idx (ix2 e (0 : Fin 1))))) := by
  unfold Host.gather
  congr 1
  funext a
  obtain rfl : a = 0 := Subsingleton.elim _ _
  refine Fin.ext ?_
  show (gath1 N E wf).start (ix1 e) idx 0 + (gath1 N E wf).batchCoord (ix1 e) 0 + (gath1 N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  unfold GatherDims.start
  rw [dif_pos (show (0 : Fin 1) ∈ (gath1 N E wf).startIndexMap from List.mem_singleton.mpr rfl)]
  show min (idx _).toInt.toNat (N - 1) = min (idx (ix2 e (0 : Fin 1))).toInt.toNat (N - 1)
  congr 3
  congr 1
  funext b
  refine Fin.ext ?_
  match b with
  | ⟨0, _⟩ => rfl
  | ⟨1, _⟩ => rfl

/-! ## Where a scattered update lands -/

/-- For any scatter: an update lands on operand index `r` exactly when, on every axis, its signed start plus its
    window coordinate is `r`'s coordinate (if the sum leaves the operand on some axis the update is dropped, and no
    `r` has that coordinate). -/
theorem resultIdx?_eq_some_iff {s si u : Shape} (d : ScatterDims s si u) {w : Nat} (j : u.Idx) (idx : IVec si w)
    (r : s.Idx) :
    d.resultIdx? j idx = some r ↔ ∀ a, d.start j idx a + (d.window j a : Int) = ((r a).val : Int) := by
  unfold ScatterDims.resultIdx?
  split
  · next h =>
    constructor
    · intro hh a
      have := congrFun (Option.some.inj hh) a
      rw [← this]
      exact (Int.toNat_of_nonneg (h a).1).symm
    · intro hall
      congr 1
      funext a
      refine Fin.ext ?_
      show (d.start j idx a + (d.window j a : Int)).toNat = (r a).val
      rw [hall a]; exact Int.toNat_natCast _
  · next h =>
    constructor
    · intro hh; cases hh
    · intro hall
      exfalso; apply h; intro a
      rw [hall a]
      exact ⟨Int.natCast_nonneg _, by exact_mod_cast (r a).isLt⟩

section ScatD
variable {N E D w : Nat} (wf : ScatterDims.WF ⟨2, ![N, D]⟩ ⟨2, ![E, 1]⟩ ⟨2, ![E, D]⟩ [1] [0] [0] 1)
  (idx : IVec ⟨2, ![E, 1]⟩ w) (e : Fin E) (q' : Fin D)

/-- Row scatter, axis 0: the start is the edge's index word read signed … -/
theorem scatD_start0 : (scatD N E D wf).start (ix2 e q') idx 0 = (idx (ix2 e (0 : Fin 1))).toInt := by
  unfold ScatterDims.start
  rw [dif_pos (show (0 : Fin 2) ∈ (scatD N E D wf).scatterDimsToOperandDims from List.mem_singleton.mpr rfl)]
  congr 2
  funext b
  refine Fin.ext ?_
  match b with
  | ⟨0, _⟩ => rfl
  | ⟨1, _⟩ => rfl

/-- … and there is no window coordinate (the axis is inserted). -/
theorem scatD_window0 : (scatD N E D wf).window (ix2 e q') 0 = 0 := by
  unfold ScatterDims.window
  rw [dif_neg]
  intro h
  have : (0 : Fin 2) ∉ ([0] : List (Fin 2)) := by
    simpa [ScatterDims.sKept, Shape.kept, List.mem_filter] using h
  exact this (List.mem_singleton.mpr rfl)

/-- Row scatter, axis 1: not scatter-indexed, start 0 … -/
theorem scatD_start1 : (scatD N E D wf).start (ix2 e q') idx 1 = 0 := by
  unfold ScatterDims.start
  rw [dif_neg (show (1 : Fin 2) ∉ ([0] : List (Fin 2)) by decide)]

/-- … and the window coordinate is the update's column. -/
theorem scatD_window1 : (scatD N E D wf).window (ix2 e q') 1 = q'.val := by
  unfold ScatterDims.window
  have hk : (1 : Fin 2) ∈ (scatD N E D wf).sKept := by
    simp [ScatterDims.sKept, Shape.kept, List.mem_filter]
  rw [dif_pos hk]
  rfl

/-- WHERE A ROW UPDATE LANDS: update `(e, q')` lands on `(i, q)` iff `q' = q` and the edge's index word, read signed,
    is `i`. -/
theorem scatD_resultIdx?_iff (i : Fin N) (q : Fin D) :
    (scatD N E D wf).resultIdx? (ix2 e q') idx = some (ix2 i q)
      ↔ q' = q ∧ (idx (ix2 e (0 : Fin 1))).toInt = (i.val : Int) := by
  rw [resultIdx?_eq_some_iff]
  constructor
  · intro h
    have h0 : (scatD N E D wf).start (ix2 e q') idx 0 + ((scatD N E D wf).window (ix2 e q') 0 : Int) = (i.val : Int) :=
      h 0
    have h1 : (scatD N E D wf).start (ix2 e q') idx 1 + ((scatD N E D wf).window (ix2 e q') 1 : Int) = (q.val : Int) :=
      h 1
    rw [scatD_start0, scatD_window0] at h0
    rw [scatD_start1, scatD_window1] at h1
    refine ⟨Fin.ext ?_, ?_⟩
    · have : ((q'.val : Int)) = (q.val : Int) := by simpa using h1
      exact_mod_cast this
    · simpa using h0
  · rintro ⟨rfl, ht⟩ a
    match a with
    | ⟨0, _⟩ =>
      show (scatD N E D wf).start (ix2 e q') idx 0 + ((scatD N E D wf).window (ix2 e q') 0 : Int) = (i.val : Int)
      rw [scatD_start0, scatD_window0, ht]; simp
    | ⟨1, _⟩ =>
      show (scatD N E D wf).start (ix2 e q') idx 1 + ((scatD N E D wf).window (ix2 e q') 1 : Int) = (q'.val : Int)
      rw [scatD_start1, scatD_window1]; simp

end ScatD

section Scat1
variable {N E w : Nat} (wf : ScatterDims.WF ⟨1, ![N]⟩ ⟨2, ![E, 1]⟩ ⟨1, ![E]⟩ [] [0] [0] 1)
  (idx : IVec ⟨2, ![E, 1]⟩ w) (e : Fin E)

/-- Entry scatter: the start is the edge's index word read signed … -/
theorem scat1_start0 : (scat1 N E wf).start (ix1 e) idx 0 = (idx (ix2 e (0 : Fin 1))).toInt := by
  unfold ScatterDims.start
  rw [dif_pos (show (0 : Fin 1) ∈ (scat1 N E wf).scatterDimsToOperandDims from List.mem_singleton.mpr rfl)]
  congr 2
  funext b
  refine Fin.ext ?_
  match b with
  | ⟨0, _⟩ => rfl
  | ⟨1, _⟩ => rfl

/-- … and there is no window. -/
theorem scat1_window0 : (scat1 N E wf).window (ix1 e) 0 = 0 := by
  unfold ScatterDims.window
  rw [dif_neg]
  intro h
  have : (0 : Fin 1) ∉ ([0] : List (Fin 1)) := by
    simpa [ScatterDims.sKept, Shape.kept, List.mem_filter] using h
  exact this (List.mem_singleton.mpr rfl)

/-- WHERE AN ENTRY UPDATE LANDS: update `e` lands on `i` iff the edge's index word, read signed, is `i`. -/
theorem scat1_resultIdx?_iff (i : Fin N) :
    (scat1 N E wf).resultIdx? (ix1 e) idx = some (ix1 i) ↔ (idx (ix2 e (0 : Fin 1))).toInt = (i.val : Int) := by
  rw [resultIdx?_eq_some_iff]
  constructor
  · intro h
    have h0 : (scat1 N E wf).start (ix1 e) idx 0 + ((scat1 N E wf).window (ix1 e) 0 : Int) = (i.val : Int) := h 0
    rw [scat1_start0, scat1_window0] at h0
    simpa using h0
  · intro ht a
    obtain rfl : a = 0 := Subsingleton.elim _ _
    show (scat1 N E wf).start (ix1 e) idx 0 + ((scat1 N E wf).window (ix1 e) 0 : Int) = (i.val : Int)
    rw [scat1_start0, scat1_window0, ht]; simp

end Scat1

/-! ## The accumulating scatter at an index, at the ideal instance -/

section ScatterAddAt
open Finset

/-- THE ROW SCATTER-ADD AT `(i, q)`: the operand's entry plus the sum, over the edges `e` whose index word read signed
    is `i`, of the update entries `(e, q)`. The updates that land on `(i, q)` are the `(e, q')` with `q' = q` and word
    `i`: the sum over the pairs collapses to the sum over the edges. -/
theorem scatterAdd_scatD_apply {N E D w : Nat} (wf : ScatterDims.WF ⟨2, ![N, D]⟩ ⟨2, ![E, 1]⟩ ⟨2, ![E, D]⟩ [1] [0] [0] 1)
    (x : FVec Ideal ⟨2, ![N, D]⟩ .f32) (idx : IVec ⟨2, ![E, 1]⟩ w) (upd : FVec Ideal ⟨2, ![E, D]⟩ .f32)
    (i : Fin N) (q : Fin D) :
    Host.scatterAdd (scatD N E D wf) x idx upd (ix2 i q)
      = x (ix2 i q) + ∑ e ∈ univ.filter (fun e : Fin E => (idx (ix2 e (0 : Fin 1))).toInt = (i.val : Int)), upd (ix2 e q) := by
  classical
  show x (ix2 i q) + ∑ j ∈ univ.filter (fun j => (scatD N E D wf).resultIdx? j idx = some (ix2 i q)), upd j = _
  congr 1
  rw [Finset.sum_filter, sum_idx2, Finset.sum_filter]
  refine Finset.sum_congr rfl fun e _ => ?_
  simp only [scatD_resultIdx?_iff]
  by_cases ht : (idx (ix2 e (0 : Fin 1))).toInt = (i.val : Int)
  · simp [ht]
  · simp [ht]

/-- THE ENTRY SCATTER-ADD AT `i`: the operand's entry plus the sum, over the edges whose index word read signed is
    `i`, of their updates. -/
theorem scatterAdd_scat1_apply {N E w : Nat} (wf : ScatterDims.WF ⟨1, ![N]⟩ ⟨2, ![E, 1]⟩ ⟨1, ![E]⟩ [] [0] [0] 1)
    (x : FVec Ideal ⟨1, ![N]⟩ .f32) (idx : IVec ⟨2, ![E, 1]⟩ w) (upd : FVec Ideal ⟨1, ![E]⟩ .f32) (i : Fin N) :
    Host.scatterAdd (scat1 N E wf) x idx upd (ix1 i)
      = x (ix1 i) + ∑ e ∈ univ.filter (fun e : Fin E => (idx (ix2 e (0 : Fin 1))).toInt = (i.val : Int)), upd (ix1 e) := by
  classical
  show x (ix1 i) + ∑ j ∈ univ.filter (fun j => (scat1 N E wf).resultIdx? j idx = some (ix1 i)), upd j = _
  congr 1
  refine Finset.sum_bij' (fun j _ => (j 0 : Fin E)) (fun e _ => ix1 e) ?_ ?_ ?_ ?_ ?_
  · intro j hj
    have h2 := (Finset.mem_filter.mp hj).2
    rw [eq_ix1 j] at h2
    exact Finset.mem_filter.mpr ⟨Finset.mem_univ _, (scat1_resultIdx?_iff wf idx _ i).mp h2⟩
  · intro e he
    exact Finset.mem_filter.mpr ⟨Finset.mem_univ _, (scat1_resultIdx?_iff wf idx e i).mpr (Finset.mem_filter.mp he).2⟩
  · intro j _; exact (eq_ix1 j).symm
  · intro e _; rfl
  · intro j _; exact congrArg upd (eq_ix1 j)

end ScatterAddAt

end Cert.Proof.GS
-- ==== Proof.EntBridge.lean ====
/-
  Two places where the kernel's program and the reference compute one value by different texts.

  THE ENTITY UPDATE. Every edge e has a head node, a tail node, a relation type t(e) in 1..16 and a mask m(e). Its
  message has 65 columns: for q < 64

      msg (e, q) = X (tail e, q) * (∑ k : Fin 16, [k = z(e)] * W (k, q)) * m(e),      msg (e, 64) = 1,

  where z(e) is the relation word: t(e) - 1, and 16 more if that were negative. One accumulating scatter by head
  node sums the messages of a node's incoming edges, column 64 counting them, and the update of node n is

      (∑ over the edges into n of msg (e, q)) / max (the count of those edges) 1.

  The reference instead gathers row z(e) of W, multiplies X (tail e, q) * W (z(e), q) * m(e), scatters those 64
  columns, scatters a vector of ones by the same head column for the count, and divides by the larger of the count
  and one. The two agree because the one-hot sum picks out one row: for 1 ≤ t(e) ≤ 16 the word t(e) - 1 is not
  negative, the wrap leaves it alone, it names a row 0..15 that the gather's clamp leaves alone too, and

      ∑ k, [k = z] * W (k, q) = W (z, q)

  since 0 * x = 0 and 1 * x = x for every extended real. Both scatters start from the same float zero and the count
  adds the same float one, neither of which is evaluated.

  THE USER AGGREGATE. Both programs scatter, by the interaction's user, the gathered entity row times the
  interaction's value; they differ in the order of the two factors only.
-/
import proofs.«400045_j55018531062593_4_alg».proof.KernelIdeal
import proofs.«400045_j55018531062593_4_alg».proof.Proof.Gen.KernelIdeal
import proofs.«400045_j55018531062593_4_alg».proof.Proof.Gen.ReferenceIdeal.Read
import proofs.«400045_j55018531062593_4_alg».proof.Proof.Spec
import proofs.«400045_j55018531062593_4_alg».proof.Proof.LibGatherScatter
import Idealize.ShloMosaic.Lib.ValueIdx
import Idealize.ShloMosaic.Lib.StableHlo.Predicate
import Idealize.ShloMosaic.PureOps.Ideal.Laws

open scoped BigOperators

noncomputable section

namespace Cert.Proof.EntBridge

open Cert.ReferenceIdeal Cert.ReferenceIdeal.Read Idealize.ShloMosaic Idealize.ShloMosaic.ValueIdx

variable (x0 : (⟨S100000x64, .f32⟩ : BufTy).Contents (Elt Ideal))
  (x3 x5 : (⟨S2x1000000, .i32⟩ : BufTy).Contents (Elt Ideal))
  (x4 : (⟨S1000000, .i32⟩ : BufTy).Contents (Elt Ideal))
  (x6 x9 : (⟨S1000000, .f32⟩ : BufTy).Contents (Elt Ideal))
  (x7 : (⟨S16x64, .f32⟩ : BufTy).Contents (Elt Ideal))

/-! ## The row-wise bodies at explicit coordinates -/

theorem entFin_at (S : Spec.SN65.Idx → EReal) (n : Fin 100000) (q : Fin 64) :
    Spec.entFin S (ix2 n q)
      = Ideal.div (S (ix2 n (⟨q.val, Nat.lt_succ_of_lt q.isLt⟩ : Fin 65)))
          (max (S (ix2 n (⟨64, Nat.lt_succ_self 64⟩ : Fin 65))) Spec.one) := rfl

theorem neighExt_at (g : Spec.SE64.Idx → EReal) (et : Spec.SE1.Idx → BitVec 32) (mk : Spec.SE1.Idx → EReal)
    (W : Spec.SW.Idx → EReal) (e : Fin 1000000) (q' : Fin 65) :
    Spec.neighExt g et mk W (ix2 e q') = Spec.neighExtAt g et mk W e q' := rfl

theorem userMul_at (g : Spec.SE64.Idx → EReal) (v : Spec.SE1.Idx → EReal) (e : Fin 1000000) (q : Fin 64) :
    Spec.userMul g v (ix2 e q) = g (ix2 e q) * v (ix2 e (0 : Fin 1)) := rfl

/-! ## The one-hot sum -/

/-- The one-hot row of a word whose value is the row number i picks row i out of a sixteen-row table. -/
theorem oneHot_sum (W : Spec.SW.Idx → EReal) (z : BitVec 32) (i : Fin 16) (hz : z.toNat = i.val) (q : Fin 64) :
    ∑ k : Fin 16, Spec.oneHot z k * W (ix2 k q) = W (ix2 i q) := by
  have hk : ∀ k : Fin 16, BitVec.ofNat 32 k.val = z ↔ k = i := by
    intro k
    constructor
    · intro h
      have h' := congrArg BitVec.toNat h
      rw [BitVec.toNat_ofNat, hz] at h'
      have := k.isLt
      exact Fin.ext (by omega)
    · rintro rfl
      apply BitVec.eq_of_toNat_eq
      rw [BitVec.toNat_ofNat, hz]
      have := k.isLt
      omega
  rw [Finset.sum_eq_single i]
  · unfold Spec.oneHot
    rw [if_pos ((hk i).mpr rfl), one_mul]
  · intro k _ hne
    unfold Spec.oneHot
    rw [if_neg (fun h => hne ((hk k).mp h)), zero_mul]
  · intro h
    exact absurd (Finset.mem_univ i) h

/-! ## The relation word -/

theorem idx11 (e : Fin 1000000) : idx_main_v11 (ix2 e (0 : Fin 1)) = ix1 e :=
  funext fun a => Fin.ext (by match a with | ⟨0, _⟩ => rfl)

/-- For a relation type in 1..16 the type minus one, as a word, has the value one less: a row number 0..15. -/
theorem rel_word_toNat (e : Fin 1000000) (h : 1 ≤ (x4 (ix1 e)).toNat ∧ (x4 (ix1 e)).toNat ≤ 16) :
    (x4 (ix1 e) - 1#32).toNat = (x4 (ix1 e)).toNat - 1 := by
  rw [BitVec.toNat_sub]
  show (2 ^ 32 - 1 + (x4 (ix1 e)).toNat) % 2 ^ 32 = _
  omega

/-- For a relation type in 1..16 the relation word is the type minus one: it is not negative, so the wrap leaves it. -/
theorem rel_word (e : Fin 1000000) (h : 1 ≤ (x4 (ix1 e)).toNat ∧ (x4 (ix1 e)).toNat ≤ 16) :
    val_main_v11 (F := Ideal) x4 (ix2 e (0 : Fin 1)) = x4 (ix1 e) - 1#32 := by
  rw [val_main_v11_apply, idx11, val_main_v10_apply, val_main_v7_apply, val_main_v5_apply, val_main_v4_apply,
    val_main_c_apply, val_main_v6_apply, val_main_c_0_apply]
  have hs := rel_word_toNat x4 e h
  have hz : ¬ IntOp.cmpi .slt (IntOp.subi (x4 (ix1 e)) 1#32) 0#32 = 1#1 := by
    show ¬ IntOp.cmpi .slt (x4 (ix1 e) - 1#32) 0#32 = 1#1
    rw [StableHlo.Predicate.slt_iff_toNat (by rw [hs]; omega) (by decide)]
    show ¬ (x4 (ix1 e) - 1#32).toNat < 0
    omega
  rw [eq_zero_of_ne_one hz, select_zero]
  rfl

/-! ## The messages -/

theorem idx22 (e : Fin 1000000) (q : Fin 64) : idx_main_v22 (ix2 e q) = ix2 e (0 : Fin 1) :=
  funext fun a => Fin.ext (by match a with | ⟨0, _⟩ => rfl | ⟨1, _⟩ => rfl)

/-- The gathered relation row at (e, q): the table at the row the relation word names, column q. -/
theorem rel_row_at (e : Fin 1000000) (q : Fin 64) :
    val_main_v12 (F := Ideal) x4 x7 (ix2 e q)
      = x7 (ix2 (GS.row (N := 16) (by decide) (val_main_v11 (F := Ideal) x4 (ix2 e (0 : Fin 1)))) q) :=
  GS.gather_gathD_apply (N := 16) (E := 1000000) (D := 64) (by decide)
    Cert.ReferenceIdeal.Gen.gather_S16x64_S1000000x1_S1000000x64_1_0_n_n_0_1_164_wf x7 (val_main_v11 (F := Ideal) x4) e q

/-- A message column q < 64 of the kernel's program is the reference's product at (e, q). -/
theorem msg_at (e : Fin 1000000) (h : 1 ≤ (x4 (ix1 e)).toNat ∧ (x4 (ix1 e)).toNat ≤ 16) (q : Fin 64) :
    Spec.neighExt (val_main_v19 (F := Ideal) x0 x3) (val_main_v11 (F := Ideal) x4) (val_main_v21 (F := Ideal) x9) x7
        (ix2 e (⟨q.val, Nat.lt_succ_of_lt q.isLt⟩ : Fin 65))
      = val_main_v23 (F := Ideal) x0 x3 x4 x7 x9 (ix2 e q) := by
  have hlt : (x4 (ix1 e)).toNat - 1 < 16 := by omega
  have hnat := rel_word_toNat x4 e h
  have hint : (x4 (ix1 e) - 1#32).toInt = ((⟨(x4 (ix1 e)).toNat - 1, hlt⟩ : Fin 16).val : Int) := by
    rw [StableHlo.Predicate.toInt_eq_toNat_of_lt (by rw [hnat]; omega), hnat]
  rw [neighExt_at]
  unfold Spec.neighExtAt
  rw [dif_pos (show ((⟨q.val, Nat.lt_succ_of_lt q.isLt⟩ : Fin 65)).val < 64 from q.isLt), rel_word x4 e h,
    oneHot_sum x7 _ ⟨(x4 (ix1 e)).toNat - 1, hlt⟩ hnat,
    val_main_v23_apply, val_main_v20_apply, val_main_v22_apply, idx22, rel_row_at, rel_word x4 e h,
    GS.row_of_toInt (by decide) _ ⟨(x4 (ix1 e)).toNat - 1, hlt⟩ hint]
  rfl

/-- Column 64 of a message is the float one. -/
theorem msg_one (g : Spec.SE64.Idx → EReal) (et : Spec.SE1.Idx → BitVec 32) (mk : Spec.SE1.Idx → EReal)
    (W : Spec.SW.Idx → EReal) (e : Fin 1000000) :
    Spec.neighExt g et mk W (ix2 e (⟨64, Nat.lt_succ_self 64⟩ : Fin 65)) = Spec.one := by
  rw [neighExt_at]
  unfold Spec.neighExtAt
  rw [dif_neg (show ¬ ((⟨64, Nat.lt_succ_self 64⟩ : Fin 65)).val < 64 from Nat.lt_irrefl 64)]

/-! ## The reference's two scatters and its divisor at an index -/

/-- The reference's summed messages at (n, q). -/
theorem ref_sum_at (n : Fin 100000) (q : Fin 64) :
    val_main_v26 (F := Ideal) x0 x3 x4 x7 x9 (ix2 n q)
      = Ideal.ofBits .f32 0x00000000#32
        + ∑ e ∈ Finset.univ.filter (fun e : Fin 1000000 => (val_main_v25 (F := Ideal) x3 (ix2 e (0 : Fin 1))).toInt = (n.val : Int)),
            val_main_v23 (F := Ideal) x0 x3 x4 x7 x9 (ix2 e q) :=
  GS.scatterAdd_scatD_apply (N := 100000) (E := 1000000) (D := 64)
    Cert.ReferenceIdeal.Gen.scatter_S100000x64_S1000000x1_S1000000x64_1_0_0_1_wf (val_main_v24 (F := Ideal))
    (val_main_v25 (F := Ideal) x3) (val_main_v23 (F := Ideal) x0 x3 x4 x7 x9) n q

/-- The reference's count at n. -/
theorem ref_count_at (n : Fin 100000) :
    val_main_v30 (F := Ideal) x3 (ix1 n)
      = Ideal.ofBits .f32 0x00000000#32
        + ∑ e ∈ Finset.univ.filter (fun e : Fin 1000000 => (val_main_v25 (F := Ideal) x3 (ix2 e (0 : Fin 1))).toInt = (n.val : Int)),
            Spec.one :=
  GS.scatterAdd_scat1_apply (N := 100000) (E := 1000000)
    Cert.ReferenceIdeal.Gen.scatter_S100000_S1000000x1_S1000000_n_0_0_1_wf (val_main_v28 (F := Ideal))
    (val_main_v29 (F := Ideal) x3) (val_main_v27 (F := Ideal)) n

theorem idx33_34 (n : Fin 100000) (q : Fin 64) : idx_main_v33 (idx_main_v34 (ix2 n q)) = ix1 n :=
  funext fun a => Fin.ext (by match a with | ⟨0, _⟩ => rfl)

/-- The reference's divisor at (n, q): the larger of the count at n and one. -/
theorem ref_div_at (n : Fin 100000) (q : Fin 64) :
    val_main_v34 (F := Ideal) x3 (ix2 n q) = max (val_main_v30 (F := Ideal) x3 (ix1 n)) Spec.one := by
  rw [val_main_v34_apply, val_main_v33_apply, idx33_34, val_main_v32_apply, val_main_v31_apply, val_main_cst_6_apply]
  rfl

/-! ## The kernel's program's scatter at an index -/

/-- The kernel's program's summed messages at (n, q'), over all 65 columns. -/
theorem ker_sum_at (upd : FVec Ideal Cert.KernelIdeal.S1000000x65 .f32) (n : Fin 100000) (q' : Fin 65) :
    Host.scatterAdd Cert.KernelIdeal.scatter_S100000x65_S1000000x1_S1000000x65_1_0_0_1
        (broadcastInDim Cert.KernelIdeal.S100000x65 ![] Cert.KernelIdeal.Facts₀.bcast_S_S100000x65
          (constant (F := Ideal) Cert.KernelIdeal.S_ .f32 0x00000000#32))
        (val_main_v25 (F := Ideal) x3) upd (ix2 n q')
      = Ideal.ofBits .f32 0x00000000#32
        + ∑ e ∈ Finset.univ.filter (fun e : Fin 1000000 => (val_main_v25 (F := Ideal) x3 (ix2 e (0 : Fin 1))).toInt = (n.val : Int)),
            upd (ix2 e q') :=
  GS.scatterAdd_scatD_apply (N := 100000) (E := 1000000) (D := 65)
    Cert.KernelIdeal.Gen.scatter_S100000x65_S1000000x1_S1000000x65_1_0_0_1_wf _ (val_main_v25 (F := Ideal) x3) upd n q'

/-! ## The entity update -/

theorem ent_bridge (h4 : ∀ e : Fin 1000000, 1 ≤ (x4 (ix1 e)).toNat ∧ (x4 (ix1 e)).toNat ≤ 16) (n : Fin 100000) (q : Fin 64) :
    Spec.entFin (Host.scatterAdd Cert.KernelIdeal.scatter_S100000x65_S1000000x1_S1000000x65_1_0_0_1
        (broadcastInDim Cert.KernelIdeal.S100000x65 ![] Cert.KernelIdeal.Facts₀.bcast_S_S100000x65
          (constant (F := Ideal) Cert.KernelIdeal.S_ .f32 0x00000000#32))
        (val_main_v25 (F := Ideal) x3)
        (Spec.neighExt (val_main_v19 (F := Ideal) x0 x3) (val_main_v11 (F := Ideal) x4) (val_main_v21 (F := Ideal) x9) x7))
        (ix2 n q)
      = val_main_v35 (F := Ideal) x0 x3 x4 x7 x9 (ix2 n q) := by
  rw [entFin_at, ker_sum_at, ker_sum_at, val_main_v35_apply, ref_sum_at, ref_div_at, ref_count_at]
  rw [Finset.sum_congr rfl (fun e _ => msg_at x0 x3 x4 x9 x7 e (h4 e) q),
    Finset.sum_congr rfl (fun e _ => msg_one _ _ _ _ e)]
  rfl

/-! ## The user aggregate -/

theorem idx61 (e : Fin 1000000) (q : Fin 64) : idx_main_v61 (ix2 e q) = ix2 e (0 : Fin 1) :=
  funext fun a => Fin.ext (by match a with | ⟨0, _⟩ => rfl | ⟨1, _⟩ => rfl)

/-- The two programs' user messages are one array: the factors in the other order. -/
theorem user_msg :
    Spec.userMul (val_main_v60 (F := Ideal) x0 x5) (val_main_v53 (F := Ideal) x6) = val_main_v62 (F := Ideal) x0 x5 x6 := by
  funext i
  obtain ⟨e, q, rfl⟩ : ∃ (e : Fin 1000000) (q : Fin 64), i = ix2 e q := ⟨i 0, i 1, eq_ix2 i⟩
  rw [userMul_at, val_main_v62_apply, val_main_v61_apply, idx61]
  exact mul_comm _ _

theorem user_mid :
    Host.scatterAdd Cert.KernelIdeal.scatter_S50000x64_S1000000x1_S1000000x64_1_0_0_1
        (broadcastInDim Cert.KernelIdeal.S50000x64 ![] Cert.KernelIdeal.Facts₀.bcast_S_S50000x64
          (constant (F := Ideal) Cert.KernelIdeal.S_ .f32 0x00000000#32))
        (val_main_v64 (F := Ideal) x5)
        (Spec.userMul (val_main_v60 (F := Ideal) x0 x5) (val_main_v53 (F := Ideal) x6))
      = val_main_v65 (F := Ideal) x0 x5 x6 := by
  rw [user_msg]
  rfl

end Cert.Proof.EntBridge

end
-- ==== Proof.RefUser.lean ====
/-
  The user half of the reference program, read at one index.

  For a user u and a column q the reference computes, on the extended reals,

    out (u, q) = A (u, q) * (∑ k : Fin 4, softmax (logit u) k * D (k, q)) + A (u, q),

  where A is the aggregate of the user's interactions, D the disentangled relation weights,
  logit u k = ∑ j : Fin 64, X (u, j) * LT (j, k) the score of the user's embedding against latent factor k, and

    softmax f k = exp (f k - m) / ∑ j, exp (f j - m),     m = max (-∞) (fold of max from -∞ over f).

  The stages are read one at a time at explicit coordinates: the scores (a contraction over the 64 embedding
  columns), the row maximum (a fold of max over the four factors, from minus infinity, then once more against
  minus infinity), the shifted exponentials, their row sum (the sum from the float zero, which is the real zero),
  the quotient, the contraction of the four softmax weights against D, and last the product with A and the sum
  with A.
-/
import proofs.«400045_j55018531062593_4_alg».proof.Proof.Gen.ReferenceIdeal.Read
import proofs.«400045_j55018531062593_4_alg».proof.Proof.Spec
import Idealize.ShloMosaic.Lib.ValueIdx
import Idealize.ShloMosaic.PureOps.Ideal.Laws
import Idealize.ShloMosaic.PureOps.Reduce

open scoped BigOperators

noncomputable section

namespace Cert.ReferenceIdeal.UserValue

open Cert.ReferenceIdeal Cert.ReferenceIdeal.Read Cert.ReferenceIdeal.Gen Idealize.ShloMosaic Idealize.ShloMosaic.ValueIdx
open Cert.Proof.Spec (logitAt rowMax softmaxAt userFinAt negInf)

variable (x0 : (⟨S100000x64, .f32⟩ : BufTy).Contents (Elt Ideal))
  (x1 : (⟨S50000x64, .f32⟩ : BufTy).Contents (Elt Ideal))
  (x2 : (⟨S4x64, .f32⟩ : BufTy).Contents (Elt Ideal))
  (x5 : (⟨S2x1000000, .i32⟩ : BufTy).Contents (Elt Ideal))
  (x6 : (⟨S1000000, .f32⟩ : BufTy).Contents (Elt Ideal))
  (x7 : (⟨S16x64, .f32⟩ : BufTy).Contents (Elt Ideal))
  (x8 : (⟨S4x16, .f32⟩ : BufTy).Contents (Elt Ideal))

/-! ## The index maps of the stages at explicit coordinates -/

/-- The left operand of the score contraction at (u, k), term j: the embedding's entry (u, j). -/
theorem lidx37 (u : Fin 50000) (k : Fin 4) (j : Fin 64) : lidx_main_v37 (ix2 u k) j = ix2 u j :=
  funext fun a => Fin.ext (by match a with | ⟨0, _⟩ => rfl | ⟨1, _⟩ => rfl)

/-- The right operand of the score contraction at (u, k), term j: the transposed latent factors' entry (j, k). -/
theorem ridx37 (u : Fin 50000) (k : Fin 4) (j : Fin 64) : ridx_main_v37 (ix2 u k) j = ix2 j k :=
  funext fun a => Fin.ext (by match a with | ⟨0, _⟩ => rfl | ⟨1, _⟩ => rfl)

/-- A row's value broadcast along the four factors is read at the row. -/
theorem idx41_42 (u : Fin 50000) (k : Fin 4) : idx_main_v41 (idx_main_v42 (ix2 u k)) = ix1 u :=
  funext fun a => Fin.ext (by match a with | ⟨0, _⟩ => rfl)

/-- Term k of the row sum at u is the entry (u, k). -/
theorem idx45 (u : Fin 50000) (k : Fin 4) : idx_main_v45 (ix1 u) k = ix2 u k :=
  funext fun a => Fin.ext (by match a with | ⟨0, _⟩ => rfl | ⟨1, _⟩ => rfl)

/-- The row sum broadcast along the four factors is read at the row. -/
theorem idx46_47 (u : Fin 50000) (k : Fin 4) : idx_main_v46 (idx_main_v47 (ix2 u k)) = ix1 u :=
  funext fun a => Fin.ext (by match a with | ⟨0, _⟩ => rfl)

/-- The left operand of the mixing contraction at (u, q), term k: the softmax weight (u, k). -/
theorem lidx78 (u : Fin 50000) (q : Fin 64) (k : Fin 4) : lidx_main_v78 (ix2 u q) k = ix2 u k :=
  funext fun a => Fin.ext (by match a with | ⟨0, _⟩ => rfl | ⟨1, _⟩ => rfl)

/-- The right operand of the mixing contraction at (u, q), term k: the relation weights' entry (k, q). -/
theorem ridx78 (u : Fin 50000) (q : Fin 64) (k : Fin 4) : ridx_main_v78 (ix2 u q) k = ix2 k q :=
  funext fun a => Fin.ext (by match a with | ⟨0, _⟩ => rfl | ⟨1, _⟩ => rfl)

/-! ## The stages -/

/-- The score of user u against factor k is the contraction of the user's embedding with column k of the
    transposed latent factors. -/
theorem score_at (u : Fin 50000) (k : Fin 4) :
    val_main_v37 (F := Ideal) x1 x2 (ix2 u k) = logitAt x1 (val_main_v36 (F := Ideal) x2) u k := by
  rw [val_main_v37_apply]
  unfold Cert.Proof.Spec.logitAt
  refine Finset.sum_congr rfl fun j _ => ?_
  rw [lidx37, ridx37]

/-- The reduction of max over the factor axis, from minus infinity, is the fold of max over the four scores. -/
theorem fold_at (u : Fin 50000) :
    val_main_v38 (F := Ideal) x1 x2 (ix1 u)
      = (Finset.univ : Finset (Fin 4)).fold max negInf (logitAt x1 (val_main_v36 (F := Ideal) x2) u) := by
  have h : S50000x4.Reduces [1] S50000 := by decide
  unfold val_main_v38
  refine (Host.reduce_eq_fold_single (FloatOps.maximumf (F := Ideal) (φ := .f32)) (val_main_v37 (F := Ideal) x1 x2)
    (val_main_cst_7 (F := Ideal)) reducesTo_S50000x4_S50000_d1 h h_S_ (ix1 u)).trans ?_
  refine Finset.fold_congr fun k _ => ?_
  refine Eq.trans ?_ (score_at x1 x2 u k)
  exact congrArg (val_main_v37 (F := Ideal) x1 x2)
    (funext fun a => Fin.ext (by match a with | ⟨0, _⟩ => rfl | ⟨1, _⟩ => rfl))

/-- The row maximum as the program takes it: the larger of minus infinity and that fold. -/
theorem rowMax_at (u : Fin 50000) :
    val_main_v40 (F := Ideal) x1 x2 (ix1 u) = rowMax (logitAt x1 (val_main_v36 (F := Ideal) x2) u) := by
  rw [val_main_v40_apply, val_main_v39_apply, val_main_cst_8_apply, fold_at]
  rfl

/-- The shifted score. -/
theorem shifted_at (u : Fin 50000) (k : Fin 4) :
    val_main_v43 (F := Ideal) x1 x2 (ix2 u k)
      = logitAt x1 (val_main_v36 (F := Ideal) x2) u k - rowMax (logitAt x1 (val_main_v36 (F := Ideal) x2) u) := by
  rw [val_main_v43_apply, val_main_v42_apply, val_main_v41_apply, idx41_42, score_at, rowMax_at]
  rfl

/-- Its exponential. -/
theorem exp_at (u : Fin 50000) (k : Fin 4) :
    val_main_v44 (F := Ideal) x1 x2 (ix2 u k)
      = Ideal.exp (logitAt x1 (val_main_v36 (F := Ideal) x2) u k - rowMax (logitAt x1 (val_main_v36 (F := Ideal) x2) u)) := by
  rw [val_main_v44_apply, shifted_at]
  rfl

/-- The row sum of the exponentials: the float zero it starts from is the real zero. -/
theorem sum_at (u : Fin 50000) :
    val_main_v45 (F := Ideal) x1 x2 (ix1 u)
      = ∑ j : Fin 4, Ideal.exp (logitAt x1 (val_main_v36 (F := Ideal) x2) u j - rowMax (logitAt x1 (val_main_v36 (F := Ideal) x2) u)) := by
  rw [val_main_v45_apply, val_main_cst_9_apply, Ideal.ofBits_def, Ideal.ofBits_zero_f32, zero_add]
  refine Finset.sum_congr rfl fun j _ => ?_
  rw [idx45, exp_at]

/-- The softmax weight of factor k for user u. -/
theorem softmax_at (u : Fin 50000) (k : Fin 4) :
    val_main_v48 (F := Ideal) x1 x2 (ix2 u k) = softmaxAt (logitAt x1 (val_main_v36 (F := Ideal) x2) u) k := by
  rw [val_main_v48_apply, val_main_v47_apply, val_main_v46_apply, idx46_47, exp_at, sum_at]
  rfl

/-- The mix of the relation weights by the softmax weights. -/
theorem mix_at (u : Fin 50000) (q : Fin 64) :
    val_main_v78 (F := Ideal) x1 x2 x7 x8 (ix2 u q)
      = ∑ k : Fin 4, softmaxAt (logitAt x1 (val_main_v36 (F := Ideal) x2) u) k * val_main_v77 (F := Ideal) x7 x8 (ix2 k q) := by
  rw [val_main_v78_apply]
  refine Finset.sum_congr rfl fun k _ => ?_
  rw [lidx78, ridx78, softmax_at]

/-- The user update at (u, q): the aggregate times its attention mix, plus the aggregate. -/
theorem ref_user (u : Fin 50000) (q : Fin 64) :
    val_main_v80 (F := Ideal) x0 x1 x2 x5 x6 x7 x8 (ix2 u q)
      = userFinAt x1 (val_main_v65 (F := Ideal) x0 x5 x6) (val_main_v36 (F := Ideal) x2)
          (val_main_v77 (F := Ideal) x7 x8) u q := by
  rw [val_main_v80_apply, val_main_v79_apply, mix_at]
  rfl

end Cert.ReferenceIdeal.UserValue

end
-- ==== Proof.Bridge.lean ====
/-
  The two programs compute the same two arrays. On the kernel's side each result is the row-wise body of its last
  pallas_call over what the host operations and the earlier calls leave; under the stated ranges of the index inputs the
  kernel's clamped index columns are the reference's own columns (a clamp, and the wrap-around of a negative index, are
  the identity on a word in range), so the kernel's term becomes a term over the reference's stages, and the reference's
  results are read at an index against the same row-wise functions: the mean of the edge messages (the one-hot product
  selects the relation row the reference gathers; one scatter of 65 columns carries the reference's sum and its count),
  and the user update (the row-wise softmax of the scores against the latent factors, mixed with the disentangled
  relation weights).
-/
import proofs.«400045_j55018531062593_4_alg».proof.Defs
import proofs.«400045_j55018531062593_4_alg».proof.Proof.KRun
import proofs.«400045_j55018531062593_4_alg».proof.Proof.KChain
import proofs.«400045_j55018531062593_4_alg».proof.Proof.IdxEq
import proofs.«400045_j55018531062593_4_alg».proof.Proof.EntBridge
import proofs.«400045_j55018531062593_4_alg».proof.Proof.RefUser
import proofs.«400045_j55018531062593_4_alg».proof.Proof.PreRanges
import proofs.«400045_j55018531062593_4_alg».proof.Proof.Gen.ReferenceIdeal.Run
import proofs.«400045_j55018531062593_4_alg».proof.Proof.Gen.ReferenceIdeal.Read
import proofs.«400045_j55018531062593_4_alg».proof.Proof.Gen.Pre_finite_inputs

set_option maxRecDepth 16384

noncomputable section

namespace Cert.Proof.Bridge

open Idealize.ShloMosaic Idealize.ShloMosaic.TcCoe Idealize.SL.Sem Idealize.ShloMosaic.ValueIdx
open Cert.KernelIdeal.Chain Cert.ReferenceIdeal.Read

variable (m : (ℓ : Loc Cert.KernelIdeal.nD Cert.KernelIdeal.τ Cert.KernelIdeal.sig) → Buf (Elt Ideal) ℓ)
  (ρ : Dev Cert.KernelIdeal.nD → PrngReg) (h : Cert.Pre_KernelIdeal m) (c : Dev Cert.KernelIdeal.nD)
include h

/-- The reference's entity stage of the kernel's argument arrays is the kernel's first result. -/
theorem ent_eq :
    val_main_v35 (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg9))
      = Cert.KernelIdeal.Gen.W18 m ρ c (Proc.devRef .tc Cert.KernelIdeal.main_v28) := by
  rw [ent_chain, IdxEq.head_eq_pre m h c, IdxEq.tail_eq_pre m h c, IdxEq.et_eq_pre m h c, IdxEq.gather_tail_eq, IdxEq.mask_eq]
  funext i
  obtain ⟨n, q, rfl⟩ : ∃ (n : Fin 100000) (q : Fin 64), i = ix2 n q := ⟨i 0, i 1, eq_ix2 i⟩
  exact (EntBridge.ent_bridge _ _ _ _ _ (PreRanges.edge_type_range m h c) n q).symm

/-- The reference's user stage of the kernel's argument arrays is the kernel's second result. -/
theorem user_eq :
    val_main_v80 (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
      = Cert.KernelIdeal.Gen.W18 m ρ c (Proc.devRef .tc Cert.KernelIdeal.main_v54) := by
  rw [user_chain, IdxEq.rows_eq_pre m h c, IdxEq.cols_eq_pre m h c, IdxEq.gather_cols_eq, IdxEq.vals_eq, IdxEq.latT_eq,
    IdxEq.disen_eq]
  have hmid := EntBridge.user_mid (m ((c.tc : Thread Cert.KernelIdeal.nD Cert.KernelIdeal.τ).loc Cert.KernelIdeal.main_arg0))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
  funext i
  obtain ⟨u, q, rfl⟩ : ∃ (u : Fin 50000) (q : Fin 64), i = ix2 u q := ⟨i 0, i 1, eq_ix2 i⟩
  refine (Cert.ReferenceIdeal.UserValue.ref_user _ _ _ _ _ _ _ u q).trans ?_
  show Spec.userFinAt _ _ _ _ u q = Spec.userFin _ _ _ _ (ix2 u q)
  rw [← hmid]
  rfl

end Cert.Proof.Bridge

end
-- ==== Proof.lean ====
/-
  The certificate of the graph-aggregation kernel against its jnp reference, over the extended reals.

  The kernel clamps its five index inputs into their tables' ranges and then runs four row-blocked pallas_calls between
  host gathers and scatter-adds: the edge messages (gathered entity row times the relation row a one-hot product
  selects, times the edge mask, with a column of ones appended), the mean of the scattered messages (sum over
  max (count, 1), the count read from the ones column), the user messages (gathered entity row times the interaction
  value), and the user update (aggregate times the softmax-weighted mix of the disentangled relation weights, plus the
  aggregate). The reference indexes without clamping, so the two agree where every index is in range of the table it
  indexes (heads, tails and item columns in [0, 100000), user rows in [0, 50000), relation types in [1, 16]), which the
  precondition states beside the finiteness of the float inputs: there a clamp and the wrap-around of a negative index
  are the identity, the one-hot product is the gathered relation row, and each of the reference's stages is the
  kernel's row-wise function of the same arrays.

  The three frames are the generated ones (the reference's is its generated run with the results dropped); the ideal
  pass rewrote nothing, so the idealization claim is trivial; the value claim runs the kernel program with its two
  result arrays kept, reads them back to the argument arrays call by call, and meets the reference's run there.
-/
import proofs.«400045_j55018531062593_4_alg».proof.Defs
import proofs.«400045_j55018531062593_4_alg».proof.Proof.Gen.Kernel
import proofs.«400045_j55018531062593_4_alg».proof.Proof.Gen.Kernel.Frame
import proofs.«400045_j55018531062593_4_alg».proof.Proof.Gen.KernelIdeal
import proofs.«400045_j55018531062593_4_alg».proof.Proof.Gen.KernelIdeal.Frame
import proofs.«400045_j55018531062593_4_alg».proof.Proof.Gen.ReferenceIdeal
import proofs.«400045_j55018531062593_4_alg».proof.Proof.Gen.ReferenceIdeal.Run
import proofs.«400045_j55018531062593_4_alg».proof.Proof.Gen.ReferenceIdeal.Read
import proofs.«400045_j55018531062593_4_alg».proof.Proof.Gen.Pre_finite_inputs
import proofs.«400045_j55018531062593_4_alg».proof.Proof.KRun
import proofs.«400045_j55018531062593_4_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- Both programs run; the kernel's two results, read back to its argument arrays, are the reference's two stages of
    the same arrays (the memories agree on the arguments). -/
theorem algebraic : Cert.algebraic_KernelIdeal_ReferenceIdeal := by
  intro m ρ m' ρ' hpre hagree
  refine ⟨fun c => Cert.KernelIdeal.Gen.W18 m ρ c (Proc.devRef .tc Cert.KernelIdeal.main_v28),
    fun c => Cert.KernelIdeal.Gen.W18 m ρ c (Proc.devRef .tc Cert.KernelIdeal.main_v54),
    Cert.KernelIdeal.Gen.run_results m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v35_eq]
    obtain ⟨h0, -, -, h3, h4, -, -, h7, -, h9⟩ := hagree c
    rw [h0, h3, h4, h7, h9]
    exact Cert.Proof.Bridge.ent_eq m ρ hpre c
  · rw [Cert.ReferenceIdeal.Read.val_main_v80_eq]
    obtain ⟨h0, h1, h2, -, -, h5, h6, h7, h8, -⟩ := hagree c
    rw [h0, h1, h2, h5, h6, h7, h8]
    exact Cert.Proof.Bridge.user_eq m ρ hpre c

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
